-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S800000 : Shape := ⟨1, ![800000]⟩
abbrev S768x768 : Shape := ⟨2, ![768, 768]⟩
abbrev S768 : Shape := ⟨1, ![768]⟩
abbrev S2x768x256 : Shape := ⟨3, ![2, 768, 256]⟩
abbrev S768x256 : Shape := ⟨2, ![768, 256]⟩
abbrev S256 : Shape := ⟨1, ![256]⟩
abbrev S2x256x256 : Shape := ⟨3, ![2, 256, 256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S800000 : S_.BroadcastsInDim S800000 (![] : Fin 0 → Fin S800000.rank)
  reducesTo_S800000_S_d0 : S800000.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S2x768x256 : S_.BroadcastsInDim S2x768x256 (![] : Fin 0 → Fin S2x768x256.rank)
  reducesTo_S2x768x256_S_d0_1_2 : S2x768x256.ReducesTo [0, 1, 2] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S2x256x256 : S_.BroadcastsInDim S2x256x256 (![] : Fin 0 → Fin S2x256x256.rank)
  reducesTo_S2x256x256_S_d0_1_2 : S2x256x256.ReducesTo [0, 1, 2] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg3 : IVec S800000 32) (main_v63 : IVec S_ 1) (main_v67 : IVec S_ 1) : IVec S_ 1 :=
  let main_v68 : IVec S_ 1 := andi main_v63 main_v67
  let main_c_26 : IVec S_ 32 := constantI S_ 32 0#32
  let main_v69 : IVec S800000 32 := broadcastInDim S800000 ![] bcast_S_S800000 main_c_26
  let main_v70 : IVec S800000 1 := cmpi .sge main_arg3 main_v69
  let main_c_27 : IVec S_ 1 := constantI S_ 1 1#1
  let main_v71 : IVec S_ 1 := (fun x v => Host.reduce IntOp.andi x v reducesTo_S800000_S_d0 h_S_) main_v70 main_c_27
  let main_v72 : IVec S_ 1 := andi main_v68 main_v71
  let main_c_28 : IVec S_ 32 := constantI S_ 32 2#32
  let main_v73 : IVec S800000 32 := broadcastInDim S800000 ![] bcast_S_S800000 main_c_28
  let main_v74 : IVec S800000 1 := cmpi .slt main_arg3 main_v73
  let main_c_29 : IVec S_ 1 := constantI S_ 1 1#1
  let main_v75 : IVec S_ 1 := (fun x v => Host.reduce IntOp.andi x v reducesTo_S800000_S_d0 h_S_) main_v74 main_c_29
  let main_v76 : IVec S_ 1 := andi main_v72 main_v75
  main_v76

def fn_part3 {F : FTy → Type} [FloatOps F] (main_arg3 : IVec S800000 32) (main_arg13 : FVec F S256 .f32) (main_arg14 : FVec F S256x2 .f32) (main_arg15 : FVec F S2 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x2 .f32 := Host.absf main_arg14
  let main_cst_22 : FVec F S_ .f32 := constant S_ .f32 0x7F800000#32
  let main_v60 : FVec F S256x2 .f32 := broadcastInDim S256x2 ![] bcast_S_S256x2 main_cst_22
  let main_v61 : IVec S256x2 1 := cmpf .olt main_v59 main_v60
  let main_c_23 : IVec S_ 1 := constantI S_ 1 1#1
  let main_v62 : IVec S_ 1 := (fun x v => Host.reduce IntOp.andi x v reducesTo_S256x2_S_d0_1 h_S_) main_v61 main_c_23
  let main_v63 : IVec S_ 1 := andi main_v58 main_v62
  let main_v64 : FVec F S2 .f32 := Host.absf main_arg15
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg3 main_v63 main_v67

def fn_part2 {F : FTy → Type} [FloatOps F] (main_arg3 : IVec S800000 32) (main_arg9 : FVec F S2x256x256 .f32) (main_arg10 : FVec F S256x256 .f32) (main_arg11 : FVec F S256 .f32) (main_arg12 : FVec F S256x256 .f32) (main_arg13 : FVec F S256 .f32) (main_arg14 : FVec F S256x2 .f32) (main_arg15 : FVec F S2 .f32) (main_v33 : IVec S_ 1) : IVec S_ 1 :=
  let main_v34 : FVec F S2x256x256 .f32 := Host.absf main_arg9
  let main_cst_12 : FVec F S_ .f32 := constant S_ .f32 0x7F800000#32
  let main_v35 : FVec F S2x256x256 .f32 := broadcastInDim S2x256x256 ![] bcast_S_S2x256x256 main_cst_12
  let main_v36 : IVec S2x256x256 1 := cmpf .olt main_v34 main_v35
  let main_c_13 : IVec S_ 1 := constantI S_ 1 1#1
  let main_v37 : IVec S_ 1 := (fun x v => Host.reduce IntOp.andi x v reducesTo_S2x256x256_S_d0_1_2 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg3 main_arg13 main_arg14 main_arg15 main_v48 main_v49 main_v50

def fn_part1 {F : FTy → Type} [FloatOps F] (main_arg3 : IVec S800000 32) (main_arg6 : FVec F S2x768x256 .f32) (main_arg7 : FVec F S768x256 .f32) (main_arg8 : FVec F S256 .f32) (main_arg9 : FVec F S2x256x256 .f32) (main_arg10 : FVec F S256x256 .f32) (main_arg11 : FVec F S256 .f32) (main_arg12 : FVec F S256x256 .f32) (main_arg13 : FVec F S256 .f32) (main_arg14 : FVec F S256x2 .f32) (main_arg15 : FVec F S2 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S2x768x256 .f32 := Host.absf main_arg6
  let main_cst_6 : FVec F S_ .f32 := constant S_ .f32 0x7F800000#32
  let main_v20 : FVec F S2x768x256 .f32 := broadcastInDim S2x768x256 ![] bcast_S_S2x768x256 main_cst_6
  let main_v21 : IVec S2x768x256 1 := cmpf .olt main_v19 main_v20
  let main_c_7 : IVec S_ 1 := constantI S_ 1 1#1
  let main_v22 : IVec S_ 1 := (fun x v => Host.reduce IntOp.andi x v reducesTo_S2x768x256_S_d0_1_2 h_S_) main_v21 main_c_7
  let main_v23 : IVec S_ 1 := andi main_v18 main_v22
  let main_v24 : FVec F S768x256 .f32 := Host.absf main_arg7
  let main_cst_8 : FVec F S_ .f32 := constant S_ .f32 0x7F800000#32
  let main_v25 : FVec F S768x256 .f32 := broadcastInDim S768x256 ![] bcast_S_S768x256 main_cst_8
  let main_v26 : IVec S768x256 1 := cmpf .olt main_v24 main_v25
  let main_c_9 : IVec S_ 1 := constantI S_ 1 1#1
  let main_v27 : IVec S_ 1 := (fun x v => Host.reduce IntOp.andi x v reducesTo_S768x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg3 main_arg9 main_arg10 main_arg11 main_arg12 main_arg13 main_arg14 main_arg15 main_v33

def fn {F : FTy → Type} [FloatOps F] (main_arg0 : FVec F S50000x768 .f32) (main_arg1 : IVec S2x800000 32) (main_arg2 : FVec F S800000 .f32) (main_arg3 : IVec S800000 32) (main_arg4 : FVec F S768x768 .f32) (main_arg5 : FVec F S768 .f32) (main_arg6 : FVec F S2x768x256 .f32) (main_arg7 : FVec F S768x256 .f32) (main_arg8 : FVec F S256 .f32) (main_arg9 : FVec F S2x256x256 .f32) (main_arg10 : FVec F S256x256 .f32) (main_arg11 : FVec F S256 .f32) (main_arg12 : FVec F S256x256 .f32) (main_arg13 : FVec F S256 .f32) (main_arg14 : FVec F S256x2 .f32) (main_arg15 : FVec F S2 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S768x768 .f32 := Host.absf main_arg4
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg5
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg3 main_arg6 main_arg7 main_arg8 main_arg9 main_arg10 main_arg11 main_arg12 main_arg13 main_arg14 main_arg15 main_v13 main_v16
-- ==== Kernel.lean ====
abbrev S50000x768 : Shape := ⟨2, ![50000, 768]⟩
abbrev S2x800000 : Shape := ⟨2, ![2, 800000]⟩
abbrev S800000 : Shape := ⟨1, ![800000]⟩
abbrev S768x768 : Shape := ⟨2, ![768, 768]⟩
abbrev S768 : Shape := ⟨1, ![768]⟩
abbrev S2x768x256 : Shape := ⟨3, ![2, 768, 256]⟩
abbrev S768x256 : Shape := ⟨2, ![768, 256]⟩
abbrev S256 : Shape := ⟨1, ![256]⟩
abbrev S2x256x256 : Shape := ⟨3, ![2, 256, 256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S800000x1 : Shape := ⟨2, ![800000, 1]⟩
abbrev S1x2 : Shape := ⟨2, ![1, 2]⟩
abbrev S800000x2 : Shape := ⟨2, ![800000, 2]⟩
abbrev S_ : Shape := ⟨0, ![]⟩
abbrev S50000x2 : Shape := ⟨2, ![50000, 2]⟩
abbrev S1x768x256 : Shape := ⟨3, ![1, 768, 256]⟩
abbrev S1x768 : Shape := ⟨2, ![1, 768]⟩
abbrev S1000x768 : Shape := ⟨2, ![1000, 768]⟩
abbrev S50000x256 : Shape := ⟨2, ![50000, 256]⟩
abbrev S1x256 : Shape := ⟨2, ![1, 256]⟩
abbrev S50000x512 : Shape := ⟨2, ![50000, 512]⟩
abbrev S50000x2x256 : Shape := ⟨3, ![50000, 2, 256]⟩
abbrev S800000x256 : Shape := ⟨2, ![800000, 256]⟩
abbrev S1x256x256 : Shape := ⟨3, ![1, 256, 256]⟩
abbrev S256x768 : Shape := ⟨2, ![256, 768]⟩
abbrev S2000x256 : Shape := ⟨2, ![2000, 256]⟩
abbrev S2000x768 : Shape := ⟨2, ![2000, 768]⟩
abbrev S2000x2 : Shape := ⟨2, ![2000, 2]⟩
abbrev S2000 : Shape := ⟨1, ![2000]⟩
abbrev S2000x1 : Shape := ⟨2, ![2000, 1]⟩

abbrev nBuf : Space → Nat
  | .hbm => 138
  | .vmem => 20
  | .smem => 0
  | _ => 0

abbrev hbmTy0_0 (i : Nat) : BufTy := match i % 128 with
  | 0 => ⟨S50000x768, .f32⟩
  | 1 => ⟨S2x800000, .i32⟩
  | 2 => ⟨S800000, .f32⟩
  | 3 => ⟨S800000, .i32⟩
  | 4 => ⟨S768x768, .f32⟩
  | 5 => ⟨S768, .f32⟩
  | 6 => ⟨S2x768x256, .f32⟩
  | 7 => ⟨S768x256, .f32⟩
  | 8 => ⟨S256, .f32⟩
  | 9 => ⟨S2x256x256, .f32⟩
  | 10 => ⟨S256x256, .f32⟩
  | 11 => ⟨S256, .f32⟩
  | 12 => ⟨S256x256, .f32⟩
  | 13 => ⟨S256, .f32⟩
  | 14 => ⟨S256x2, .f32⟩
  | 15 => ⟨S2, .f32⟩
  | 16 => ⟨S1x800000, .i32⟩
  | 17 => ⟨S800000, .i32⟩
  | 18 => ⟨S1x800000, .i32⟩
  | 19 => ⟨S800000, .i32⟩
  | 20 => ⟨S800000x1, .i32⟩
  | 21 => ⟨S1x2, .i32⟩
  | 22 => ⟨S800000x2, .i32⟩
  | 23 => ⟨S800000x2, .i32⟩
  | 24 => ⟨S800000x2, .i1⟩
  | 25 => ⟨S800000x2, .f32⟩
  | 26 => ⟨S_, .f32⟩
  | 27 => ⟨S50000x2, .f32⟩
  | 28 => ⟨S800000x1, .i32⟩
  | 29 => ⟨S50000x2, .f32⟩
  | 30 => ⟨S_, .f32⟩
  | 31 => ⟨S50000x2, .f32⟩
  | 32 => ⟨S50000x2, .f32⟩
  | 33 => ⟨S_, .f32⟩
  | 34 => ⟨S50000x2, .f32⟩
  | 35 => ⟨S50000x2, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x1, .i32⟩
  | 52 => ⟨S800000x2, .i32⟩
  | 53 => ⟨S800000, .f32⟩
  | 54 => ⟨S1x768x256, .f32⟩
  | 55 => ⟨S768x256, .f32⟩
  | 56 => ⟨S1x768x256, .f32⟩
  | 57 => ⟨S768x256, .f32⟩
  | 58 => ⟨S768x768, .f32⟩
  | 59 => ⟨S1x768, .f32⟩
  | 60 => ⟨S50000x768, .bf16⟩
  | 61 => ⟨S50000x256, .bf16⟩
  | 62 => ⟨S50000x256, .f32⟩
  | 63 => ⟨S1x256, .f32⟩
  | 64 => ⟨S50000x256, .f32⟩
  | 65 => ⟨S50000x256, .f32⟩
  | 66 => ⟨S50000x512, .bf16⟩
  | 67 => ⟨S50000x2x256, .bf16⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x1, .i32⟩
  | 84 => ⟨S800000x2, .i32⟩
  | 85 => ⟨S800000x256, .bf16⟩
  | 86 => ⟨S800000x256, .f32⟩
  | 87 => ⟨S800000x1, .f32⟩
  | 88 => ⟨S800000x256, .f32⟩
  | 89 => ⟨S800000x256, .f32⟩
  | 90 => ⟨S_, .f32⟩
  | 91 => ⟨S50000x256, .f32⟩
  | 92 => ⟨S800000x1, .i32⟩
  | 93 => ⟨S50000x256, .f32⟩
  | 94 => ⟨S50000x256, .f32⟩
  | 95 => ⟨S1x256x256, .f32⟩
  | 96 => ⟨S256x256, .f32⟩
  | 97 => ⟨S1x256x256, .f32⟩
  | 98 => ⟨S256x256, .f32⟩
  | 99 => ⟨S256x768, .f32⟩
  | 100 => ⟨S50000x768, .bf16⟩
  | 101 => ⟨S50000x256, .bf16⟩
  | 102 => ⟨S50000x256, .f32⟩
  | 103 => ⟨S1x256, .f32⟩
  | 104 => ⟨S50000x256, .f32⟩
  | 105 => ⟨S50000x256, .f32⟩
  | 106 => ⟨S50000x512, .bf16⟩
  | 107 => ⟨S50000x2x256, .bf16⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x1, .i32⟩
  | 124 => ⟨S800000x2, .i32⟩
  | 125 => ⟨S800000x256, .bf16⟩
  | 126 => ⟨S800000x256, .f32⟩
  | 127 => ⟨S800000x1, .f32⟩
  | _ => ⟨S50000x768, .f32⟩

abbrev hbmTy0_1 (i : Nat) : BufTy := match i % 128 with
  | 0 => ⟨S800000x256, .f32⟩
  | 1 => ⟨S800000x256, .f32⟩
  | 2 => ⟨S_, .f32⟩
  | 3 => ⟨S50000x256, .f32⟩
  | 4 => ⟨S800000x1, .i32⟩
  | 5 => ⟨S50000x256, .f32⟩
  | 6 => ⟨S50000x256, .f32⟩
  | 7 => ⟨S1x256, .f32⟩
  | 8 => ⟨S1x2, .f32⟩
  | 9 => ⟨S50000x2, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | .local _ .vmem, ⟨0, _⟩ => ⟨S1000x768, .f32⟩
  | .local _ .vmem, ⟨1, _⟩ => ⟨S1000x768, .f32⟩
  | .local _ .vmem, ⟨2, _⟩ => ⟨S768x768, .f32⟩
  | .local _ .vmem, ⟨3, _⟩ => ⟨S1x768, .f32⟩
  | .local _ .vmem, ⟨4, _⟩ => ⟨S768x768, .f32⟩
  | .local _ .vmem, ⟨5, _⟩ => ⟨S1000x768, .bf16⟩
  | .local _ .vmem, ⟨6, _⟩ => ⟨S1000x768, .bf16⟩
  | .local _ .vmem, ⟨7, _⟩ => ⟨S2000x256, .f32⟩
  | .local _ .vmem, ⟨8, _⟩ => ⟨S2000x256, .f32⟩
  | .local _ .vmem, ⟨9, _⟩ => ⟨S256x768, .f32⟩
  | .local _ .vmem, ⟨10, _⟩ => ⟨S2000x768, .bf16⟩
  | .local _ .vmem, ⟨11, _⟩ => ⟨S2000x768, .bf16⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S256x2, .f32⟩
  | .local _ .vmem, ⟨17, _⟩ => ⟨S1x2, .f32⟩
  | .local _ .vmem, ⟨18, _⟩ => ⟨S2000x2, .f32⟩
  | .local _ .vmem, ⟨19, _⟩ => ⟨S2000x2, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_c_4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_5 : Ref sig .tc := ⟨.hbm, 68, rfl⟩
abbrev main_v40 : Ref sig .tc := ⟨.hbm, 69, rfl⟩
abbrev main_v41 : Ref sig .tc := ⟨.hbm, 70, rfl⟩
abbrev main_c_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_7 : Ref sig .tc := ⟨.hbm, 75, rfl⟩
abbrev main_v45 : Ref sig .tc := ⟨.hbm, 76, rfl⟩
abbrev main_v46 : Ref sig .tc := ⟨.hbm, 77, rfl⟩
abbrev main_c_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_10 : Ref sig .tc := ⟨.hbm, 108, rfl⟩
abbrev main_v75 : Ref sig .tc := ⟨.hbm, 109, rfl⟩
abbrev main_v76 : Ref sig .tc := ⟨.hbm, 110, rfl⟩
abbrev main_c_11 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_12 : Ref sig .tc := ⟨.hbm, 115, rfl⟩
abbrev main_v80 : Ref sig .tc := ⟨.hbm, 116, rfl⟩
abbrev main_v81 : Ref sig .tc := ⟨.hbm, 117, rfl⟩
abbrev main_c_13 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_14 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S800000x1_S800000x2_0_1 : S800000x1.BroadcastsInDim S800000x2 (![0, 1] : Fin 2 → Fin S800000x2.rank)
  bcast_S1x2_S800000x2_0_1 : S1x2.BroadcastsInDim S800000x2 (![0, 1] : Fin 2 → Fin S800000x2.rank)
  bcast_S_S50000x2 : S_.BroadcastsInDim S50000x2 (![] : Fin 0 → Fin S50000x2.rank)
  bcast_S_S800000 : S_.BroadcastsInDim S800000 (![] : Fin 0 → Fin S800000.rank)
  concatenates_S800000x1_S800000x1_S800000x2_d1 : Shape.Concatenates [S800000x1, S800000x1] S800000x2 1
  slices_S2x768x256_S1x768x256_0_0_0 : S2x768x256.Slices ![0, 0, 0] S1x768x256
  shapeCasts_S1x768x256_S768x256 : S1x768x256.ShapeCasts S768x256
  slices_S2x768x256_S1x768x256_1_0_0 : S2x768x256.Slices ![1, 0, 0] S1x768x256
  concatenates_S768x256_S768x256_S768x256_S768x768_d1 : Shape.Concatenates [S768x256, S768x256, S768x256] S768x768 1
  shapeCasts_S768_S1x768 : S768.ShapeCasts S1x768
  inb_S1000x768_S1000x768_0_0 : ∀ a, (![0, 0] : Fin 2 → Nat) a + S1000x768.size a ≤ S1000x768.size a
  h_S1000x768 : 0 < S1000x768.numel
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  shapeCasts_S768x768_S768x768 : S768x768.ShapeCasts S768x768
  packedbf16_S1000x768_S1000x768_0_0 : (Rect.unit (s := S1000x768) ![0, 0] S1000x768.size inb_S1000x768_S1000x768_0_0).PackedRows (EltTy.packing .bf16)
  slices_S50000x768_S50000x256_0_0 : S50000x768.Slices ![0, 0] S50000x256
  shapeCasts_S256_S1x256 : S256.ShapeCasts S1x256
  bcast_S1x256_S50000x256_0_1 : S1x256.BroadcastsInDim S50000x256 (![0, 1] : Fin 2 → Fin S50000x256.rank)
  slices_S50000x768_S50000x512_0_256 : S50000x768.Slices ![0, 256] S50000x512
  shapeCasts_S50000x512_S50000x2x256 : S50000x512.ShapeCasts S50000x2x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  slices_S2x256x256_S1x256x256_0_0_0 : S2x256x256.Slices ![0, 0, 0] S1x256x256
  shapeCasts_S1x256x256_S256x256 : S1x256x256.ShapeCasts S256x256
  slices_S2x256x256_S1x256x256_1_0_0 : S2x256x256.Slices ![1, 0, 0] S1x256x256
  concatenates_S256x256_S256x256_S256x256_S256x768_d1 : Shape.Concatenates [S256x256, S256x256, S256x256] S256x768 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S2000x768_S2000x768_0_0 : ∀ a, (![0, 0] : Fin 2 → Nat) a + S2000x768.size a ≤ S2000x768.size a
  h_S2000x768 : 0 < S2000x768.numel
  packedbf16_S2000x768_S2000x768_0_0 : (Rect.unit (s := S2000x768) ![0, 0] S2000x768.size inb_S2000x768_S2000x768_0_0).PackedRows (EltTy.packing .bf16)
  shapeCasts_S2_S1x2 : S2.ShapeCasts S1x2
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S50000x2_S800000x1_S800000x2_1_0_0_1_wf : ScatterDims.WF S50000x2 S800000x1 S800000x2 [1] [0] [0] 1
  gather_S50000x2_S800000x2_S800000_n_01_n_n_01_1_11_wf : GatherDims.WF S50000x2 S800000x2 S800000 [] [0, 1] [] [0, 1] [] 1 ![1, 1]
  dot_S1000x768_S768x768_S1000x768_1_0_0_1_n_n_wf : DotDims.WF S1000x768 S768x768 S1000x768 [1] [0] [0] [1] [] []
  gather_S50000x2x256_S800000x2_S800000x256_1_01_n_n_01_1_11256_wf : GatherDims.WF S50000x2x256 S800000x2 S800000x256 [1] [0, 1] [] [0, 1] [] 1 ![1, 1, 256]
  scatter_S50000x256_S800000x1_S800000x256_1_0_0_1_wf : ScatterDims.WF S50000x256 S800000x1 S800000x256 [1] [0] [0] 1
  dot_S2000x256_S256x768_S2000x768_1_0_0_1_n_n_wf : DotDims.WF S2000x256 S256x768 S2000x768 [1] [0] [0] [1] [] []
  dot_S2000x256_S256x256_S2000x256_1_0_0_1_n_n_wf : DotDims.WF S2000x256 S256x256 S2000x256 [1] [0] [0] [1] [] []
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S50000x768.size a
  hwx0_0 : ∀ i : grid0.Coords, EltTy.bits .f32 = 32 ∨ (Rect.block (s := S50000x768) S1000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x768.size a ≤ S50000x768.size a
  hwx0_4 : ∀ i : grid0.Coords, EltTy.bits .bf16 = 32 ∨ (Rect.block (s := S50000x768) S1000x768.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x768.size a ≤ S256x768.size a
  hwx1_1 : ∀ i : grid1.Coords, EltTy.bits .f32 = 32 ∨ (Rect.block (s := S256x768) S256x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x768.size a ≤ S50000x768.size a
  hwx1_2 : ∀ i : grid1.Coords, EltTy.bits .bf16 = 32 ∨ (Rect.block (s := S50000x768) S2000x768.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x2.size a ≤ S256x2.size a
  hwx2_3 : ∀ i : grid2.Coords, EltTy.bits .f32 = 32 ∨ (Rect.block (s := S256x2) S256x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x2.size a ≤ S50000x2.size a
  hwx2_5 : ∀ i : grid2.Coords, EltTy.bits .f32 = 32 ∨ (Rect.block (s := S50000x2) S2000x2.size (cc2_transform_5 i) (hinb2_5 i)).WholeWords (EltTy.packing .f32)

variable [Facts₀]

def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def gather_S50000x2_S800000x2_S800000_n_01_n_n_01_1_11 : GatherDims S50000x2 S800000x2 S800000 where
  offsetDims := []
  collapsedSliceDims := [0, 1]
  operandBatchingDims := []
  startIndicesBatchingDims := []
  startIndexMap := [0, 1]
  indexVectorDim := 1
  sliceSizes := ![1, 1]
  wf := gather_S50000x2_S800000x2_S800000_n_01_n_n_01_1_11_wf
def dot_S1000x768_S768x768_S1000x768_1_0_0_1_n_n : DotDims S1000x768 S768x768 S1000x768 where
  lhsContracting := [1]
  rhsContracting := [0]
  lhsNonContracting := [0]
  rhsNonContracting := [1]
  lhsBatch := []
  rhsBatch := []
  wf := dot_S1000x768_S768x768_S1000x768_1_0_0_1_n_n_wf
def gather_S50000x2x256_S800000x2_S800000x256_1_01_n_n_01_1_11256 : GatherDims S50000x2x256 S800000x2 S800000x256 where
  offsetDims := [1]
  collapsedSliceDims := [0, 1]
  operandBatchingDims := []
  startIndicesBatchingDims := []
  startIndexMap := [0, 1]
  indexVectorDim := 1
  sliceSizes := ![1, 1, 256]
  wf := gather_S50000x2x256_S800000x2_S800000x256_1_01_n_n_01_1_11256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x768_S2000x768_1_0_0_1_n_n : DotDims S2000x256 S256x768 S2000x768 where
  lhsContracting := [1]
  rhsContracting := [0]
  lhsNonContracting := [0]
  rhsNonContracting := [1]
  lhsBatch := []
  rhsBatch := []
  wf := dot_S2000x256_S256x768_S2000x768_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1000x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v61) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S256x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S2000x768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v96) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v97) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S256x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v98) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v99) S2000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S800000 : Shape := ⟨1, ![800000]⟩
abbrev S768x768 : Shape := ⟨2, ![768, 768]⟩
abbrev S768 : Shape := ⟨1, ![768]⟩
abbrev S2x768x256 : Shape := ⟨3, ![2, 768, 256]⟩
abbrev S768x256 : Shape := ⟨2, ![768, 256]⟩
abbrev S256 : Shape := ⟨1, ![256]⟩
abbrev S2x256x256 : Shape := ⟨3, ![2, 256, 256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S1x768 : Shape := ⟨2, ![1, 768]⟩
abbrev S_ : Shape := ⟨0, ![]⟩
abbrev S50000x256 : Shape := ⟨2, ![50000, 256]⟩
abbrev S1x256 : Shape := ⟨2, ![1, 256]⟩
abbrev S1x768x256 : Shape := ⟨3, ![1, 768, 256]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256x256 : Shape := ⟨3, ![1, 256, 256]⟩
abbrev S50000x2 : Shape := ⟨2, ![50000, 2]⟩
abbrev S1x2 : Shape := ⟨2, ![1, 2]⟩

abbrev nBuf : Space → Nat
  | .hbm => 208
  | .vmem => 0
  | .smem => 0
  | _ => 0

abbrev hbmTy0_0 (i : Nat) : BufTy := match i % 128 with
  | 0 => ⟨S50000x768, .f32⟩
  | 1 => ⟨S2x800000, .i32⟩
  | 2 => ⟨S800000, .f32⟩
  | 3 => ⟨S800000, .i32⟩
  | 4 => ⟨S768x768, .f32⟩
  | 5 => ⟨S768, .f32⟩
  | 6 => ⟨S2x768x256, .f32⟩
  | 7 => ⟨S768x256, .f32⟩
  | 8 => ⟨S256, .f32⟩
  | 9 => ⟨S2x256x256, .f32⟩
  | 10 => ⟨S256x256, .f32⟩
  | 11 => ⟨S256, .f32⟩
  | 12 => ⟨S256x256, .f32⟩
  | 13 => ⟨S256, .f32⟩
  | 14 => ⟨S256x2, .f32⟩
  | 15 => ⟨S2, .f32⟩
  | 16 => ⟨S1x800000, .i32⟩
  | 17 => ⟨S800000, .i32⟩
  | 18 => ⟨S1x800000, .i32⟩
  | 19 => ⟨S800000, .i32⟩
  | 20 => ⟨S50000x768, .f32⟩
  | 21 => ⟨S1x768, .f32⟩
  | 22 => ⟨S50000x768, .f32⟩
  | 23 => ⟨S50000x768, .f32⟩
  | 24 => ⟨S_, .f32⟩
  | 25 => ⟨S50000x768, .f32⟩
  | 26 => ⟨S50000x768, .i1⟩
  | 27 => ⟨S_, .f32⟩
  | 28 => ⟨S50000x768, .f32⟩
  | 29 => ⟨S50000x768, .f32⟩
  | 30 => ⟨S50000x768, .f32⟩
  | 31 => ⟨S50000x256, .f32⟩
  | 32 => ⟨S1x256, .f32⟩
  | 33 => ⟨S50000x256, .f32⟩
  | 34 => ⟨S50000x256, .f32⟩
  | 35 => ⟨S_, .i32⟩
  | 36 => ⟨S800000, .i32⟩
  | 37 => ⟨S800000, .i1⟩
  | 38 => ⟨S1x768x256, .f32⟩
  | 39 => ⟨S768x256, .f32⟩
  | 40 => ⟨S50000x256, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x256, .f32⟩
  | 50 => ⟨S800000x1, .i1⟩
  | 51 => ⟨S800000x1, .f32⟩
  | 52 => ⟨S800000x256, .f32⟩
  | 53 => ⟨S800000x256, .f32⟩
  | 54 => ⟨S_, .f32⟩
  | 55 => ⟨S50000x256, .f32⟩
  | 56 => ⟨S800000x1, .i32⟩
  | 57 => ⟨S50000x256, .f32⟩
  | 58 => ⟨S800000, .f32⟩
  | 59 => ⟨S_, .f32⟩
  | 60 => ⟨S50000, .f32⟩
  | 61 => ⟨S800000x1, .i32⟩
  | 62 => ⟨S50000, .f32⟩
  | 63 => ⟨S_, .f32⟩
  | 64 => ⟨S50000, .f32⟩
  | 65 => ⟨S50000, .f32⟩
  | 66 => ⟨S50000x1, .f32⟩
  | 67 => ⟨S50000x256, .f32⟩
  | 68 => ⟨S50000x256, .f32⟩
  | 69 => ⟨S50000x256, .f32⟩
  | 70 => ⟨S_, .i32⟩
  | 71 => ⟨S800000, .i32⟩
  | 72 => ⟨S800000, .i1⟩
  | 73 => ⟨S1x768x256, .f32⟩
  | 74 => ⟨S768x256, .f32⟩
  | 75 => ⟨S50000x256, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x256, .f32⟩
  | 85 => ⟨S800000x1, .i1⟩
  | 86 => ⟨S800000x1, .f32⟩
  | 87 => ⟨S800000x256, .f32⟩
  | 88 => ⟨S800000x256, .f32⟩
  | 89 => ⟨S_, .f32⟩
  | 90 => ⟨S50000x256, .f32⟩
  | 91 => ⟨S800000x1, .i32⟩
  | 92 => ⟨S50000x256, .f32⟩
  | 93 => ⟨S800000, .f32⟩
  | 94 => ⟨S_, .f32⟩
  | 95 => ⟨S50000, .f32⟩
  | 96 => ⟨S800000x1, .i32⟩
  | 97 => ⟨S50000, .f32⟩
  | 98 => ⟨S_, .f32⟩
  | 99 => ⟨S50000, .f32⟩
  | 100 => ⟨S50000, .f32⟩
  | 101 => ⟨S50000x1, .f32⟩
  | 102 => ⟨S50000x256, .f32⟩
  | 103 => ⟨S50000x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S_, .i32⟩
  | 110 => ⟨S800000, .i32⟩
  | 111 => ⟨S800000, .i1⟩
  | 112 => ⟨S1x256x256, .f32⟩
  | 113 => ⟨S256x256, .f32⟩
  | 114 => ⟨S50000x256, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x256, .f32⟩
  | 124 => ⟨S800000x1, .i1⟩
  | 125 => ⟨S800000x1, .f32⟩
  | 126 => ⟨S800000x256, .f32⟩
  | 127 => ⟨S800000x256, .f32⟩
  | _ => ⟨S50000x768, .f32⟩

abbrev hbmTy0_1 (i : Nat) : BufTy := match i % 128 with
  | 0 => ⟨S_, .f32⟩
  | 1 => ⟨S50000x256, .f32⟩
  | 2 => ⟨S800000x1, .i32⟩
  | 3 => ⟨S50000x256, .f32⟩
  | 4 => ⟨S800000, .f32⟩
  | 5 => ⟨S_, .f32⟩
  | 6 => ⟨S50000, .f32⟩
  | 7 => ⟨S800000x1, .i32⟩
  | 8 => ⟨S50000, .f32⟩
  | 9 => ⟨S_, .f32⟩
  | 10 => ⟨S50000, .f32⟩
  | 11 => ⟨S50000, .f32⟩
  | 12 => ⟨S50000x1, .f32⟩
  | 13 => ⟨S50000x256, .f32⟩
  | 14 => ⟨S50000x256, .f32⟩
  | 15 => ⟨S50000x256, .f32⟩
  | 16 => ⟨S_, .i32⟩
  | 17 => ⟨S800000, .i32⟩
  | 18 => ⟨S800000, .i1⟩
  | 19 => ⟨S1x256x256, .f32⟩
  | 20 => ⟨S256x256, .f32⟩
  | 21 => ⟨S50000x256, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x256, .f32⟩
  | 31 => ⟨S800000x1, .i1⟩
  | 32 => ⟨S800000x1, .f32⟩
  | 33 => ⟨S800000x256, .f32⟩
  | 34 => ⟨S800000x256, .f32⟩
  | 35 => ⟨S_, .f32⟩
  | 36 => ⟨S50000x256, .f32⟩
  | 37 => ⟨S800000x1, .i32⟩
  | 38 => ⟨S50000x256, .f32⟩
  | 39 => ⟨S800000, .f32⟩
  | 40 => ⟨S_, .f32⟩
  | 41 => ⟨S50000, .f32⟩
  | 42 => ⟨S800000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x256, .f32⟩
  | 49 => ⟨S50000x256, .f32⟩
  | 50 => ⟨S50000x256, .f32⟩
  | 51 => ⟨S50000x256, .f32⟩
  | 52 => ⟨S1x256, .f32⟩
  | 53 => ⟨S50000x256, .f32⟩
  | 54 => ⟨S50000x256, .f32⟩
  | 55 => ⟨S_, .f32⟩
  | 56 => ⟨S50000x256, .f32⟩
  | 57 => ⟨S50000x256, .i1⟩
  | 58 => ⟨S_, .f32⟩
  | 59 => ⟨S50000x256, .f32⟩
  | 60 => ⟨S50000x256, .f32⟩
  | 61 => ⟨S50000x256, .f32⟩
  | 62 => ⟨S50000x2, .f32⟩
  | 63 => ⟨S1x2, .f32⟩
  | 64 => ⟨S50000x2, .f32⟩
  | 65 => ⟨S50000x2, .f32⟩
  | 66 => ⟨S_, .f32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x2, .f32⟩
  | 73 => ⟨S50000x2, .f32⟩
  | 74 => ⟨S50000x2, .f32⟩
  | 75 => ⟨S_, .f32⟩
  | 76 => ⟨S50000, .f32⟩
  | 77 => ⟨S50000x1, .f32⟩
  | 78 => ⟨S50000x2, .f32⟩
  | 79 => ⟨S50000x2, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_1 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_7 : Ref sig .tc := ⟨.hbm, 76, rfl⟩
abbrev main_v51 : Ref sig .tc := ⟨.hbm, 77, rfl⟩
abbrev main_v52 : Ref sig .tc := ⟨.hbm, 78, rfl⟩
abbrev main_c_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_10 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_12 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_13 : Ref sig .tc := ⟨.hbm, 115, rfl⟩
abbrev main_v84 : Ref sig .tc := ⟨.hbm, 116, rfl⟩
abbrev main_v85 : Ref sig .tc := ⟨.hbm, 117, rfl⟩
abbrev main_c_14 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_15 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_16 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_17 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_18 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_c_19 : Ref sig .tc := ⟨.hbm, 150, rfl⟩
abbrev main_v113 : Ref sig .tc := ⟨.hbm, 151, rfl⟩
abbrev main_v114 : Ref sig .tc := ⟨.hbm, 152, rfl⟩
abbrev main_c_20 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_21 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_22 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_23 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_24 : Ref sig .tc := ⟨.hbm, 183, rfl⟩
abbrev main_v141 : Ref sig .tc := ⟨.hbm, 184, rfl⟩
abbrev main_v142 : Ref sig .tc := ⟨.hbm, 185, rfl⟩
abbrev main_cst_25 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_26 : Ref sig .tc := ⟨.hbm, 194, rfl⟩
abbrev main_v150 : Ref sig .tc := ⟨.hbm, 195, rfl⟩
abbrev main_cst_27 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_28 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  bcast_S_S50000x768 : S_.BroadcastsInDim S50000x768 (![] : Fin 0 → Fin S50000x768.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  slices_S2x768x256_S1x768x256_0_0_0 : S2x768x256.Slices ![0, 0, 0] S1x768x256
  shapeCasts_S1x768x256_S768x256 : S1x768x256.ShapeCasts S768x256
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S2x768x256_S1x768x256_1_0_0 : S2x768x256.Slices ![1, 0, 0] S1x768x256
  slices_S2x256x256_S1x256x256_0_0_0 : S2x256x256.Slices ![0, 0, 0] S1x256x256
  shapeCasts_S1x256x256_S256x256 : S1x256x256.ShapeCasts S256x256
  slices_S2x256x256_S1x256x256_1_0_0 : S2x256x256.Slices ![1, 0, 0] S1x256x256
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000x1_S50000x2_0_1 : S50000x1.BroadcastsInDim S50000x2 (![0, 1] : Fin 2 → Fin S50000x2.rank)
  dot_S50000x768_S768x768_S50000x768_1_0_0_1_n_n_wf : DotDims.WF S50000x768 S768x768 S50000x768 [1] [0] [0] [1] [] []
  dot_S50000x768_S768x256_S50000x256_1_0_0_1_n_n_wf : DotDims.WF S50000x768 S768x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x2_S50000x2_1_0_0_1_n_n_wf : DotDims.WF S50000x256 S256x2 S50000x2 [1] [0] [0] [1] [] []

variable [Facts₀]

def dot_S50000x768_S768x768_S50000x768_1_0_0_1_n_n : DotDims S50000x768 S768x768 S50000x768 where
  lhsContracting := [1]
  rhsContracting := [0]
  lhsNonContracting := [0]
  rhsNonContracting := [1]
  lhsBatch := []
  rhsBatch := []
  wf := dot_S50000x768_S768x768_S50000x768_1_0_0_1_n_n_wf
def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KI.Region0.lean ====
/- Region 0 of the host program: the first pallas_call, its kernel `cc0__fused1_kernel` on a grid of 50 points
   with four input windows and one output window. Stated at a parameter `V` (the TensorCore's buffer contents
   when the region is entered) and at any float instance `F`: each window's block at a grid point, what the body
   leaves in the output window's staging buffer as a function of the input blocks, the body's triple, the
   pipeline's proof data and the body obligation the pipeline library asks for. -/
import proofs.«431101_j53455162966646_3_alg».proof.Proof.Gen.KernelIdeal.Launch
import proofs.«431101_j53455162966646_3_alg».proof.Proof.Gen.KernelIdeal.Skeleton
import proofs.«431101_j53455162966646_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of these extents recurses once per coordinate of a long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what every TensorCore buffer holds when the region is entered
variable (V : (c : Dev nD) → (b : Ref sig .tc) → Buf (Elt F) ((c : Thread nD τ).loc b))

/-! ## The blocks of the five windows -/

/-- The block of window `w` at grid point `t`: the window's view of its array, read at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (the activations, a fresh block at every point): whenever the body runs, the current staging buffer
    holds this point's block. True of any proof data over the entry arrays whose body leaves the buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the first weight matrix) is copied in at the first point only and its index map is constant: at a
    later point the buffer still holds the first point's block, which is every point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 (the bias row): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window 3 (the second weight matrix): as window 1. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each access is of a whole block -/

abbrev r0_a : Rect S1000x768 := Rect.unit (s := S1000x768) ![0, 0] S1000x768.size inb_S1000x768_S1000x768_0_0
abbrev r0_w : Rect S768x768 := Rect.unit (s := S768x768) ![0, 0] S768x768.size inb_S768x768_S768x768_0_0
abbrev r0_b : Rect S1x768 := Rect.unit (s := S1x768) ![0, 0] S1x768.size inb_S1x768_S1x768_0_0

/-! ## What the body leaves in the output window's buffer -/

/-- The output window's staging buffer after the body, from the four input blocks: the body's single store
    writes the whole block with the payload computed from the four loads, so the buffer is that one piece laid
    over whatever was there (and nothing of what was there remains). -/
def out0_4 (x0 : Vec F S1000x768 .f32) (x1 : Vec F S768x768 .f32) (x2 : Vec F S1x768 .f32) (x3 : Vec F S768x768 .f32) : Vec F S1000x768 .bf16 :=
  View.canon [⟨r0_a, k0_pay1 (View.ld x0 r0_a) (View.ld x1 r0_w) (View.ld x2 r0_b) (View.ld x3 r0_w)⟩]

/-- The single stored rectangle is the whole block, so every index of the block lies in it. -/
theorem cover0_4 (p0 : Vec F S1000x768 .bf16) (y : S1000x768.Idx) :
    ∃ pc ∈ ([⟨r0_a, p0⟩] : List (View.Piece (Elt F) S1000x768 .bf16)), y ∈ pc.1.set :=
  View.cover_of_tiled [⟨r0_a, p0⟩] S1000x768.size (by rfl) y

/-! ## The body's triple -/

set_option maxHeartbeats 1000000 in
/-- The kernel body on whole staging memrefs: the four inputs' read `x0 … x3`, the output's holds anything. It
    loads each input block whole, loads the output buffer once (a value nothing uses), and stores the payload over
    the whole output block. So it returns with the inputs as they were and the output at `out0_4` of the inputs. -/
theorem sound_kernel0 (c : Dev nD) (E : Set ℕ) (i : grid0.Coords)
    (arg1 : Memref sig .tc .vmem S1000x768 .f32) (harg1 : arg1.IsWhole) (arg2 : Memref sig .tc .vmem S768x768 .f32) (harg2 : arg2.IsWhole)
    (arg3 : Memref sig .tc .vmem S1x768 .f32) (harg3 : arg3.IsWhole) (arg4 : Memref sig .tc .vmem S768x768 .f32) (harg4 : arg4.IsWhole)
    (arg5 : Memref sig .tc .vmem S1000x768 .bf16) (harg5 : arg5.IsWhole)
    (x0 : Vec F S1000x768 .f32) (x1 : Vec F S768x768 .f32) (x2 : Vec F S1x768 .f32) (x3 : Vec F S768x768 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__fused1_kernel i arg1 harg1 arg2 harg2 arg3 harg3 arg4 harg4 arg5 harg5) K := by
  simp only [cc0__fused1_kernel_eq_skeleton]; unfold cc0__fused1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of this pipeline on core `c`. The arrays are the entry contents. After the body at point `t`
    an input window's buffer holds its block (the body only reads it) and the output window's holds `out0_4` of
    the four input blocks. The invariant is the one of a body that touches its windows only; every share is full
    and no transfer is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- What the body finds in each input window's buffer: the window's block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation at a grid point -/

/-- What the pipeline hands the body at point `t`: the invariant, the core's owed count, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it takes back: the same, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. The input buffers hold their blocks, so the body's triple applies at those blocks; the
    invariant and the owed count do not change from one point to the next and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation: the above at every point, the windows' separating conjunction spelt out. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
import proofs.«431101_j53455162966646_3_alg».proof.Proof.Gen.KernelIdeal.Launch
import proofs.«431101_j53455162966646_3_alg».proof.Proof.Gen.KernelIdeal.Skeleton
import proofs.«431101_j53455162966646_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the matrix product of a row block by the resident weight

The second pallas_call walks a grid of 25 points. At each point it is handed a block of 2000 rows of the
left operand (window 0, fetched at every point), the whole right operand (window 1, fetched once, at the
first point, and resident from then on) and a staging buffer for 2000 rows of the result (window 2, written
back at every point). The body reads the two inputs, reads the result buffer once without using the value,
and stores the product over the whole result buffer.

This module states, at an arbitrary valuation `V` of the TensorCore's buffers on entry to the region, what each
window's block is, what the body leaves in the result buffer, the body's triple, the pipeline's proof data and
the body obligation the pipeline's launch theorem asks for. Everything is generic in the float instance.
-/

-- membership of an index in a rectangle with thousands of rows is checked structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`: the part of its array, as the region finds it, that the window's index map
    selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window: fetched at every point, so its current buffer holds its block there. Stated for any
    proof data over the region's arrays (`hA`) whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window: fetched at the first point only, and its index map is constant. At a later point the
    block index has not moved since the previous one, the body left the block in place, and so the buffer still
    holds the block: the same conclusion as for a window fetched everywhere. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole row block of the left operand, -/
abbrev r1_0 : Rect S2000x256 := Rect.unit (s := S2000x256) ![0, 0] S2000x256.size inb_S2000x256_S2000x256_0_0
/-- the whole right operand, -/
abbrev r1_1 : Rect S256x768 := Rect.unit (s := S256x768) ![0, 0] S256x768.size inb_S256x768_S256x768_0_0
/-- and the whole result block: read once (the value is dropped) and then stored over. -/
abbrev r1_2 : Rect S2000x768 := Rect.unit (s := S2000x768) ![0, 0] S2000x768.size inb_S2000x768_S2000x768_0_0

/-! ## What the body leaves in the result window's buffer -/

/-- The result buffer after the body, from the two input blocks: the one store, whose value is the product of
    what the two loads read. What the buffer held before does not enter: the store covers it. -/
def out1_2 (x0 : Vec F S2000x256 .f32) (x1 : Vec F S256x768 .f32) : Vec F S2000x768 .bf16 :=
  View.canon [⟨r1_2, k1_pay1 (View.ld x0 r1_0) (View.ld x1 r1_1)⟩]

/-- The one store's rectangle is the whole buffer, so it covers every index. -/
theorem cover1_2 (p0 : Vec F S2000x768 .bf16) (y : S2000x768.Idx) :
    ∃ pc ∈ ([⟨r1_2, p0⟩] : List (View.Piece (Elt F) S2000x768 .bf16)), y ∈ pc.1.set :=
  View.cover_of_tiled [⟨r1_2, p0⟩] S2000x768.size (by rfl) y

/-! ## The body's triple -/

set_option maxHeartbeats 1000000 in
/-- The body on whole staging memrefs — the inputs' reading `x0`, `x1`, the result's holding anything — runs to the
    continuation with the inputs' as they were and the result's at `out1_2 x0 x1`. The printed function is its
    skeleton of three loads and one store. Each load returns what its buffer reads over the load's rectangle and
    leaves the buffer as it was (the third reads the result buffer at whatever it holds, and nothing depends on the
    value); the store then writes the product over the whole result buffer, so what the buffer reads afterwards is
    the canonical contents of a covering list of writes. -/
theorem sound_kernel1 (c : Dev nD) (E : Set ℕ) (i : grid1.Coords) (arg1 : Memref sig .tc .vmem S2000x256 .f32) (harg1 : arg1.IsWhole)
    (arg2 : Memref sig .tc .vmem S256x768 .f32) (harg2 : arg2.IsWhole) (arg3 : Memref sig .tc .vmem S2000x768 .bf16) (harg3 : arg3.IsWhole)
    (x0 : Vec F S2000x256 .f32) (x1 : Vec F S256x768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__transform_kernel i arg1 harg1 arg2 harg2 arg3 harg3) K := by
  simp only [cc1__transform_kernel_eq_skeleton]; unfold cc1__transform_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them; after the body at
    point `t` each input's buffer still at its block and the result's at `out1_2` of the two input blocks; the
    invariant the one of a body that touches only its windows (the scoped rest and the generator register pass
    through); full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, what is owed, and each window's current staging
    buffer at what the pipeline has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_0`, `before1_1`), so the body's triple
    applies; the invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Region2.lean ====
import proofs.«431101_j53455162966646_3_alg».proof.Proof.Gen.KernelIdeal.Launch
import proofs.«431101_j53455162966646_3_alg».proof.Proof.Gen.KernelIdeal.Skeleton
import proofs.«431101_j53455162966646_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the third pallas_call's half of the run, at any float instance

The third pallas_call runs `cc2__fused3_kernel` over a grid of 25 points through six windows: a row block of
2000 rows of the activations (window 0, a new block at every point), two weight matrices and two bias rows (windows
1 to 4, the whole array as one block, brought in once), and a row block of 2000 rows of the result (window 5, written
back at every point). This module states, at a parameter `V` for the buffer contents the region is entered with,

  * each window's block at a point, read off its array (`iblk2`);
  * that an input window's staging buffer holds that block whenever the body is called, brought in at that point
    or left from an earlier one (`before2_W_of`);
  * what the body leaves in the result window's staging buffer, as a function of the five input blocks (`out2_5`);
  * the body's triple (`sound_kernel2`), the pipeline's proof data (`dat2`) and the body obligation
    (`body_obligation2`).

The body reads the result window's buffer once before it overwrites it; the value read is used nowhere, and the one
store covers the whole buffer, so what is left there does not depend on what was found. -/

-- deciding that the one store's rectangle tiles a buffer of 2000 rows walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffer contents of the TensorCore at the moment the region is entered
variable (V : (c : Dev nD) → (b : Ref sig .tc) → Buf (Elt F) ((c : Thread nD τ).loc b))

/-! ## The windows' blocks -/

/-- The block of window `w` at grid point `t`: the window's rectangle of its array there, read off the array's
    contents at region entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body finds in the input windows' buffers

For proof data `dat` whose array for the window is `V`'s and whose body leaves the window's block where it found it,
the window's current staging buffer holds the block of the point whenever the body is called. At a point where the
pipeline brings the block in this is what the copy leaves; at a point where it does not, the block index is the one
of the point before (for windows 1 to 4 the index map is constant, so this is every point after the first), and the
buffer still holds what the body left there, which is the same block. No window here is cut short at the array's
edge and none has an idle point. -/

/-- Window 0 (array `main_v96`, fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  rw [dat.before_in_eq_fetched 0 rfl (fun _ => rfl) (fun _ _ _ => rfl) hkeep t d]
  unfold Dat.fetched Dat.blockOf iblk2; rw [hA]; try rfl

/-- Window 1 (array `main_arg12`, fetched at the first point only). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]; try rfl
  rw [dat.before_in_eq_fetched 1 rfl (fun _ => rfl) (fun _ _ _ => rfl) hkeep t d]
  unfold Dat.fetched Dat.blockOf iblk2; rw [hA]; try rfl

/-- Window 2 (array `main_v97`, fetched at the first point only). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]; try rfl
  rw [dat.before_in_eq_fetched 2 rfl (fun _ => rfl) (fun _ _ _ => rfl) hkeep t d]
  unfold Dat.fetched Dat.blockOf iblk2; rw [hA]; try rfl

/-- Window 3 (array `main_arg14`, fetched at the first point only). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]; try rfl
  rw [dat.before_in_eq_fetched 3 rfl (fun _ => rfl) (fun _ _ _ => rfl) hkeep t d]
  unfold Dat.fetched Dat.blockOf iblk2; rw [hA]; try rfl

/-- Window 4 (array `main_v98`, fetched at the first point only). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t := by
  have hkeep : ∀ t, (cfg2.win 4).cut (cfg2.grid.coords t) (dat.after 4 t) = dat.blockOf 4 t := fun t => by
    rw [hafter]; unfold Dat.blockOf iblk2; rw [hA]; try rfl
  rw [dat.before_in_eq_fetched 4 rfl (fun _ => rfl) (fun _ _ _ => rfl) hkeep t d]
  unfold Dat.fetched Dat.blockOf iblk2; rw [hA]; try rfl

/-! ## The body's accesses

Every access of the body is to a whole staging buffer: the rectangle at offset 0 of the buffer's own extent. -/

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0
abbrev r2_3 : Rect S256x2 := Rect.unit (s := S256x2) ![0, 0] S256x2.size inb_S256x2_S256x2_0_0
abbrev r2_4 : Rect S1x2 := Rect.unit (s := S1x2) ![0, 0] S1x2.size inb_S1x2_S1x2_0_0
abbrev r2_5 : Rect S2000x2 := Rect.unit (s := S2000x2) ![0, 0] S2000x2.size inb_S2000x2_S2000x2_0_0

/-! ## What the body leaves in the result window's buffer -/

/-- Window 5's staging buffer after the body, from the five input blocks: the body's one store, of the payload
    `k2_pay1` at the five values loaded, laid over the buffer. -/
def out2_5 (x0 : Vec F S2000x256 .f32) (x1 : Vec F S256x256 .f32) (x2 : Vec F S1x256 .f32) (x3 : Vec F S256x2 .f32) (x4 : Vec F S1x2 .f32) : Vec F S2000x2 .f32 :=
  View.canon [⟨r2_5, k2_pay1 (View.ld x0 r2_0) (View.ld x1 r2_1) (View.ld x2 r2_2) (View.ld x3 r2_3) (View.ld x4 r2_4)⟩]

/-- The one store's rectangle is the whole buffer, so every index of the buffer lies in it. -/
theorem cover2_5 (p0 : Vec F S2000x2 .f32) (y : S2000x2.Idx) :
    ∃ pc ∈ ([⟨r2_5, p0⟩] : List (View.Piece (Elt F) S2000x2 .f32)), y ∈ pc.1.set :=
  View.cover_of_tiled [⟨r2_5, p0⟩] S2000x2.size (by rfl) y

/-! ## The body's triple -/

set_option maxHeartbeats 1000000 in
/-- The kernel body on whole staging memrefs — the five inputs' holding `x0` … `x4`, the result's holding anything —
    runs to a state where the inputs' hold what they held and the result's holds `out2_5 x0 … x4`. The printed
    function is its skeleton: the five loads in order, then the load of the result buffer (of
    whatever it holds: the value is dropped), then the store. -/
theorem sound_kernel2 (c : Dev nD) (E : Set ℕ) (i : grid2.Coords)
    (arg0 : Memref sig .tc .vmem S2000x256 .f32) (harg0 : arg0.IsWhole) (arg1 : Memref sig .tc .vmem S256x256 .f32) (harg1 : arg1.IsWhole)
    (arg2 : Memref sig .tc .vmem S1x256 .f32) (harg2 : arg2.IsWhole) (arg3 : Memref sig .tc .vmem S256x2 .f32) (harg3 : arg3.IsWhole)
    (arg4 : Memref sig .tc .vmem S1x2 .f32) (harg4 : arg4.IsWhole) (arg5 : Memref sig .tc .vmem S2000x2 .f32) (harg5 : arg5.IsWhole)
    (x0 : Vec F S2000x256 .f32) (x1 : Vec F S256x256 .f32) (x2 : Vec F S1x256 .f32) (x3 : Vec F S256x2 .f32) (x4 : Vec F S1x2 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__fused3_kernel i arg0 harg0 arg1 harg1 arg2 harg2 arg3 harg3 arg4 harg4 arg5 harg5) K := by
  simp only [cc2__fused3_kernel_eq_skeleton]; unfold cc2__fused3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the third pipeline on core `c`. The arrays are as the region finds them (`V`). After the
    body at point `t` each input window's buffer holds its block there, untouched, and the result window's holds
    `out2_5` of the five input blocks. The invariant is the scoped buffers outside the pipeline and the generator
    register, which the body does not touch; every share is full and nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the contents at region entry. -/
theorem A_eq2 (c : Dev nD) (w : Fin cfg2.W) : (dat2 V c).A w = V c (Pipeline.arrRef spec2 w) := by
  dsimp only [dat2]

/-- What the body leaves, window by window: the proof data's case split at each literal window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-- For this proof data each input window's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and each window's current staging
    memref holding what the pipeline has put or left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body returns at point `t`: the same with each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point. The five input memrefs hold their blocks (`before2_W`) and the result's holds something,
    which is what `sound_kernel2` asks; the invariant and the debts are the same before and after and pass by
    unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation: at every point the conjunction over the six windows is the six conjuncts of
    `bodyPre2` and `bodyPost2`. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Run.lean ====
/- The whole run of the host program: eight segments in order — three stretches of host operations, the first
   pallas_call, a stretch, the second pallas_call, a stretch, the third pallas_call. The contents of the TensorCore's
   buffers at each boundary between two segments are a fold from the launch memory; each pallas_call is entered at the
   contents the fold gives and its proof data are the region modules' at those contents. From the segments the launch
   theorem gives: every weakly fair execution terminates without fault and ends with every unscoped buffer at the last
   boundary's contents. Read at the arguments this is the frame claim (no segment writes an argument); read at the result
   array it names the value the program computes. All of it at any float instance `F`. -/
import proofs.«431101_j53455162966646_3_alg».proof.Proof.KI.Region0
import proofs.«431101_j53455162966646_3_alg».proof.Proof.KI.Region1
import proofs.«431101_j53455162966646_3_alg».proof.Proof.KI.Region2
import proofs.«431101_j53455162966646_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a reference is not in a list of some hundred references recurses once per entry
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the nine boundaries -/

/-- Core `c`'s buffers at launch: the launch state's memory. -/
abbrev W0 : Dev nD → Valuation τ sig (Elt F) := fun c b => (⟨m, fun _ => 0, ρ⟩ : MemSt nD τ sig (Elt F)).mem ((c : Dev nD), b)
/-- After the first stretch of host operations. -/
abbrev W1 : Dev nD → Valuation τ sig (Elt F) := fun c => StableHlo.after hostOps0 (W0 m ρ c)
/-- After the second stretch (the one-hot function's operations). -/
abbrev W2 : Dev nD → Valuation τ sig (Elt F) := fun c => StableHlo.after hostOps0_1 (W1 m ρ c)
/-- After the third stretch: what region 0 is entered at. -/
abbrev W3 : Dev nD → Valuation τ sig (Elt F) := fun c => StableHlo.after hostOps0_2 (W2 m ρ c)
/-- The same, read at the TensorCore's references: the contents region 0's proof data are taken at. -/
abbrev V3 : (c : Dev nD) → (b : Ref sig .tc) → Buf (Elt F) ((c : Thread nD τ).loc b) := fun c b => W3 m ρ c b

/-- When region 0 is left: each of its arrays holds what the pipeline's write-backs leave in it after the last grid
    point (an input window's array is never written), every other buffer what it held on entry. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same, read at the TensorCore's references. -/
abbrev V4 : (c : Dev nD) → (b : Ref sig .tc) → Buf (Elt F) ((c : Thread nD τ).loc b) := fun c b => W4 m ρ c b
/-- The two facts the exit of region 0 needs: its arrays hold what the pipeline leaves, the other buffers are untouched. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- A buffer that is no output window's array of region 0 leaves the region as it entered: either it is none of the
    region's arrays, or it is an input window's array, which no write-back touches. -/
theorem W4_keep (c : Dev nD) (b : Ref sig .tc) (hb : ∀ w, (cfg0.win w).isOut = true → Pipeline.arrRef spec0 w ≠ b) :
    W4 m ρ c (Proc.devRef .tc b) = W3 m ρ c (Proc.devRef .tc b) := by
  by_cases h : ∃ w, Pipeline.arrRef spec0 w = b
  · obtain ⟨w, rfl⟩ := h
    have hw : (cfg0.win w).isOut = false := by
      cases hh : (cfg0.win w).isOut
      · rfl
      · exact absurd rfl (hb w hh)
    exact (W4_arr m ρ c w).trans (((dat0 (V3 m ρ) c).arrAt_in w hw _).trans (A_eq0 (V3 m ρ) c w))
  · exact W4_of_ne m ρ c b fun w e => h ⟨w, e⟩

/-- After the stretch between regions 0 and 1: what region 1 is entered at. -/
abbrev W5 : Dev nD → Valuation τ sig (Elt F) := fun c => StableHlo.after hostOps1 (W4 m ρ c)
/-- The same, read at the TensorCore's references: the contents region 1's proof data are taken at. -/
abbrev V5 : (c : Dev nD) → (b : Ref sig .tc) → Buf (Elt F) ((c : Thread nD τ).loc b) := fun c b => W5 m ρ c b

/-- When region 1 is left: each of its arrays holds what the pipeline's write-backs leave in it after the last grid
    point (an input window's array is never written), every other buffer what it held on entry. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same, read at the TensorCore's references. -/
abbrev V6 : (c : Dev nD) → (b : Ref sig .tc) → Buf (Elt F) ((c : Thread nD τ).loc b) := fun c b => W6 m ρ c b
/-- The two facts the exit of region 1 needs: its arrays hold what the pipeline leaves, the other buffers are untouched. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- A buffer that is no output window's array of region 1 leaves the region as it entered: either it is none of the
    region's arrays, or it is an input window's array, which no write-back touches. -/
theorem W6_keep (c : Dev nD) (b : Ref sig .tc) (hb : ∀ w, (cfg1.win w).isOut = true → Pipeline.arrRef spec1 w ≠ b) :
    W6 m ρ c (Proc.devRef .tc b) = W5 m ρ c (Proc.devRef .tc b) := by
  by_cases h : ∃ w, Pipeline.arrRef spec1 w = b
  · obtain ⟨w, rfl⟩ := h
    have hw : (cfg1.win w).isOut = false := by
      cases hh : (cfg1.win w).isOut
      · rfl
      · exact absurd rfl (hb w hh)
    exact (W6_arr m ρ c w).trans (((dat1 (V5 m ρ) c).arrAt_in w hw _).trans (A_eq1 (V5 m ρ) c w))
  · exact W6_of_ne m ρ c b fun w e => h ⟨w, e⟩

/-- After the stretch between regions 1 and 2: what region 2 is entered at. -/
abbrev W7 : Dev nD → Valuation τ sig (Elt F) := fun c => StableHlo.after hostOps2 (W6 m ρ c)
/-- The same, read at the TensorCore's references: the contents region 2's proof data are taken at. -/
abbrev V7 : (c : Dev nD) → (b : Ref sig .tc) → Buf (Elt F) ((c : Thread nD τ).loc b) := fun c b => W7 m ρ c b

/-- When region 2 is left: each of its arrays holds what the pipeline's write-backs leave in it after the last grid
    point (an input window's array is never written), every other buffer what it held on entry. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same, read at the TensorCore's references. -/
abbrev V8 : (c : Dev nD) → (b : Ref sig .tc) → Buf (Elt F) ((c : Thread nD τ).loc b) := fun c b => W8 m ρ c b
/-- The two facts the exit of region 2 needs: its arrays hold what the pipeline leaves, the other buffers are untouched. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- A buffer that is no output window's array of region 2 leaves the region as it entered: either it is none of the
    region's arrays, or it is an input window's array, which no write-back touches. -/
theorem W8_keep (c : Dev nD) (b : Ref sig .tc) (hb : ∀ w, (cfg2.win w).isOut = true → Pipeline.arrRef spec2 w ≠ b) :
    W8 m ρ c (Proc.devRef .tc b) = W7 m ρ c (Proc.devRef .tc b) := by
  by_cases h : ∃ w, Pipeline.arrRef spec2 w = b
  · obtain ⟨w, rfl⟩ := h
    have hw : (cfg2.win w).isOut = false := by
      cases hh : (cfg2.win w).isOut
      · rfl
      · exact absurd rfl (hb w hh)
    exact (W8_arr m ρ c w).trans (((dat2 (V7 m ρ) c).arrAt_in w hw _).trans (A_eq2 (V7 m ρ) c w))
  · exact W8_of_ne m ρ c b fun w e => h ⟨w, e⟩

/-! ## What no segment writes ends as launched -/

/-- A reference that no host stretch writes (it is in none of the five lists of written references) and that is no
    output window's array of any region holds at the end what the launch memory held: the fold walks back boundary by
    boundary. -/
theorem W8_of_unwritten (c : Dev nD) (b : Ref sig .tc)
    (h0 : b ∉ hostOps0_W) (h01 : b ∉ hostOps0_1_W) (h02 : b ∉ hostOps0_2_W)
    (hr0 : ∀ w, (cfg0.win w).isOut = true → Pipeline.arrRef spec0 w ≠ b)
    (h1 : b ∉ hostOps1_W) (hr1 : ∀ w, (cfg1.win w).isOut = true → Pipeline.arrRef spec1 w ≠ b)
    (h2 : b ∉ hostOps2_W) (hr2 : ∀ w, (cfg2.win w).isOut = true → Pipeline.arrRef spec2 w ≠ b) :
    W8 m ρ c (Proc.devRef .tc b) = m ((c : Thread nD τ).loc b) :=
  calc W8 m ρ c (Proc.devRef .tc b)
    _ = W7 m ρ c (Proc.devRef .tc b) := W8_keep m ρ c b hr2
    _ = W6 m ρ c (Proc.devRef .tc b) := StableHlo.after_of_writes_sub hostOps2 _ hostOps2_writes h2
    _ = W5 m ρ c (Proc.devRef .tc b) := W6_keep m ρ c b hr1
    _ = W4 m ρ c (Proc.devRef .tc b) := StableHlo.after_of_writes_sub hostOps1 _ hostOps1_writes h1
    _ = W3 m ρ c (Proc.devRef .tc b) := W4_keep m ρ c b hr0
    _ = W2 m ρ c (Proc.devRef .tc b) := StableHlo.after_of_writes_sub hostOps0_2 _ hostOps0_2_writes h02
    _ = W1 m ρ c (Proc.devRef .tc b) := StableHlo.after_of_writes_sub hostOps0_1 _ hostOps0_1_writes h01
    _ = W0 m ρ c (Proc.devRef .tc b) := StableHlo.after_of_writes_sub hostOps0 _ hostOps0_writes h0
    _ = m ((c : Thread nD τ).loc b) := rfl

/-! ### The sixteen arguments: none is written by a host operation, none is an output window's array -/

theorem W8_main_arg0 (c : Dev nD) : W8 m ρ c (Proc.devRef .tc main_arg0) = m ((c : Thread nD τ).loc main_arg0) :=
  W8_of_unwritten m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of_unwritten m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_unwritten m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_unwritten m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_unwritten m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_unwritten m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_of_unwritten m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_of_unwritten m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_of_unwritten m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_of_unwritten m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_of_unwritten m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_of_unwritten m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_of_unwritten m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_of_unwritten m ρ c main_arg13 (by decide) (by decide) (by decide) (by decide) (by decide) (by decide) (by decide) (by decide)
theorem W8_main_arg14 (c : Dev nD) : W8 m ρ c (Proc.devRef .tc main_arg14) = m ((c : Thread nD τ).loc main_arg14) :=
  W8_of_unwritten m ρ c main_arg14 (by decide) (by decide) (by decide) (by decide) (by decide) (by decide) (by decide) (by decide)
theorem W8_main_arg15 (c : Dev nD) : W8 m ρ c (Proc.devRef .tc main_arg15) = m ((c : Thread nD τ).loc main_arg15) :=
  W8_of_unwritten m ρ c main_arg15 (by decide) (by decide) (by decide) (by decide) (by decide) (by decide) (by decide) (by decide)

/-- The result array is region 2's output window's array: at the end it holds what that pipeline's write-backs leave. -/
theorem W8_result (c : Dev nD) : W8 m ρ c (Proc.devRef .tc main_v99) = (dat2 (V7 m ρ) c).arrAt 5 cfg2.N :=
  W8_arr m ρ c 5

/-! ## The proof data of the three pipelines and the thread state -/

/-- Each pipeline's proof data, at the contents its region is entered at. A literal `match`, so that the family at a
    numeral reduces to that region's data. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything, so no pair carries a level. -/
abbrev L : GSem nD τ sig → Finset Unit := fun _ => ∅
abbrev lv : GSem nD τ sig → Unit → ℕ := fun _ _ => 0
/-- What a core holds beside its buffers through every segment: its generator register at some state, and that it
    owes nothing. -/
abbrev R (c : Dev nD) : sProp 𝕄 := iprop((∃ r, prngReg c r) ∗ ∃ W, owes (c : Thread nD τ) (0 : CellTallies nD τ sig Unit) W)
/-- A stretch of host operations as a segment: from every unscoped buffer at `W` to every unscoped buffer at the
    stretch's effect on `W`, the rest of the state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore reference that is not scoped is one of the references the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the owed count: every unscoped buffer at the last boundary's contents and the
    generator register at some state. -/
abbrev Tₙ (c : Dev nD) : sProp 𝕄 := iprop(StableHlo.held (c : Thread nD τ) (Pipeline.ucRefs τ sig) (W8 m ρ c) ∗ ∃ r, prngReg c r)

/-! ## The three regions as segments -/

-- the library's lemma names the pipeline's configuration by its definition and the printed statement spells it out:
-- the two are the same term once the plain definitions in their types are unfolded
set_option backward.isDefEq.respectTransparency.types false in
/-- Region 0 as a segment of the run. It is entered holding every unscoped buffer at `W3` and left holding them at
    `W4`. On entry the pipeline's arrays are taken out of the unscoped buffers and the rest is set aside; the generator
    register goes into the pipeline's invariant and comes back out of it; on exit the arrays, now at what the write-backs
    left, are put back beside the rest. The body owes nothing and waits on no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemma names the pipeline's configuration by its definition and the printed statement spells it out:
-- the two are the same term once the plain definitions in their types are unfolded
set_option backward.isDefEq.respectTransparency.types false in
/-- Region 1 as a segment of the run. It is entered holding every unscoped buffer at `W5` and left holding them at
    `W6`. On entry the pipeline's arrays are taken out of the unscoped buffers and the rest is set aside; the generator
    register goes into the pipeline's invariant and comes back out of it; on exit the arrays, now at what the write-backs
    left, are put back beside the rest. The body owes nothing and waits on no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemma names the pipeline's configuration by its definition and the printed statement spells it out:
-- the two are the same term once the plain definitions in their types are unfolded
set_option backward.isDefEq.respectTransparency.types false in
/-- Region 2 as a segment of the run. It is entered holding every unscoped buffer at `W7` and left holding them at
    `W8`. On entry the pipeline's arrays are taken out of the unscoped buffers and the rest is set aside; the generator
    register goes into the pipeline's invariant and comes back out of it; on exit the arrays, now at what the write-backs
    left, are put back beside the rest. The body owes nothing and waits on no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

/-- The eight segments in the program's order, each host stretch from its boundary's contents. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
/-- The program is the run of these segments: it is the chain of its eight items, and so is the segments' run. -/
theorem main_run (c : Dev nD) : main (F := F) c = Pipeline.Seg.run (segs m ρ) := (main_chain c).trans (by chain_rfl)

-- the launch theorem's conclusion, at the program's own configurations and proof data, is this statement once the
-- plain definitions in their types are unfolded
set_option backward.isDefEq.respectTransparency.types false in
/-- The run: from any memory with every semaphore counter at zero, every weakly fair execution of the program on the
    TensorCores terminates, nothing faulting, and in every final state each unscoped buffer holds the last boundary's
    contents. The launch deals every core its buffers at the launch memory, its generator register and an empty owed
    count (the first thread state); the segments chain by definition of the boundaries; the last thread state is read
    against the final memory buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The frame claim at any `F`: the run, read at the sixteen argument arrays, each of which ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs (onTc (τ := τ) (main (F := F))) ⟨m, fun _ => 0, ρ⟩).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c)⟩) (run_all m ρ)

/-- The run with its value: the result array ends at what region 2's write-backs leave (the proof data of region 2, at
    the contents the fold gives, folded over the whole grid), and the arguments end as launched. -/
theorem run_valued : θ_run defs (onTc (τ := τ) (main (F := F))) ⟨m, fun _ => 0, ρ⟩ (fun r => ∀ c : Dev nD,
      r.2.mem ((c.tc : Thread nD τ).loc main_v99) = (dat2 (V7 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs (onTc (τ := τ) (main (F := F))) ⟨m, fun _ => 0, ρ⟩).mono (fun r h c =>
    ⟨(h c _ (mem_uc main_v99 (by decide))).trans (W8_result m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c)⟩) (run_all m ρ)

end Cert.KernelIdeal.Hand

end
-- ==== Proof.Spec.lean ====
/-
  What the three dense stages of the network compute, entry by entry, on the extended reals.
  Stage one: a linear layer with bias and the leaky rectifier, then a product with a matrix whose three column blocks are
  the root weights and the two relation weights.  Stage two: one product of the same kind.  Stage three: a linear layer,
  the rectifier, the two-class output layer, and the softmax of each row taken against the row's maximum.
  Sums are finite sums over the contracted coordinate; nothing here mentions a tiling or a float format.
-/
import Idealize.ShloMosaic.PureOps.Ideal
import Idealize.ShloMosaic.Lib.ValueIdx

noncomputable section

namespace Cert.Spec

open Idealize.ShloMosaic Idealize.ShloMosaic.ValueIdx

/-- The leaky rectifier: `y` itself where `y ≥ 0`, otherwise `y` times the slope both programs carry as the same word. -/
def lrelu (y : Ideal .f32) : Ideal .f32 :=
  Scalar.select (FloatOps.cmpf (F := Ideal) .oge y (FloatOps.ofBits (F := Ideal) .f32 0x00000000#32)) y
    (FloatOps.mulf (F := Ideal) (FloatOps.ofBits (F := Ideal) .f32 0x3C23D70A#32) y)

/-- The row coordinate of an index into an `a × b` array. -/
abbrev row {a b : ℕ} (i : (⟨2, ![a, b]⟩ : Shape).Idx) : Fin a := ⟨(i 0).val, (i 0).isLt⟩
/-- The column coordinate of an index into an `a × b` array. -/
abbrev col {a b : ℕ} (i : (⟨2, ![a, b]⟩ : Shape).Idx) : Fin b := ⟨(i 1).val, (i 1).isLt⟩

/-- Entry `(n, k)` of a linear layer with bias row `b` followed by the rectifier, over an input of width `d`. -/
def hidden {d e : ℕ} (x : FVec Ideal ⟨2, ![50000, d]⟩ .f32) (w : FVec Ideal ⟨2, ![d, e]⟩ .f32)
    (b : FVec Ideal ⟨2, ![1, e]⟩ .f32) (n : Fin 50000) (k : Fin e) : Ideal .f32 :=
  lrelu ((∑ j : Fin d, x (ix2 n j) * w (ix2 j k)) + b (ix2 (0 : Fin 1) k))

/-- Stage one: the hidden activations of the first linear layer times the combined weights. -/
def t1Fun (x : FVec Ideal ⟨2, ![50000, 768]⟩ .f32) (w : FVec Ideal ⟨2, ![768, 768]⟩ .f32)
    (b : FVec Ideal ⟨2, ![1, 768]⟩ .f32) (cw : FVec Ideal ⟨2, ![768, 768]⟩ .f32) :
    FVec Ideal ⟨2, ![50000, 768]⟩ .bf16 :=
  fun i => ∑ k : Fin 768, hidden x w b (row i) k * cw (ix2 k (col i))

/-- Stage two: the node features times the combined weights. -/
def t2Fun (h : FVec Ideal ⟨2, ![50000, 256]⟩ .f32) (cw : FVec Ideal ⟨2, ![256, 768]⟩ .f32) :
    FVec Ideal ⟨2, ![50000, 768]⟩ .bf16 :=
  fun i => ∑ k : Fin 256, h (ix2 (row i) k) * cw (ix2 k (col i))

/-- The two logits of node `n`. -/
def logit (h : FVec Ideal ⟨2, ![50000, 256]⟩ .f32) (w2 : FVec Ideal ⟨2, ![256, 256]⟩ .f32)
    (b2 : FVec Ideal ⟨2, ![1, 256]⟩ .f32) (wo : FVec Ideal ⟨2, ![256, 2]⟩ .f32) (bo : FVec Ideal ⟨2, ![1, 2]⟩ .f32)
    (n : Fin 50000) (c : Fin 2) : Ideal .f32 :=
  (∑ k : Fin 256, hidden h w2 b2 n k * wo (ix2 k c)) + bo (ix2 (0 : Fin 1) c)

/-- The largest logit of node `n`, from minus infinity. -/
def rowMax (l : Fin 2 → Ideal .f32) : Ideal .f32 := (Finset.univ : Finset (Fin 2)).fold max (⊥ : EReal) l

/-- Stage three: each row's softmax, every logit taken against the row's maximum before the exponential. -/
def smFun (h : FVec Ideal ⟨2, ![50000, 256]⟩ .f32) (w2 : FVec Ideal ⟨2, ![256, 256]⟩ .f32)
    (b2 : FVec Ideal ⟨2, ![1, 256]⟩ .f32) (wo : FVec Ideal ⟨2, ![256, 2]⟩ .f32) (bo : FVec Ideal ⟨2, ![1, 2]⟩ .f32) :
    FVec Ideal ⟨2, ![50000, 2]⟩ .f32 :=
  fun i =>
    let l := logit h w2 b2 wo bo (row i)
    FloatOps.divf (F := Ideal) (FloatOps.exp (F := Ideal) (FloatOps.subf (F := Ideal) (l (col i)) (rowMax l)))
      (∑ c : Fin 2, FloatOps.exp (F := Ideal) (FloatOps.subf (F := Ideal) (l c) (rowMax l)))

end Cert.Spec

end
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.KI.Dense0.lean ====
/-
  Region 0 at the exact instance: what the first pipeline leaves in its output array, entry by entry.
  One grid point's block of the output is, at entry (p, q), the sum over k of the rectified hidden activation
  (the block's row p of the activations times column k of the first weights, plus the bias at k) times entry (k, q)
  of the combined weights. Point t's blocks of the activations and of the output are rows 1000 t … 1000 t + 999 of
  their arrays and the weight and bias windows are their whole arrays at every point, so that block is block t of
  the stage's one whole-array function; the fifty blocks tile the rows, so the array ends holding that function.
-/
import proofs.«431101_j53455162966646_3_alg».proof.Proof.KI.Region0
import proofs.«431101_j53455162966646_3_alg».proof.Proof.Spec
import proofs.«431101_j53455162966646_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The payload at an entry -/

/-- The body's product of a 1000 × 768 block by a 768 × 768 matrix into the zero block, at entry (p, q): the sum
    over the contracted coordinate. -/
theorem dot0_apply {φ₁ φ₂ : FTy} (A : FVec Ideal S1000x768 φ₁) (B : FVec Ideal S768x768 φ₂) (p : Fin 1000) (q : Fin 768) :
    matmul dot_S1000x768_S768x768_S1000x768_1_0_0_1_n_n none A B (constant (F := Ideal) S1000x768 .f32 0x00000000#32) (ix2 p q)
      = ∑ k : Fin 768, A (ix2 p k) * B (ix2 k q) :=
  Cert.Lib.PlainDot.matmul_plain_zero_apply none A B p q

/-- The body's payload at entry (p, q) of the block: the changes of format are the identity, the bias row is
    broadcast down the rows, and the comparison with zero and the choice are the rectifier. -/
theorem pay0_apply (x0 : Vec Ideal S1000x768 .f32) (x1 : Vec Ideal S768x768 .f32) (x2 : Vec Ideal S1x768 .f32)
    (x3 : Vec Ideal S768x768 .f32) (p : Fin 1000) (q : Fin 768) :
    k0_pay1 x0 x1 x2 x3 (ix2 p q)
      = ∑ k : Fin 768, Cert.Spec.lrelu ((∑ j : Fin 768, x0 (ix2 p j) * x1 (ix2 j k)) + x2 (ix2 (0 : Fin 1) k)) * x3 (ix2 k q) := by
  unfold k0_pay1
  rw [truncf_apply, dot0_apply]
  refine Finset.sum_congr rfl fun k _ => ?_
  rw [truncf_apply, truncf_apply, shapeCast_self, select_apply, cmpf_apply, mulf_apply, addf_apply, dot0_apply,
    broadcastTo_1b_ab_apply, shapeCast_self]
  rfl

/-- A block's payload is the stage's function on the block's rows: if the activations' block `x0` is rows
    1000 n … 1000 n + 999 of `X`, the payload at `y` is the stage's function at row 1000 n + y₀, column y₁. -/
theorem pay0_rows (X : FVec Ideal S50000x768 .f32) (W : FVec Ideal S768x768 .f32) (B : FVec Ideal S1x768 .f32)
    (CW : FVec Ideal S768x768 .f32) (x0 : Vec Ideal S1000x768 .f32) (n : ℕ)
    (hx0 : ∀ (p : Fin 1000) (j : Fin 768) (r : Fin 50000), r.val = 1000 * n + p.val → x0 (ix2 p j) = X (ix2 r j))
    (y : S1000x768.Idx) (i : S50000x768.Idx) (hi0 : (i 0).val = 1000 * n + (y 0).val) (hi1 : (i 1).val = (y 1).val) :
    k0_pay1 x0 W B CW y = Cert.Spec.t1Fun X W B CW i := by
  obtain ⟨p, q, rfl⟩ : ∃ (p : Fin 1000) (q : Fin 768), y = ix2 p q := ⟨y 0, y 1, eq_ix2 y⟩
  rw [pay0_apply]
  show _ = ∑ k : Fin 768, Cert.Spec.hidden X W B (Cert.Spec.row i) k * CW (ix2 k (Cert.Spec.col i))
  have hq : Cert.Spec.col i = q := Fin.ext hi1
  have hx : ∀ j : Fin 768, x0 (ix2 p j) = X (ix2 (Cert.Spec.row i) j) := fun j => hx0 p j (Cert.Spec.row i) hi0
  rw [hq]
  unfold Cert.Spec.hidden
  simp only [hx]

/-! ## The blocks of the four input windows -/

section
-- what every TensorCore buffer holds when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The index maps, decided over the fifty points: the activations' and the output's block index is (t, 0), the
    weights' and the bias's is (0, 0). -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The activations' block at point `t` is rows 1000 t … 1000 t + 999 of the array. -/
theorem act_rows (c : Dev nD) (t : Fin cfg0.N) (p : Fin 1000) (j : Fin 768) (r : Fin 50000) (hr : r.val = 1000 * t.val + p.val) :
    (iblk0 V c 0 t : Vec Ideal S1000x768 .f32) (ix2 p j) = (V c main_arg0 : S50000x768.Idx → Ideal .f32) (ix2 r j) := by
  obtain ⟨e0, e1, -⟩ := index_maps0 t
  unfold iblk0
  rw [View.read_apply]
  show V c main_arg0 _ = V c main_arg0 _
  congr 1
  funext a; apply Fin.ext
  match a with
  | ⟨0, _⟩ => show win0_0.index t (0 : Fin 2) * 1000 + 1 * p.val = r.val; rw [e0, hr]; omega
  | ⟨1, _⟩ => show win0_0.index t (1 : Fin 2) * 768 + 1 * j.val = j.val; rw [e1]; omega

/-- The first weights' block at any point is the whole matrix. -/
theorem w1_block (c : Dev nD) (t : Fin cfg0.N) :
    (iblk0 V c 1 t : Vec Ideal S768x768 .f32) = (V c main_arg4 : S768x768.Idx → Ideal .f32) := by
  obtain ⟨-, -, e0, e1, -⟩ := index_maps0 t
  funext y
  unfold iblk0
  rw [View.read_apply]
  show V c main_arg4 _ = V c main_arg4 y
  congr 1
  funext a; apply Fin.ext
  match a with
  | ⟨0, _⟩ => show win0_1.index t (0 : Fin 2) * 768 + 1 * (y 0).val = (y 0).val; rw [e0]; omega
  | ⟨1, _⟩ => show win0_1.index t (1 : Fin 2) * 768 + 1 * (y 1).val = (y 1).val; rw [e1]; omega

/-- The bias's block at any point is the whole row. -/
theorem bias_block (c : Dev nD) (t : Fin cfg0.N) :
    (iblk0 V c 2 t : Vec Ideal S1x768 .f32) = (V c main_v31 : S1x768.Idx → Ideal .f32) := by
  obtain ⟨-, -, -, -, e0, e1, -⟩ := index_maps0 t
  funext y
  unfold iblk0
  rw [View.read_apply]
  show V c main_v31 _ = V c main_v31 y
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 768 + 1 * (y 1).val = (y 1).val; rw [e1]; omega

/-- The combined weights' block at any point is the whole matrix. -/
theorem w2_block (c : Dev nD) (t : Fin cfg0.N) :
    (iblk0 V c 3 t : Vec Ideal S768x768 .f32) = (V c main_v30 : S768x768.Idx → Ideal .f32) := by
  obtain ⟨-, -, -, -, -, -, e0, e1, -⟩ := index_maps0 t
  funext y
  unfold iblk0
  rw [View.read_apply]
  show V c main_v30 _ = V c main_v30 y
  congr 1
  funext a; apply Fin.ext
  match a with
  | ⟨0, _⟩ => show win0_3.index t (0 : Fin 2) * 768 + 1 * (y 0).val = (y 0).val; rw [e0]; omega
  | ⟨1, _⟩ => show win0_3.index t (1 : Fin 2) * 768 + 1 * (y 1).val = (y 1).val; rw [e1]; omega

/-! ## From the blocks to the array -/

/-- What point `t` writes back is block `t` of the stage's function of the arrays the region reads. -/
theorem flushed0_eq (c : Dev nD) (t : Fin cfg0.N) :
    (dat0 (F := Ideal) V c).flushed 4 t
      = ((cfg0.win 4).blk t).view.read (Elt Ideal)
          (Cert.Spec.t1Fun (V c main_arg0) (V c main_arg4) (V c main_v31) (V c main_v30)) := by
  show (cfg0.win 4).cut (grid0.coords t) ((dat0 V c).after 4 t) = _
  rw [after0_4]
  unfold out0_4
  rw [View.canon_unit_zero zero_offsets]
  simp only [View.ld_unit_zero (S := S1000x768) zero_offsets, View.ld_unit_zero (S := S768x768) zero_offsets,
    View.ld_unit_zero (S := S1x768) zero_offsets]
  rw [w1_block V c t, bias_block V c t, w2_block V c t]
  obtain ⟨-, -, -, -, -, -, -, -, e0, e1⟩ := index_maps0 t
  funext y
  rw [View.read_apply]
  refine pay0_rows _ _ _ _ _ t.val (fun p j r hr => act_rows V c t p j r hr) _ _ ?_ ?_
  · show win0_4.index t (0 : Fin 2) * 1000 + 1 * (y 0).val = 1000 * t.val + (y 0).val; rw [e0]; omega
  · show win0_4.index t (1 : Fin 2) * 768 + 1 * (y 1).val = (y 1).val; rw [e1]; omega

/-- An index of the output array is in point `t`'s block iff each coordinate is in the block's range on its axis. -/
theorem mem_block0 (t : Fin cfg0.N) (i : S50000x768.Idx) :
    i ∈ ((cfg0.win 4).blk t).view.set ↔ ∀ a : Fin 2, win0_4.index t a * S1000x768.size a ≤ (i a).val
      ∧ (i a).val < win0_4.index t a * S1000x768.size a + S1000x768.size a := by
  show i ∈ ((View.whole main_v32).slice (win0_4.rect t)).set ↔ _
  rw [View.set_slice_whole, Rect.mem_set_unit]
  exact Iff.rfl

/-- Every index of the output array is in the block of the point that owns its row: row r belongs to point r / 1000. -/
theorem rows_covered0 (i : S50000x768.Idx) :
    ∃ t : Fin cfg0.N, (cfg0.win 4).flush t = true ∧ i ∈ ((cfg0.win 4).blk t).view.set := by
  have hi0 : (i 0).val < 50000 := (i 0).isLt
  have hi1 : (i 1).val < 768 := (i 1).isLt
  obtain ⟨t, ht⟩ : ∃ t : Fin cfg0.N, t.val = (i 0).val / 1000 :=
    ⟨⟨(i 0).val / 1000, Nat.lt_of_lt_of_eq (by omega : (i 0).val / 1000 < 50) N_0.symm⟩, rfl⟩
  obtain ⟨-, -, -, -, -, -, -, -, e0, e1⟩ := index_maps0 t
  refine ⟨t, flush0_4 t, ?_⟩
  rw [mem_block0]
  intro a
  match a with
  | ⟨0, _⟩ =>
    show win0_4.index t (0 : Fin 2) * 1000 ≤ (i 0).val ∧ (i 0).val < win0_4.index t (0 : Fin 2) * 1000 + 1000
    rw [e0]; omega
  | ⟨1, _⟩ =>
    show win0_4.index t (1 : Fin 2) * 768 ≤ (i 1).val ∧ (i 1).val < win0_4.index t (1 : Fin 2) * 768 + 768
    rw [e1]; omega

/-- The output array after the last point: the stage's function of the four arrays the region reads. -/
theorem final0 (c : Dev nD) :
    (dat0 (F := Ideal) V c).arrAt 4 cfg0.N
      = Cert.Spec.t1Fun (V c main_arg0) (V c main_arg4) (V c main_v31) (V c main_v30) :=
  (dat0 (F := Ideal) V c).arrAt_eq_of_cover 4
    (Cert.Spec.t1Fun (V c main_arg0) (V c main_arg4) (V c main_v31) (V c main_v30))
    (fun t _ => flushed0_eq V c t) rows_covered0

end

end Cert.KernelIdeal.Hand

end
-- ==== Proof.KI.Dense1.lean ====
import proofs.«431101_j53455162966646_3_alg».proof.Proof.KI.Region1
import proofs.«431101_j53455162966646_3_alg».proof.Proof.Spec
import proofs.«431101_j53455162966646_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
# Region 1 over the extended reals: the result array is the product, entry by entry

Over the extended reals every change of float format is the identity, so the body's value at entry `(p, q)` of its
2000-row block is `∑ k, x (p, k) · w (k, q)`: the block of the left operand times the resident weight. Point `t` of
the grid is handed rows `[2000·t, 2000·(t+1))` of the left operand and writes back the same rows of the result, so what
it writes is that block of the whole product. The 25 blocks tile the 50000 rows, hence after the last point the result
array is the whole product, `Cert.Spec.t2Fun` of the two arrays the region reads.
-/

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

/-! ## The body's value at an entry of its block -/

/-- The contraction the body's product uses is the plain one of a 2000×256 array by a 256×768 array: the same lists
    of axes, and well-formedness is a proposition. -/
theorem dot1_eq_plain : dot_S2000x256_S256x768_S2000x768_1_0_0_1_n_n = DotDims.plain 2000 256 768 := rfl

/-- Entry `(p, q)` of what the body stores, from the two blocks it loads: the casts to a narrower format and the
    casts of shape to the same shape are identities, and the product into the zero accumulator is the sum over the
    contracted coordinate. -/
theorem pay1_apply (x0 : Vec Ideal S2000x256 .f32) (x1 : Vec Ideal S256x768 .f32) (p : Fin 2000) (q : Fin 768) :
    k1_pay1 x0 x1 (ix2 p q) = ∑ k : Fin 256, x0 (ix2 p k) * x1 (ix2 k q) := by
  unfold k1_pay1
  simp only [truncf_apply, dot1_eq_plain]
  rw [Cert.Lib.PlainDot.matmul_plain_zero_apply]
  simp only [truncf_apply, shapeCast_self]

/-! ## Where each window's block sits in its array -/

theorem zero_offsets1 : (![0, 0] : Fin 2 → Nat) = fun _ => 0 := funext fun a => by fin_cases a <;> rfl

/-- The index maps over the 25 points, decided: the left operand's block and the result's block are both the `t`-th
    block of rows and the only block of columns; the weight's block is the whole array at every point. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section AtEntry
variable (V : (c : Dev nD) → (b : Ref sig .tc) → Buf (Elt Ideal) ((c : Thread nD τ).loc b))

/-! ## What a point writes back -/

/-- What point `t` writes back is block `t` of the whole product of the two arrays the region reads. -/
theorem flushed1_eq (c : Dev nD) (t : Fin cfg1.N) :
    (dat1 (F := Ideal) V c).flushed 2 t
      = ((cfg1.win 2).blk t).view.read (Elt Ideal) (Cert.Spec.t2Fun (V c main_v61) (V c main_v66)) := by
  show (cfg1.win 2).cut (grid1.coords t) ((dat1 (F := Ideal) V c).after 2 t) = _
  rw [after1_2]
  unfold out1_2
  rw [View.canon_unit_zero zero_offsets1]
  simp only [View.ld_unit_zero (S := S2000x256) zero_offsets1, View.ld_unit_zero (S := S256x768) zero_offsets1]
  obtain ⟨e0, e1, e2, e3, e4, e5⟩ := block_indices1 t
  funext j
  obtain ⟨p, q, rfl⟩ : ∃ (p : Fin 2000) (q : Fin 768), j = ix2 p q := ⟨j 0, j 1, eq_ix2 j⟩
  show k1_pay1 (iblk1 V c 0 t) (iblk1 V c 1 t) (ix2 p q)
    = Cert.Spec.t2Fun (V c main_v61) (V c main_v66) (((cfg1.win 2).blk t).view.emb (ix2 p q))
  rw [pay1_apply]
  unfold Cert.Spec.t2Fun
  refine Finset.sum_congr rfl fun k _ => ?_
  have h0 : ((cfg1.win 0).blk t).view.emb (ix2 p k)
      = ix2 (Cert.Spec.row (((cfg1.win 2).blk t).view.emb (ix2 p q))) k := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * k.val = k.val; omega
  have h1 : ((cfg1.win 1).blk t).view.emb (ix2 k q)
      = ix2 k (Cert.Spec.col (((cfg1.win 2).blk t).view.emb (ix2 p q))) := by
    funext a; apply Fin.ext
    match a with
    | ⟨0, _⟩ => show win1_1.index t (0 : Fin 2) * 256 + 1 * k.val = k.val; omega
    | ⟨1, _⟩ => show win1_1.index t (1 : Fin 2) * 768 + 1 * q.val = win1_2.index t (1 : Fin 2) * 768 + 1 * q.val; omega
  have hx : iblk1 V c 0 t (ix2 p k)
      = V c main_v61 (ix2 (Cert.Spec.row (((cfg1.win 2).blk t).view.emb (ix2 p q))) k) := congrArg (V c main_v61) h0
  have hw : iblk1 V c 1 t (ix2 k q)
      = V c main_v66 (ix2 k (Cert.Spec.col (((cfg1.win 2).blk t).view.emb (ix2 p q)))) := congrArg (V c main_v66) h1
  rw [hx, hw]

/-! ## The blocks tile the array -/

/-- An index of the result array is in point `t`'s block iff each coordinate is in the block's range on its axis. -/
theorem mem_blk1 (t : Fin cfg1.N) (i : S50000x768.Idx) :
    i ∈ ((cfg1.win 2).blk t).view.set ↔ ∀ a : Fin 2, win1_2.index t a * S2000x768.size a ≤ (i a).val ∧ (i a).val < win1_2.index t a * S2000x768.size a + S2000x768.size a := by
  show i ∈ ((View.whole main_v67).slice (win1_2.rect t)).set ↔ _
  rw [View.set_slice_whole, Rect.mem_set_unit]
  exact Iff.rfl

/-- Row `r` of the result is written by point `r / 2000`. -/
theorem covered1 (i : S50000x768.Idx) :
    ∃ t : Fin cfg1.N, (cfg1.win 2).flush t = true ∧ i ∈ ((cfg1.win 2).blk t).view.set := by
  have hi0 : (i 0).val < 50000 := (i 0).isLt
  have hi1 : (i 1).val < 768 := (i 1).isLt
  have hN : cfg1.N = 25 := N_1
  let t : Fin cfg1.N := ⟨(i 0).val / 2000, by rw [hN]; omega⟩
  obtain ⟨e0, e1, e2, e3, e4, e5⟩ := block_indices1 t
  have ht : t.val = (i 0).val / 2000 := rfl
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 768 ≤ (i 1).val ∧ (i 1).val < win1_2.index t (1 : Fin 2) * 768 + 768; omega

/-! ## The array after the last point -/

/-- The result array after the region: the whole product of the two arrays the region reads. -/
theorem final1 (c : Dev nD) : (dat1 (F := Ideal) V c).arrAt 2 cfg1.N = Cert.Spec.t2Fun (V c main_v61) (V c main_v66) :=
  (dat1 (F := Ideal) V c).arrAt_eq_of_cover 2 (Cert.Spec.t2Fun (V c main_v61) (V c main_v66))
    (fun t _ => flushed1_eq V c t) (covered1)

end AtEntry

end Cert.KernelIdeal.Hand

end
-- ==== Proof.LibRowOps.lean ====
/-
  Layout operations and a lane sum read at an index given by coordinates: the column forms that sit beside the
  row forms of the library's layout lemmas.

  * a column [a, 1] broadcast along its unit axis to [a, b] reads, at (p, c), the column's entry p;
  * a vector [a] cast to a column [a, 1] reads, at (i, 0), the vector's entry i;
  * a sum over the second axis of an [a, b] array, read at p, is the sum over n of the entries (p, n);
  * a block of extents [1, m, n] loaded from an [k, m, n] array at offset (i, 0, 0) reads, at (0, r, c), the array's
    entry (i, r, c); likewise a [1, n] row of a [k, n] array and one entry of a vector.
-/
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

/-- A column broadcast along its unit axis: entry (p, c) of the result is entry p of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of an [a, b] array of extended reals, read at p: the sum over n of entry (p, n). -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-- A load through a unit-stride rectangle reads, at j, the array at the index k whose coordinates are the
    rectangle's offsets plus j's. -/
theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.LibRowMax.lean ====
/-
  A maximum over the second axis of an [a, b] array of extended reals, read at an index given by a
  coordinate: the row form that sits beside the lane sum read at an index.
-/
import Idealize.ShloMosaic.Lib.ValueIdx
import Idealize.ShloMosaic.PureOps.Ideal.Laws

noncomputable section

namespace Cert.RowMax

open Idealize.ShloMosaic Idealize.ShloMosaic.ValueIdx

/-- The f32 word of minus infinity denotes the bottom extended real. -/
theorem ofBits_neg_inf_f32 : Ideal.ofBits .f32 0xFF800000#32 = (⊥ : EReal) := by simp [Ideal.ofBits, Ideal.ieee]

/-- The maximum over the second axis of an [a, b] array, taken from minus infinity and read at p: the fold of `max`
    from the bottom element over the entries (p, n). -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (⊥ : EReal) (fun n => src (ix2 p n)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg ((Finset.univ : Finset (Fin b)).fold max (⊥ : EReal)) (funext fun n => congrArg src (funext fun c => Fin.ext ?_))
  show h.liftVal (ix1 p) n.val c = _
  match c with
  | ⟨0, _⟩ => simp [Shape.Reduces.liftVal]
  | ⟨1, _⟩ => simp [Shape.Reduces.liftVal]

end Cert.RowMax

end
-- ==== Proof.KI.Dense2.lean ====
/-
  Region 2's result array at the exact instance, entry by entry.

  The body of the third pallas_call stores one payload: a block of 2000 rows of activations through a linear layer
  with bias, the leaky rectifier, the two-class output layer with bias, and each row's softmax taken against the
  row's maximum. Here that payload is cut into its four stages and each stage is read at an entry — the two products
  as sums over the contracted coordinate, the bias rows laid over every row, the row maximum as the fold of `max`
  from minus infinity, the row sum as a finite sum — so that the payload at entry (p, q) of a block is the
  specification's softmax at the entry of the whole array with the same column and the row that row p of the block
  is. Point t's blocks of the activations and of the result are rows 2000·t … 2000·t + 1999; the weight and bias
  blocks are the whole arrays at every point; the 25 result blocks cover the result array. So after the last point
  the result array is `Cert.Spec.smFun` of the five arrays the region reads.
-/
import proofs.«431101_j53455162966646_3_alg».proof.Proof.KI.Region2
import proofs.«431101_j53455162966646_3_alg».proof.Proof.Spec
import proofs.«431101_j53455162966646_3_alg».proof.Proof.LibPlainDot
import proofs.«431101_j53455162966646_3_alg».proof.Proof.LibRowOps
import proofs.«431101_j53455162966646_3_alg».proof.Proof.LibRowMax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's payload, stage by stage -/

section Payload

variable (x0 : Vec Ideal S2000x256 .f32) (x1 : Vec Ideal S256x256 .f32) (x2 : Vec Ideal S1x256 .f32)
  (x3 : Vec Ideal S256x2 .f32) (x4 : Vec Ideal S1x2 .f32)

/-- The block's rows through the linear layer, before the rectifier: the product with the weights into the zero
    accumulator, plus the bias row laid over every row. -/
def lin2 : FVec Ideal S2000x256 .f32 :=
  addf (matmul dot_S2000x256_S256x256_S2000x256_1_0_0_1_n_n none
      (truncf .bf16 (shapeCast S2000x256 x0 shapeCasts_S2000x256_S2000x256) bitsLt_bf16_f32)
      (truncf .bf16 x1 bitsLt_bf16_f32) (constant (F := Ideal) S2000x256 .f32 0x00000000#32))
    (broadcastTo S2000x256 (shapeCast S1x256 x2 shapeCasts_S1x256_S1x256) broadcasts_S1x256_S2000x256)

/-- The rectifier over an array of that shape, as the body spells it: the comparison with zero, the product with the
    slope, the selection. -/
def rect2 (y : FVec Ideal S2000x256 .f32) : FVec Ideal S2000x256 .f32 :=
  select (cmpf .oge y (broadcast S2000x256 (Scalar.ofBits (F := Ideal) .f32 0x00000000#32)))
    y (mulf (broadcast S2000x256 (Scalar.ofBits (F := Ideal) .f32 0x3C23D70A#32)) y)

/-- The two logits of each row of the block from its hidden activations. -/
def out2 (h : FVec Ideal S2000x256 .f32) : FVec Ideal S2000x2 .f32 :=
  addf (matmul dot_S2000x256_S256x2_S2000x2_1_0_0_1_n_n none (truncf .bf16 h bitsLt_bf16_f32)
      (truncf .bf16 x3 bitsLt_bf16_f32) (constant (F := Ideal) S2000x2 .f32 0x00000000#32))
    (broadcastTo S2000x2 (shapeCast S1x2 x4 shapeCasts_S1x2_S1x2) broadcasts_S1x2_S2000x2)

/-- A vector of one entry per row, laid along the two columns. -/
def cols2 (v : FVec Ideal S2000 .f32) : FVec Ideal S2000x2 .f32 :=
  broadcastTo S2000x2 (shapeCast S2000x1 v shapeCasts_S2000_S2000x1) broadcasts_S2000x1_S2000x2

/-- The exponentials of the logits taken against each row's maximum. -/
def expd2 (l : FVec Ideal S2000x2 .f32) : FVec Ideal S2000x2 .f32 :=
  exp (subf l (cols2 (multiReduction (F := Ideal) .maximumf [1] S2000 l 0xFF800000#32 reduces_S2000x2_S2000 (.inl rfl) rfl)))

/-- Each row's exponentials over their sum. -/
def soft2 (l : FVec Ideal S2000x2 .f32) : FVec Ideal S2000x2 .f32 :=
  divf (expd2 l) (cols2 (multiReduction (F := Ideal) .add [1] S2000 (expd2 l) 0x00000000#32 reduces_S2000x2_S2000 (.inl rfl) rfl))

/-- The payload is the four stages composed. -/
theorem pay2_stages : k2_pay1 x0 x1 x2 x3 x4 = soft2 (out2 x3 x4 (rect2 (lin2 x0 x1 x2))) := rfl

/-- The linear layer at an entry: the sum over the contracted coordinate, plus the bias. -/
theorem lin2_apply (p : Fin 2000) (k : Fin 256) :
    lin2 x0 x1 x2 (ix2 p k) = (∑ j : Fin 256, x0 (ix2 p j) * x1 (ix2 j k)) + x2 (ix2 (0 : Fin 1) k) := by
  unfold lin2
  rw [addf_apply, shapeCast_self, shapeCast_self, broadcastTo_1b_ab_apply]
  congr 1
  exact Cert.Lib.PlainDot.matmul_plain_zero_apply none _ _ p k

/-- The body's rectifier is the specification's, entry by entry. -/
theorem rect2_apply (y : FVec Ideal S2000x256 .f32) (i : S2000x256.Idx) : rect2 y i = Cert.Spec.lrelu (y i) := rfl

/-- The output layer at an entry. -/
theorem out2_apply (h : FVec Ideal S2000x256 .f32) (p : Fin 2000) (c : Fin 2) :
    out2 x3 x4 h (ix2 p c) = (∑ k : Fin 256, h (ix2 p k) * x3 (ix2 k c)) + x4 (ix2 (0 : Fin 1) c) := by
  unfold out2
  rw [addf_apply, shapeCast_self, broadcastTo_1b_ab_apply]
  congr 1
  exact Cert.Lib.PlainDot.matmul_plain_zero_apply none _ _ p c

/-- A per-row vector laid along the columns reads the row's entry. -/
theorem cols2_apply (v : FVec Ideal S2000 .f32) (p : Fin 2000) (c : Fin 2) : cols2 v (ix2 p c) = v (ix1 p) := by
  unfold cols2
  rw [Cert.RowOps.broadcastTo_a1_ab_apply, Cert.RowOps.shapeCast_a_a1_apply]

/-- The exponentials at an entry: the logit less the largest logit of its row. -/
theorem expd2_apply (l : FVec Ideal S2000x2 .f32) (p : Fin 2000) (c : Fin 2) :
    expd2 l (ix2 p c) = FloatOps.exp (F := Ideal) (FloatOps.subf (F := Ideal) (l (ix2 p c)) (Cert.Spec.rowMax fun n => l (ix2 p n))) := by
  show FloatOps.exp (F := Ideal) (FloatOps.subf (F := Ideal) (l (ix2 p c)) (cols2 _ (ix2 p c))) = _
  rw [cols2_apply]
  exact congrArg (fun m => FloatOps.exp (F := Ideal) (FloatOps.subf (F := Ideal) (l (ix2 p c)) m))
    (Cert.RowMax.laneMax_apply l reduces_S2000x2_S2000 (.inl rfl) rfl p)

/-- The softmax at an entry. -/
theorem soft2_apply (l : FVec Ideal S2000x2 .f32) (p : Fin 2000) (q : Fin 2) :
    soft2 l (ix2 p q) = FloatOps.divf (F := Ideal)
      (FloatOps.exp (F := Ideal) (FloatOps.subf (F := Ideal) (l (ix2 p q)) (Cert.Spec.rowMax fun n => l (ix2 p n))))
      (∑ c : Fin 2, FloatOps.exp (F := Ideal) (FloatOps.subf (F := Ideal) (l (ix2 p c)) (Cert.Spec.rowMax fun n => l (ix2 p n)))) := by
  show FloatOps.divf (F := Ideal) (expd2 l (ix2 p q)) (cols2 _ (ix2 p q)) = _
  rw [cols2_apply, expd2_apply]
  refine congrArg (FloatOps.divf (F := Ideal) _) ?_
  refine (Cert.RowOps.laneSum_apply (expd2 l) reduces_S2000x2_S2000 (.inl rfl) rfl p).trans ?_
  exact Finset.sum_congr rfl fun c _ => expd2_apply l p c

end Payload

/-! ## A block's payload is the specification's softmax on the block's rows -/

section Rows

variable (h : FVec Ideal S50000x256 .f32) (w2 : FVec Ideal S256x256 .f32) (b2 : FVec Ideal S1x256 .f32)
  (wo : FVec Ideal S256x2 .f32) (bo : FVec Ideal S1x2 .f32)
  (x0 : Vec Ideal S2000x256 .f32) (x1 : Vec Ideal S256x256 .f32) (x2 : Vec Ideal S1x256 .f32)
  (x3 : Vec Ideal S256x2 .f32) (x4 : Vec Ideal S1x2 .f32)

/-- Where row `p` of the activations' block is row `n` of the activations and the other four blocks are the whole
    weight and bias arrays, the block's logits on row `p` are node `n`'s. -/
theorem blk_logit (p : Fin 2000) (n : Fin 50000) (h0 : ∀ j : Fin 256, x0 (ix2 p j) = h (ix2 n j))
    (h1 : x1 = w2) (h2 : x2 = b2) (h3 : x3 = wo) (h4 : x4 = bo) (c : Fin 2) :
    out2 x3 x4 (rect2 (lin2 x0 x1 x2)) (ix2 p c) = Cert.Spec.logit h w2 b2 wo bo n c := by
  subst h1 h2 h3 h4
  rw [out2_apply]
  unfold Cert.Spec.logit Cert.Spec.hidden
  simp only [rect2_apply, lin2_apply, h0]

/-- So the payload at an entry of the block is the specification at the entry of the array that has the same
    column and the row the block's row is. -/
theorem pay2_eq_smFun (y : S2000x2.Idx) (i : S50000x2.Idx)
    (h0 : ∀ (p : Fin 2000) (j : Fin 256), p.val = (y 0).val → x0 (ix2 p j) = h (ix2 (Cert.Spec.row i) j))
    (h1 : x1 = w2) (h2 : x2 = b2) (h3 : x3 = wo) (h4 : x4 = bo) (hc : (y 1).val = (i 1).val) :
    k2_pay1 x0 x1 x2 x3 x4 y = Cert.Spec.smFun h w2 b2 wo bo i := by
  obtain ⟨p, q, rfl⟩ : ∃ (p : Fin 2000) (q : Fin 2), y = ix2 p q := ⟨y 0, y 1, eq_ix2 y⟩
  have hq : q = Cert.Spec.col i := Fin.ext hc
  have e : ∀ n, out2 x3 x4 (rect2 (lin2 x0 x1 x2)) (ix2 p n) = Cert.Spec.logit h w2 b2 wo bo (Cert.Spec.row i) n :=
    fun n => blk_logit h w2 b2 wo bo x0 x1 x2 x3 x4 p (Cert.Spec.row i) (fun j => h0 p j rfl) h1 h2 h3 h4 n
  rw [pay2_stages, soft2_apply]
  simp only [e, hq]
  rfl

end Rows

/-! ## From the blocks to the array -/

section Array

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the activations' window and the result's are at block (t, 0) at point
    `t`, the weight and bias windows at block (0, 0) at every point. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the specification of the arrays as the region finds them: the
    activations' block is rows 2000·t … 2000·t + 1999 of the activations, the result's block the same rows of the
    result, and the four other blocks are the whole weight and bias arrays. -/
theorem flushed2_sm (c : Dev nD) (t : Fin cfg2.N) :
    (dat2 (F := Ideal) V c).flushed 5 t = ((cfg2.win 5).blk t).view.read (Elt Ideal)
      (Cert.Spec.smFun (V c main_v96) (V c main_arg12) (V c main_v97) (V c main_arg14) (V c main_v98)) := by
  show (cfg2.win 5).cut (grid2.coords t) ((dat2 V c).after 5 t) = _
  rw [after2_5]
  unfold out2_5
  rw [View.canon_unit_zero zeros2]
  simp only [View.ld_unit_zero (S := S2000x256) zeros2, View.ld_unit_zero (S := S256x256) zeros2,
    View.ld_unit_zero (S := S1x256) zeros2, View.ld_unit_zero (S := S256x2) zeros2, View.ld_unit_zero (S := S1x2) zeros2]
  obtain ⟨a0, a1, b0, b1, c0, c1, d0, d1, e0, e1, f0, f1⟩ := blockIdx2 t
  funext y
  show _ = Cert.Spec.smFun (V c main_v96) (V c main_arg12) (V c main_v97) (V c main_arg14) (V c main_v98)
    (((cfg2.win 5).blk t).view.emb y)
  refine pay2_eq_smFun (V c main_v96) (V c main_arg12) (V c main_v97) (V c main_arg14) (V c main_v98)
    (iblk2 V c 0 t) (iblk2 V c 1 t) (iblk2 V c 2 t) (iblk2 V c 3 t) (iblk2 V c 4 t) _ _ ?_ ?_ ?_ ?_ ?_ ?_
  · intro p j hp
    show (V c main_v96 : S50000x256.Idx → Ideal .f32) (((cfg2.win 0).blk t).view.emb (ix2 p j)) = _
    refine congrArg _ (funext fun a => Fin.ext ?_)
    match a with
    | ⟨0, _⟩ =>
      show win2_0.index t (0 : Fin 2) * 2000 + 1 * p.val = win2_5.index t (0 : Fin 2) * 2000 + 1 * (y 0).val
      have hp' : p.val = (y 0).val := hp
      rw [a0, f0, hp']
    | ⟨1, _⟩ =>
      show win2_0.index t (1 : Fin 2) * 256 + 1 * j.val = j.val
      rw [a1]; omega
  · funext z
    show (V c main_arg12 : S256x256.Idx → Ideal .f32) (((cfg2.win 1).blk t).view.emb z) = _
    refine congrArg _ (funext fun a => Fin.ext ?_)
    match a with
    | ⟨0, _⟩ => show win2_1.index t (0 : Fin 2) * 256 + 1 * (z 0).val = (z 0).val; rw [b0]; omega
    | ⟨1, _⟩ => show win2_1.index t (1 : Fin 2) * 256 + 1 * (z 1).val = (z 1).val; rw [b1]; omega
  · funext z
    show (V c main_v97 : S1x256.Idx → Ideal .f32) (((cfg2.win 2).blk t).view.emb z) = _
    refine congrArg _ (funext fun a => Fin.ext ?_)
    match a with
    | ⟨0, _⟩ => show win2_2.index t (0 : Fin 2) * 1 + 1 * (z 0).val = (z 0).val; rw [c0]; omega
    | ⟨1, _⟩ => show win2_2.index t (1 : Fin 2) * 256 + 1 * (z 1).val = (z 1).val; rw [c1]; omega
  · funext z
    show (V c main_arg14 : S256x2.Idx → Ideal .f32) (((cfg2.win 3).blk t).view.emb z) = _
    refine congrArg _ (funext fun a => Fin.ext ?_)
    match a with
    | ⟨0, _⟩ => show win2_3.index t (0 : Fin 2) * 256 + 1 * (z 0).val = (z 0).val; rw [d0]; omega
    | ⟨1, _⟩ => show win2_3.index t (1 : Fin 2) * 2 + 1 * (z 1).val = (z 1).val; rw [d1]; omega
  · funext z
    show (V c main_v98 : S1x2.Idx → Ideal .f32) (((cfg2.win 4).blk t).view.emb z) = _
    refine congrArg _ (funext fun a => Fin.ext ?_)
    match a with
    | ⟨0, _⟩ => show win2_4.index t (0 : Fin 2) * 1 + 1 * (z 0).val = (z 0).val; rw [e0]; omega
    | ⟨1, _⟩ => show win2_4.index t (1 : Fin 2) * 2 + 1 * (z 1).val = (z 1).val; rw [e1]; omega
  · show (y 1).val = win2_5.index t (1 : Fin 2) * 2 + 1 * (y 1).val
    rw [f1]; omega

/-- An index of the result array is in point `t`'s block when each coordinate is in the block's range on its axis. -/
theorem mem_rows2 (t : Fin cfg2.N) (i : S50000x2.Idx) :
    i ∈ ((cfg2.win 5).blk t).view.set ↔ ∀ a : Fin 2, win2_5.index t a * S2000x2.size a ≤ (i a).val
      ∧ (i a).val < win2_5.index t a * S2000x2.size a + S2000x2.size a := by
  show i ∈ ((View.whole main_v99).slice (win2_5.rect t)).set ↔ _
  rw [View.set_slice_whole, Rect.mem_set_unit]
  exact Iff.rfl

/-- Every index of the result array is in the block of the point its row, divided by the rows of a block, names. -/
theorem rows_cover2 (i : S50000x2.Idx) :
    ∃ t : Fin cfg2.N, (cfg2.win 5).flush t = true ∧ i ∈ ((cfg2.win 5).blk t).view.set := by
  have hi0 : (i 0).val < 50000 := (i 0).isLt
  have hi1 : (i 1).val < 2 := (i 1).isLt
  obtain ⟨t, ht⟩ : ∃ t : Fin cfg2.N, t.val = (i 0).val / 2000 :=
    ⟨⟨(i 0).val / 2000, by show _ < grid2.N; rw [N_2]; omega⟩, rfl⟩
  obtain ⟨-, -, -, -, -, -, -, -, -, -, f0, f1⟩ := blockIdx2 t
  refine ⟨t, flush2_5 t, ?_⟩
  rw [mem_rows2]
  intro a
  match a with
  | ⟨0, _⟩ =>
    show win2_5.index t (0 : Fin 2) * 2000 ≤ (i 0).val ∧ (i 0).val < win2_5.index t (0 : Fin 2) * 2000 + 2000
    rw [f0, ht]; omega
  | ⟨1, _⟩ =>
    show win2_5.index t (1 : Fin 2) * 2 ≤ (i 1).val ∧ (i 1).val < win2_5.index t (1 : Fin 2) * 2 + 2
    rw [f1]; omega

/-- The result array after the pipeline's last point: the specification's softmax of the five arrays the region
    reads, entry by entry. -/
theorem final2 (c : Dev nD) : (dat2 (F := Ideal) V c).arrAt 5 cfg2.N
    = Cert.Spec.smFun (V c main_v96) (V c main_arg12) (V c main_v97) (V c main_arg14) (V c main_v98) :=
  (dat2 (F := Ideal) V c).arrAt_eq_of_cover 5 _ (fun t _ => flushed2_sm V c t) rows_cover2

end Array

end Cert.KernelIdeal.Hand

end
-- ==== Proof.KI.HostFns.lean ====
/-
  The host side of the kernel's program, as functions of arrays.  Between its three dense stages the program works on the
  graph: it reads the source and destination rows of the edge list, counts per (node, relation) the incoming edges by a
  scatter-add of one-hot rows, turns the counts into per-edge scales `1 / max(count, 1)` by a gather at the pair
  (destination, relation), and in each layer gathers per edge the row of the transformed features at the pair
  (source, relation), scales it, scatter-adds it to the destination's row and adds the root term and the bias.
  Index words are read the way array indexing reads them (a negative one counts from the end) before a gather;
  the scatter-add takes the destination words as they are.
-/
import proofs.«431101_j53455162966646_3_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.StableHlo Idealize.SL.Sem

variable {F : FTy → Type} [FloatOps F]

/-- Contents of a buffer of the given shape and element type. -/
abbrev Arr (s : Shape) (e : EltTy) : Type := (⟨s, e⟩ : BufTy).Contents (Elt F)

/-- Row 0 of the edge list: the source node of each edge. -/
def srcOf (ei : Arr (F := F) S2x800000 .i32) : Arr (F := F) S800000 .i32 :=
  shapeCast S800000 (extractStridedSlice S1x800000 ![0, 0] ei slices_S2x800000_S1x800000_0_0) shapeCasts_S1x800000_S800000

/-- Row 1 of the edge list: the destination node of each edge. -/
def dstOf (ei : Arr (F := F) S2x800000 .i32) : Arr (F := F) S800000 .i32 :=
  shapeCast S800000 (extractStridedSlice S1x800000 ![1, 0] ei slices_S2x800000_S1x800000_1_0) shapeCasts_S1x800000_S800000

/-- A node word as indexing reads it: `v + 50000` where `v < 0`. -/
def wrapNode (v : Arr (F := F) S800000 .i32) : Arr (F := F) S800000 .i32 :=
  select (cmpi .slt v (broadcastInDim S800000 ![] bcast_S_S800000 (constantI S_ 32 0#32)))
    (addi v (broadcastInDim S800000 ![] bcast_S_S800000 (constantI S_ 32 50000#32))) v

/-- A relation word as indexing reads it: `v + 2` where `v < 0`. -/
def wrapRel (v : Arr (F := F) S800000 .i32) : Arr (F := F) S800000 .i32 :=
  select (cmpi .slt v (broadcastInDim S800000 ![] bcast_S_S800000 (constantI S_ 32 0#32)))
    (addi v (broadcastInDim S800000 ![] bcast_S_S800000 (constantI S_ 32 2#32))) v

/-- A vector of words as a one-column array. -/
def asCol (v : Arr (F := F) S800000 .i32) : Arr (F := F) S800000x1 .i32 :=
  broadcastInDim S800000x1 ![0] bcast_S800000_S800000x1_0 v

/-- Two vectors of words side by side: row `e` is the pair `(a e, b e)`. -/
def pairIdx (a b : Arr (F := F) S800000 .i32) : Arr (F := F) S800000x2 .i32 :=
  concatenate S800000x2 1 [⟨S800000x1, asCol a⟩, ⟨S800000x1, asCol b⟩] concatenates_S800000x1_S800000x1_S800000x2_d1

/-- Row `e` is the indicator of edge `e`'s relation among the two relations. -/
def oneHot (et : Arr (F := F) S800000 .i32) : Arr (F := F) S800000x2 .f32 :=
  uitofp .f32 (cmpi .eq
    (broadcastInDim S800000x2 ![0, 1] bcast_S800000x1_S800000x2_0_1 (broadcastInDim S800000x1 ![0] bcast_S800000_S800000x1_0 et))
    (broadcastInDim S800000x2 ![0, 1] bcast_S1x2_S800000x2_0_1 (iotaInDim S1x2 32 1)))

/-- Per edge, one over the number (at least one) of edges of its relation arriving at its destination. -/
def kScale (dst et : Arr (F := F) S800000 .i32) (oh : Arr (F := F) S800000x2 .f32) : Arr (F := F) S800000 .f32 :=
  Host.gather gather_S50000x2_S800000x2_S800000_n_01_n_n_01_1_11
    (Host.divf (broadcastInDim S50000x2 ![] bcast_S_S50000x2 (constant S_ .f32 0x3F800000#32))
      (maximumf
        (Host.scatterAdd scatter_S50000x2_S800000x1_S800000x2_1_0_0_1
          (broadcastInDim S50000x2 ![] bcast_S_S50000x2 (constant S_ .f32 0x00000000#32)) (asCol dst) oh)
        (broadcastInDim S50000x2 ![] bcast_S_S50000x2 (constant S_ .f32 0x3F800000#32))))
    (pairIdx (wrapNode dst) (wrapRel et))

/-- The first layer's combined weights: root, relation 0, relation 1, side by side. -/
def comb768 (root : Arr (F := F) S768x256 .f32) (wrel : Arr (F := F) S2x768x256 .f32) : Arr (F := F) S768x768 .f32 :=
  concatenate S768x768 1
    [⟨S768x256, root⟩,
     ⟨S768x256, shapeCast S768x256 (extractStridedSlice S1x768x256 ![0, 0, 0] wrel slices_S2x768x256_S1x768x256_0_0_0) shapeCasts_S1x768x256_S768x256⟩,
     ⟨S768x256, shapeCast S768x256 (extractStridedSlice S1x768x256 ![1, 0, 0] wrel slices_S2x768x256_S1x768x256_1_0_0) shapeCasts_S1x768x256_S768x256⟩]
    concatenates_S768x256_S768x256_S768x256_S768x768_d1

/-- The second layer's combined weights. -/
def comb256 (root : Arr (F := F) S256x256 .f32) (wrel : Arr (F := F) S2x256x256 .f32) : Arr (F := F) S256x768 .f32 :=
  concatenate S256x768 1
    [⟨S256x256, root⟩,
     ⟨S256x256, shapeCast S256x256 (extractStridedSlice S1x256x256 ![0, 0, 0] wrel slices_S2x256x256_S1x256x256_0_0_0) shapeCasts_S1x256x256_S256x256⟩,
     ⟨S256x256, shapeCast S256x256 (extractStridedSlice S1x256x256 ![1, 0, 0] wrel slices_S2x256x256_S1x256x256_1_0_0) shapeCasts_S1x256x256_S256x256⟩]
    concatenates_S256x256_S256x256_S256x256_S256x768_d1

/-- One graph layer on the host: the root block of `t` plus the bias, plus per destination the sum of the scaled rows
    gathered at (source, relation) out of `t`'s two relation blocks. -/
def kLayer (t : Arr (F := F) S50000x768 .bf16) (bias : Arr (F := F) S256 .f32)
    (src dst et : Arr (F := F) S800000 .i32) (scale : Arr (F := F) S800000 .f32) : Arr (F := F) S50000x256 .f32 :=
  addf
    (addf (extf .f32 (extractStridedSlice S50000x256 ![0, 0] t slices_S50000x768_S50000x256_0_0) bitsLt_bf16_f32)
      (broadcastInDim S50000x256 ![0, 1] bcast_S1x256_S50000x256_0_1 (shapeCast S1x256 bias shapeCasts_S256_S1x256)))
    (Host.scatterAdd scatter_S50000x256_S800000x1_S800000x256_1_0_0_1
      (broadcastInDim S50000x256 ![] bcast_S_S50000x256 (constant S_ .f32 0x00000000#32)) (asCol dst)
      (mulf
        (extf .f32
          (Host.gather gather_S50000x2x256_S800000x2_S800000x256_1_01_n_n_01_1_11256
            (shapeCast S50000x2x256 (extractStridedSlice S50000x512 ![0, 256] t slices_S50000x768_S50000x512_0_256) shapeCasts_S50000x512_S50000x2x256)
            (pairIdx (wrapNode src) (wrapRel et)))
          bitsLt_bf16_f32)
        (broadcastInDim S800000x256 ![0, 1] bcast_S800000x1_S800000x256_0_1
          (broadcastInDim S800000x1 ![0] bcast_S800000_S800000x1_0 scale))))

/-! ## The host stretches compute these functions

Each stretch of host operations, run from buffer contents `V`, leaves in the named buffer the function above of the buffers
it read: the operations are taken one at a time, a buffer an operation does not write keeping its contents. -/

/-- One pass over the whole list, then the operands that sit inside a concatenation's list of pieces one rewrite at a time. -/
macro "host_results" : tactic =>
  `(tactic| (after_results_simp
             repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

theorem host0_src (V : Valuation τ sig (Elt F)) :
    StableHlo.after (hostOps0 (F := F)) V (Proc.devRef .tc main_v1) = srcOf (V (Proc.devRef .tc main_arg1)) := by
  host_results; rfl

theorem host0_dst (V : Valuation τ sig (Elt F)) :
    StableHlo.after (hostOps0 (F := F)) V (Proc.devRef .tc main_v3) = dstOf (V (Proc.devRef .tc main_arg1)) := by
  host_results; rfl

theorem host01_onehot (V : Valuation τ sig (Elt F)) :
    StableHlo.after (hostOps0_1 (F := F)) V (Proc.devRef .tc main_v4) = oneHot (V (Proc.devRef .tc main_arg3)) := by
  host_results; rfl

set_option maxHeartbeats 4000000 in
theorem host02_scale (V : Valuation τ sig (Elt F)) :
    StableHlo.after (hostOps0_2 (F := F)) V (Proc.devRef .tc main_v25)
      = kScale (V (Proc.devRef .tc main_v3)) (V (Proc.devRef .tc main_arg3)) (V (Proc.devRef .tc main_v4)) := by
  host_results; rfl

theorem host02_bias (V : Valuation τ sig (Elt F)) :
    StableHlo.after (hostOps0_2 (F := F)) V (Proc.devRef .tc main_v31)
      = shapeCast S1x768 (V (Proc.devRef .tc main_arg5)) shapeCasts_S768_S1x768 := by
  host_results; rfl

set_option maxHeartbeats 4000000 in
theorem host1_layer (V : Valuation τ sig (Elt F)) :
    StableHlo.after (hostOps1 (F := F)) V (Proc.devRef .tc main_v61)
      = kLayer (V (Proc.devRef .tc main_v32)) (V (Proc.devRef .tc main_arg8)) (V (Proc.devRef .tc main_v1))
          (V (Proc.devRef .tc main_v3)) (V (Proc.devRef .tc main_arg3)) (V (Proc.devRef .tc main_v25)) := by
  host_results; rfl

set_option maxHeartbeats 4000000 in
theorem host2_layer (V : Valuation τ sig (Elt F)) :
    StableHlo.after (hostOps2 (F := F)) V (Proc.devRef .tc main_v96)
      = kLayer (V (Proc.devRef .tc main_v67)) (V (Proc.devRef .tc main_arg11)) (V (Proc.devRef .tc main_v1))
          (V (Proc.devRef .tc main_v3)) (V (Proc.devRef .tc main_arg3)) (V (Proc.devRef .tc main_v25)) := by
  host_results; rfl

theorem host2_bias (V : Valuation τ sig (Elt F)) :
    StableHlo.after (hostOps2 (F := F)) V (Proc.devRef .tc main_v97)
      = shapeCast S1x256 (V (Proc.devRef .tc main_arg13)) shapeCasts_S256_S1x256 := by
  host_results; rfl

theorem host2_obias (V : Valuation τ sig (Elt F)) :
    StableHlo.after (hostOps2 (F := F)) V (Proc.devRef .tc main_v98)
      = shapeCast S1x2 (V (Proc.devRef .tc main_arg15)) shapeCasts_S2_S1x2 := by
  host_results; rfl

end Cert.KernelIdeal.Hand

end
-- ==== Proof.LibNary3.lean ====
/-
  A host operation over a LITERAL family of three references — a concatenation of three operands — leaves at its result
  reference its function of the three operands' contents, each read AT ITS OWN REFERENCE.

  The general statement for a family `xs : Fin n → Ref` gives the operands as `fun k => F (xs k)`; under that binder the
  reference `![x, a, b] k` is no literal, so nothing further can be said about the contents there. Spelling the family out
  (`Fin.cons` of the three contents) keeps each operand's contents at a literal reference, where the operations before it
  can be read in turn. The library states this for four references; this is the same statement for three.
-/
import Idealize.ShloMosaic.Lib.StableHlo.Run

noncomputable section

namespace Idealize.ShloMosaic.StableHlo

open Idealize.SL.Sem

variable {τ : Topo} {sig : RefSig} {Val : EltTy → Type} {x a b y : Ref sig .tc}

/-- The result of an operation over the three references `x`, `a`, `b`, with each operand's contents at its own
    reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a one-pass `simp` over an operation list uses. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KI.CombRead.lean ====
/-
  The combined weight matrices of the two graph layers, read at an entry, and the two host stretches that compute them.
  A combined matrix is the root weights and the two relation slices of the relation weights laid side by side along the
  columns: columns 0..255 are the root weights, columns 256..511 relation 0, columns 512..767 relation 1.
-/
import proofs.«431101_j53455162966646_3_alg».proof.Proof.KI.HostFns
import proofs.«431101_j53455162966646_3_alg».proof.Proof.LibNary3

noncomputable section

namespace Cert.KernelIdeal.Hand

open Cert.KernelIdeal Cert.KernelIdeal.Gen
open Idealize.ShloMosaic Idealize.ShloMosaic.StableHlo Idealize.SL.Sem

variable {F : FTy → Type} [FloatOps F]

/-- As `host_results`, with the three-operand concatenation read at its own three references. -/
macro "host_results3" : tactic =>
  `(tactic| (after_results_simp
             repeat (first
               | rw [nullary_result] | rw [unary_result] | rw [binary_result] | rw [ternary_result] | rw [quaternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

set_option maxHeartbeats 4000000 in
theorem host02_comb (V : Valuation τ sig (Elt F)) :
    StableHlo.after (hostOps0_2 (F := F)) V (Proc.devRef .tc main_v30)
      = comb768 (V (Proc.devRef .tc main_arg7)) (V (Proc.devRef .tc main_arg6)) := by
  host_results3; rfl

set_option maxHeartbeats 4000000 in
theorem host1_comb (V : Valuation τ sig (Elt F)) :
    StableHlo.after (hostOps1 (F := F)) V (Proc.devRef .tc main_v66)
      = comb256 (V (Proc.devRef .tc main_arg10)) (V (Proc.devRef .tc main_arg9)) := by
  host_results3; rfl

end Cert.KernelIdeal.Hand

end
-- ==== Proof.KI.Result.lean ====
/-
  The kernel program's result as one function of its argument arrays, on the extended reals: the first dense stage, a graph
  layer, the second dense stage, a graph layer, the softmax head.  The edge list's two rows, the relation words and the
  per-edge scales are shared by both graph layers.
-/
import proofs.«431101_j53455162966646_3_alg».proof.Proof.KI.HostFns
import proofs.«431101_j53455162966646_3_alg».proof.Proof.Spec

noncomputable section

namespace Cert.KernelIdeal.Hand

open Cert.KernelIdeal Cert.KernelIdeal.Gen
open Idealize.ShloMosaic

/-- Contents of a buffer of the given shape and element type at the exact instance. -/
abbrev IArr (s : Shape) (e : EltTy) : Type := (⟨s, e⟩ : BufTy).Contents (Elt Ideal)

/-- The node features after the first graph layer. -/
def kH1 (x : IArr S50000x768 .f32) (ei : IArr S2x800000 .i32) (et : IArr S800000 .i32) (w1 : IArr S768x768 .f32)
    (b1 : IArr S768 .f32) (wr1 : IArr S2x768x256 .f32) (rt1 : IArr S768x256 .f32) (bs1 : IArr S256 .f32) :
    IArr S50000x256 .f32 :=
  kLayer (F := Ideal) (Cert.Spec.t1Fun x w1 (shapeCast S1x768 b1 shapeCasts_S768_S1x768) (comb768 (F := Ideal) rt1 wr1)) bs1
    (srcOf (F := Ideal) ei) (dstOf (F := Ideal) ei) et (kScale (F := Ideal) (dstOf (F := Ideal) ei) et (oneHot (F := Ideal) et))

/-- The node features after the second graph layer. -/
def kH2 (x : IArr S50000x768 .f32) (ei : IArr S2x800000 .i32) (et : IArr S800000 .i32) (w1 : IArr S768x768 .f32)
    (b1 : IArr S768 .f32) (wr1 : IArr S2x768x256 .f32) (rt1 : IArr S768x256 .f32) (bs1 : IArr S256 .f32)
    (wr2 : IArr S2x256x256 .f32) (rt2 : IArr S256x256 .f32) (bs2 : IArr S256 .f32) : IArr S50000x256 .f32 :=
  kLayer (F := Ideal) (Cert.Spec.t2Fun (kH1 x ei et w1 b1 wr1 rt1 bs1) (comb256 (F := Ideal) rt2 wr2)) bs2
    (srcOf (F := Ideal) ei) (dstOf (F := Ideal) ei) et (kScale (F := Ideal) (dstOf (F := Ideal) ei) et (oneHot (F := Ideal) et))

/-- The kernel program's result: the class probabilities of every node. -/
def kResult (x : IArr S50000x768 .f32) (ei : IArr S2x800000 .i32) (et : IArr S800000 .i32) (w1 : IArr S768x768 .f32)
    (b1 : IArr S768 .f32) (wr1 : IArr S2x768x256 .f32) (rt1 : IArr S768x256 .f32) (bs1 : IArr S256 .f32)
    (wr2 : IArr S2x256x256 .f32) (rt2 : IArr S256x256 .f32) (bs2 : IArr S256 .f32)
    (w2 : IArr S256x256 .f32) (b2 : IArr S256 .f32) (wo : IArr S256x2 .f32) (bo : IArr S2 .f32) : IArr S50000x2 .f32 :=
  Cert.Spec.smFun (kH2 x ei et w1 b1 wr1 rt1 bs1 wr2 rt2 bs2) w2 (shapeCast S1x256 b2 shapeCasts_S256_S1x256) wo
    (shapeCast S1x2 bo shapeCasts_S2_S1x2)

end Cert.KernelIdeal.Hand

end
-- ==== Proof.KI.Compose.lean ====
/- The value the program leaves in its result array, as one function of the argument arrays, on the exact instance.
   The run ends with the result array at what the last pallas_call's write-backs leave; that is the softmax head of the
   contents the call is entered at. Those contents are traced back through the fold of boundary contents: a buffer a
   host stretch computes is a function of the buffers the stretch reads; a buffer a pallas_call writes is the dense stage
   of the contents it is entered at; and a buffer nothing writes between two boundaries is the same at both. Walking
   back to the launch memory, every buffer read on the way is a function of the argument arrays, and the functions
   compose to `kResult`. -/
import proofs.«431101_j53455162966646_3_alg».proof.Proof.KI.Run
import proofs.«431101_j53455162966646_3_alg».proof.Proof.KI.Dense0
import proofs.«431101_j53455162966646_3_alg».proof.Proof.KI.Dense1
import proofs.«431101_j53455162966646_3_alg».proof.Proof.KI.Dense2
import proofs.«431101_j53455162966646_3_alg».proof.Proof.KI.HostFns
import proofs.«431101_j53455162966646_3_alg».proof.Proof.KI.CombRead
import proofs.«431101_j53455162966646_3_alg».proof.Proof.KI.Result

-- deciding that a reference is not in a list of some hundred references recurses once per entry
set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

/-! ## One boundary back: a stretch of host operations leaves alone what it does not write -/

section Fold

variable {F : FTy → Type} [FloatOps F]
variable (m : (ℓ : Loc nD τ sig) → Buf (Elt F) ℓ) (ρ : Dev nD → PrngReg)

theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h
theorem W2_of (c : Dev nD) (b : Ref sig .tc) (h : b ∉ hostOps0_1_W) :
    W2 m ρ c (Proc.devRef .tc b) = W1 m ρ c (Proc.devRef .tc b) :=
  StableHlo.after_of_writes_sub hostOps0_1 _ hostOps0_1_writes h
theorem W3_of (c : Dev nD) (b : Ref sig .tc) (h : b ∉ hostOps0_2_W) :
    W3 m ρ c (Proc.devRef .tc b) = W2 m ρ c (Proc.devRef .tc b) :=
  StableHlo.after_of_writes_sub hostOps0_2 _ hostOps0_2_writes h
theorem W5_of (c : Dev nD) (b : Ref sig .tc) (h : b ∉ hostOps1_W) :
    W5 m ρ c (Proc.devRef .tc b) = W4 m ρ c (Proc.devRef .tc b) :=
  StableHlo.after_of_writes_sub hostOps1 _ hostOps1_writes h
theorem W7_of (c : Dev nD) (b : Ref sig .tc) (h : b ∉ hostOps2_W) :
    W7 m ρ c (Proc.devRef .tc b) = W6 m ρ c (Proc.devRef .tc b) :=
  StableHlo.after_of_writes_sub hostOps2 _ hostOps2_writes h

/-! ## The arguments hold their launch contents at every boundary -/

/-- Buffer `b` holds its launch contents at each of the eight boundaries after the launch. -/
structure Launched (c : Dev nD) (b : Ref sig .tc) : Prop where
  at1 : W1 m ρ c (Proc.devRef .tc b) = m ((c : Thread nD τ).loc b)
  at2 : W2 m ρ c (Proc.devRef .tc b) = m ((c : Thread nD τ).loc b)
  at3 : W3 m ρ c (Proc.devRef .tc b) = m ((c : Thread nD τ).loc b)
  at4 : W4 m ρ c (Proc.devRef .tc b) = m ((c : Thread nD τ).loc b)
  at5 : W5 m ρ c (Proc.devRef .tc b) = m ((c : Thread nD τ).loc b)
  at6 : W6 m ρ c (Proc.devRef .tc b) = m ((c : Thread nD τ).loc b)
  at7 : W7 m ρ c (Proc.devRef .tc b) = m ((c : Thread nD τ).loc b)
  at8 : W8 m ρ c (Proc.devRef .tc b) = m ((c : Thread nD τ).loc b)

/-- A reference no host stretch writes and no pallas_call has as an output array is `Launched`: one boundary at a time. -/
theorem launched_of_unwritten (c : Dev nD) (b : Ref sig .tc)
    (h0 : b ∉ hostOps0_W) (h01 : b ∉ hostOps0_1_W) (h02 : b ∉ hostOps0_2_W)
    (hr0 : ∀ w, (cfg0.win w).isOut = true → Pipeline.arrRef spec0 w ≠ b)
    (h1 : b ∉ hostOps1_W) (hr1 : ∀ w, (cfg1.win w).isOut = true → Pipeline.arrRef spec1 w ≠ b)
    (h2 : b ∉ hostOps2_W) (hr2 : ∀ w, (cfg2.win w).isOut = true → Pipeline.arrRef spec2 w ≠ b) :
    Launched m ρ c b := by
  have e1 : W1 m ρ c (Proc.devRef .tc b) = m ((c : Thread nD τ).loc b) := W1_of m ρ c b h0
  have e2 := (W2_of m ρ c b h01).trans e1
  have e3 := (W3_of m ρ c b h02).trans e2
  have e4 := (W4_keep m ρ c b hr0).trans e3
  have e5 := (W5_of m ρ c b h1).trans e4
  have e6 := (W6_keep m ρ c b hr1).trans e5
  have e7 := (W7_of m ρ c b h2).trans e6
  have e8 := (W8_keep m ρ c b hr2).trans e7
  exact ⟨e1, e2, e3, e4, e5, e6, e7, e8⟩

theorem arg0_launched (c : Dev nD) : Launched m ρ c main_arg0 :=
  launched_of_unwritten m ρ c main_arg0 (by decide) (by decide) (by decide) (by decide) (by decide) (by decide) (by decide) (by decide)
theorem arg3_launched (c : Dev nD) : Launched m ρ c main_arg3 :=
  launched_of_unwritten m ρ c main_arg3 (by decide) (by decide) (by decide) (by decide) (by decide) (by decide) (by decide) (by decide)
theorem arg4_launched (c : Dev nD) : Launched m ρ c main_arg4 :=
  launched_of_unwritten m ρ c main_arg4 (by decide) (by decide) (by decide) (by decide) (by decide) (by decide) (by decide) (by decide)
theorem arg5_launched (c : Dev nD) : Launched m ρ c main_arg5 :=
  launched_of_unwritten m ρ c main_arg5 (by decide) (by decide) (by decide) (by decide) (by decide) (by decide) (by decide) (by decide)
theorem arg6_launched (c : Dev nD) : Launched m ρ c main_arg6 :=
  launched_of_unwritten m ρ c main_arg6 (by decide) (by decide) (by decide) (by decide) (by decide) (by decide) (by decide) (by decide)
theorem arg7_launched (c : Dev nD) : Launched m ρ c main_arg7 :=
  launched_of_unwritten m ρ c main_arg7 (by decide) (by decide) (by decide) (by decide) (by decide) (by decide) (by decide) (by decide)
theorem arg8_launched (c : Dev nD) : Launched m ρ c main_arg8 :=
  launched_of_unwritten m ρ c main_arg8 (by decide) (by decide) (by decide) (by decide) (by decide) (by decide) (by decide) (by decide)
theorem arg9_launched (c : Dev nD) : Launched m ρ c main_arg9 :=
  launched_of_unwritten m ρ c main_arg9 (by decide) (by decide) (by decide) (by decide) (by decide) (by decide) (by decide) (by decide)
theorem arg10_launched (c : Dev nD) : Launched m ρ c main_arg10 :=
  launched_of_unwritten m ρ c main_arg10 (by decide) (by decide) (by decide) (by decide) (by decide) (by decide) (by decide) (by decide)
theorem arg11_launched (c : Dev nD) : Launched m ρ c main_arg11 :=
  launched_of_unwritten m ρ c main_arg11 (by decide) (by decide) (by decide) (by decide) (by decide) (by decide) (by decide) (by decide)
theorem arg12_launched (c : Dev nD) : Launched m ρ c main_arg12 :=
  launched_of_unwritten m ρ c main_arg12 (by decide) (by decide) (by decide) (by decide) (by decide) (by decide) (by decide) (by decide)
theorem arg13_launched (c : Dev nD) : Launched m ρ c main_arg13 :=
  launched_of_unwritten m ρ c main_arg13 (by decide) (by decide) (by decide) (by decide) (by decide) (by decide) (by decide) (by decide)
theorem arg14_launched (c : Dev nD) : Launched m ρ c main_arg14 :=
  launched_of_unwritten m ρ c main_arg14 (by decide) (by decide) (by decide) (by decide) (by decide) (by decide) (by decide) (by decide)
theorem arg15_launched (c : Dev nD) : Launched m ρ c main_arg15 :=
  launched_of_unwritten m ρ c main_arg15 (by decide) (by decide) (by decide) (by decide) (by decide) (by decide) (by decide) (by decide)

/-! ## What the host stretches before the first pallas_call compute -/

/-- The source words of the edges are the edge list's row 0, from the first boundary on: the first stretch computes
    them and nothing later writes them. -/
theorem src_at1 (c : Dev nD) : W1 m ρ c (Proc.devRef .tc main_v1) = srcOf (m ((c : Thread nD τ).loc main_arg1)) :=
  host0_src (W0 m ρ c)
theorem src_at4 (c : Dev nD) : W4 m ρ c (Proc.devRef .tc main_v1) = srcOf (m ((c : Thread nD τ).loc main_arg1)) :=
  (W4_keep m ρ c main_v1 (by decide)).trans ((W3_of m ρ c main_v1 (by decide)).trans ((W2_of m ρ c main_v1 (by decide)).trans (src_at1 m ρ c)))
theorem src_at6 (c : Dev nD) : W6 m ρ c (Proc.devRef .tc main_v1) = srcOf (m ((c : Thread nD τ).loc main_arg1)) :=
  (W6_keep m ρ c main_v1 (by decide)).trans ((W5_of m ρ c main_v1 (by decide)).trans (src_at4 m ρ c))

/-- The destination words are the edge list's row 1, likewise. -/
theorem dst_at1 (c : Dev nD) : W1 m ρ c (Proc.devRef .tc main_v3) = dstOf (m ((c : Thread nD τ).loc main_arg1)) :=
  host0_dst (W0 m ρ c)
theorem dst_at2 (c : Dev nD) : W2 m ρ c (Proc.devRef .tc main_v3) = dstOf (m ((c : Thread nD τ).loc main_arg1)) :=
  (W2_of m ρ c main_v3 (by decide)).trans (dst_at1 m ρ c)
theorem dst_at4 (c : Dev nD) : W4 m ρ c (Proc.devRef .tc main_v3) = dstOf (m ((c : Thread nD τ).loc main_arg1)) :=
  (W4_keep m ρ c main_v3 (by decide)).trans ((W3_of m ρ c main_v3 (by decide)).trans (dst_at2 m ρ c))
theorem dst_at6 (c : Dev nD) : W6 m ρ c (Proc.devRef .tc main_v3) = dstOf (m ((c : Thread nD τ).loc main_arg1)) :=
  (W6_keep m ρ c main_v3 (by decide)).trans ((W5_of m ρ c main_v3 (by decide)).trans (dst_at4 m ρ c))

/-- The one-hot rows of the relation words, after the second stretch. -/
theorem onehot_at2 (c : Dev nD) : W2 m ρ c (Proc.devRef .tc main_v4) = oneHot (m ((c : Thread nD τ).loc main_arg3)) := by
  have h := host01_onehot (W1 m ρ c)
  rw [(arg3_launched m ρ c).at1] at h
  exact h

/-- The per-edge scales, from the third boundary on: the third stretch computes them from the destination words, the
    relation words and the one-hot rows, and nothing later writes them. -/
theorem scale_at3 (c : Dev nD) : W3 m ρ c (Proc.devRef .tc main_v25) = kScale (dstOf (m ((c : Thread nD τ).loc main_arg1))) (m ((c : Thread nD τ).loc main_arg3)) (oneHot (m ((c : Thread nD τ).loc main_arg3))) := by
  have h := host02_scale (W2 m ρ c)
  rw [dst_at2 m ρ c, (arg3_launched m ρ c).at2, onehot_at2 m ρ c] at h
  exact h
theorem scale_at4 (c : Dev nD) : W4 m ρ c (Proc.devRef .tc main_v25) = kScale (dstOf (m ((c : Thread nD τ).loc main_arg1))) (m ((c : Thread nD τ).loc main_arg3)) (oneHot (m ((c : Thread nD τ).loc main_arg3))) :=
  (W4_keep m ρ c main_v25 (by decide)).trans (scale_at3 m ρ c)
theorem scale_at6 (c : Dev nD) : W6 m ρ c (Proc.devRef .tc main_v25) = kScale (dstOf (m ((c : Thread nD τ).loc main_arg1))) (m ((c : Thread nD τ).loc main_arg3)) (oneHot (m ((c : Thread nD τ).loc main_arg3))) :=
  (W6_keep m ρ c main_v25 (by decide)).trans ((W5_of m ρ c main_v25 (by decide)).trans (scale_at4 m ρ c))

/-- The first dense stage's bias as a row, and the first layer's combined weights, when the first pallas_call is entered. -/
theorem bias_at3 (c : Dev nD) : W3 m ρ c (Proc.devRef .tc main_v31) = shapeCast S1x768 (m ((c : Thread nD τ).loc main_arg5)) shapeCasts_S768_S1x768 := by
  have h := host02_bias (W2 m ρ c)
  rw [(arg5_launched m ρ c).at2] at h
  exact h
theorem comb_at3 (c : Dev nD) : W3 m ρ c (Proc.devRef .tc main_v30) = comb768 (m ((c : Thread nD τ).loc main_arg7)) (m ((c : Thread nD τ).loc main_arg6)) := by
  have h := host02_comb (W2 m ρ c)
  rw [(arg7_launched m ρ c).at2, (arg6_launched m ρ c).at2] at h
  exact h

/-- The second layer's combined weights when the second pallas_call is entered. -/
theorem comb_at5 (c : Dev nD) : W5 m ρ c (Proc.devRef .tc main_v66) = comb256 (m ((c : Thread nD τ).loc main_arg10)) (m ((c : Thread nD τ).loc main_arg9)) := by
  have h := host1_comb (W4 m ρ c)
  rw [(arg10_launched m ρ c).at4, (arg9_launched m ρ c).at4] at h
  exact h

/-- The head's two biases as rows when the third pallas_call is entered. -/
theorem bias_at7 (c : Dev nD) : W7 m ρ c (Proc.devRef .tc main_v97) = shapeCast S1x256 (m ((c : Thread nD τ).loc main_arg13)) shapeCasts_S256_S1x256 := by
  have h := host2_bias (W6 m ρ c)
  rw [(arg13_launched m ρ c).at6] at h
  exact h
theorem obias_at7 (c : Dev nD) : W7 m ρ c (Proc.devRef .tc main_v98) = shapeCast S1x2 (m ((c : Thread nD τ).loc main_arg15)) shapeCasts_S2_S1x2 := by
  have h := host2_obias (W6 m ρ c)
  rw [(arg15_launched m ρ c).at6] at h
  exact h

end Fold

/-! ## The three dense stages and the two graph layers, on the exact instance -/

section Value

variable (m : (ℓ : Loc nD τ sig) → Buf (Elt Ideal) ℓ) (ρ : Dev nD → PrngReg)

/-- What the first pallas_call leaves in its output array: the first dense stage of the node features, the first
    weights and bias, and the first layer's combined weights. -/
theorem t1_at4 (c : Dev nD) : W4 m ρ c (Proc.devRef .tc main_v32)
    = Cert.Spec.t1Fun (m ((c : Thread nD τ).loc main_arg0)) (m ((c : Thread nD τ).loc main_arg4)) (shapeCast S1x768 (m ((c : Thread nD τ).loc main_arg5)) shapeCasts_S768_S1x768)
        (comb768 (F := Ideal) (m ((c : Thread nD τ).loc main_arg7)) (m ((c : Thread nD τ).loc main_arg6))) := by
  have h := (W4_arr m ρ c 4).trans (final0 (V3 m ρ) c)
  rw [show V3 m ρ c main_arg0 = _ from (arg0_launched m ρ c).at3, show V3 m ρ c main_arg4 = _ from (arg4_launched m ρ c).at3,
    show V3 m ρ c main_v31 = _ from bias_at3 m ρ c, show V3 m ρ c main_v30 = _ from comb_at3 m ρ c] at h
  exact h

/-- The node features after the first graph layer, when the second pallas_call is entered. -/
theorem h1_at5 (c : Dev nD) : W5 m ρ c (Proc.devRef .tc main_v61) = kH1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := host1_layer (F := Ideal) (W4 m ρ c)
  rw [t1_at4 m ρ c, (arg8_launched m ρ c).at4, src_at4 m ρ c, dst_at4 m ρ c, (arg3_launched m ρ c).at4, scale_at4 m ρ c] at h
  exact h

/-- What the second pallas_call leaves in its output array: the second dense stage of those features and the second
    layer's combined weights. -/
theorem t2_at6 (c : Dev nD) : W6 m ρ c (Proc.devRef .tc main_v67)
    = Cert.Spec.t2Fun (kH1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (comb256 (F := Ideal) (m ((c : Thread nD τ).loc main_arg10)) (m ((c : Thread nD τ).loc main_arg9))) := by
  have h := (W6_arr m ρ c 2).trans (final1 (V5 m ρ) c)
  rw [show V5 m ρ c main_v61 = _ from h1_at5 m ρ c, show V5 m ρ c main_v66 = _ from comb_at5 m ρ c] at h
  exact h

/-- The node features after the second graph layer, when the third pallas_call is entered. -/
theorem h2_at7 (c : Dev nD) : W7 m ρ c (Proc.devRef .tc main_v96) = kH2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h := host2_layer (F := Ideal) (W6 m ρ c)
  rw [t2_at6 m ρ c, (arg11_launched m ρ c).at6, src_at6 m ρ c, dst_at6 m ρ c, (arg3_launched m ρ c).at6, scale_at6 m ρ c] at h
  exact h

/-- The result array at the end of the run: the softmax head of the features after the second layer. -/
theorem kernel_value (m : (ℓ : Loc nD τ sig) → Buf (Elt Ideal) ℓ) (ρ : Dev nD → PrngReg) (c : Dev nD) :
    (dat2 (F := Ideal) (V7 m ρ) c).arrAt 5 cfg2.N
      = kResult (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h := final2 (V7 m ρ) c
  rw [show V7 m ρ c main_v96 = _ from h2_at7 m ρ c, show V7 m ρ c main_arg12 = _ from (arg12_launched m ρ c).at7,
    show V7 m ρ c main_v97 = _ from bias_at7 m ρ c, show V7 m ρ c main_arg14 = _ from (arg14_launched m ρ c).at7,
    show V7 m ρ c main_v98 = _ from obias_at7 m ρ c] at h
  exact h

/-- The run with its value named: every weakly fair execution terminates without fault, the result array ends at
    `kResult` of the launch contents of the arguments, and the arguments end as launched. -/
theorem run_kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v99) = kResult (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs (onTc (τ := τ) (main (F := Ideal))) ⟨m, fun _ => 0, ρ⟩).mono
    (fun r h c => ⟨(h c).1.trans (kernel_value m ρ c), (h c).2⟩) (run_valued m ρ)

end Value

end Cert.KernelIdeal.Hand

end
-- ==== Proof.KI.CombEntries.lean ====
import proofs.«431101_j53455162966646_3_alg».proof.Proof.KI.HostFns
import Idealize.ShloMosaic.Lib.Pipeline.Value
import Idealize.ShloMosaic.Lib.ValueIdx

/-!
# The combined weight matrices, read at an entry

Each layer multiplies the node features by one matrix with 768 columns: the root weights in columns 0 to 255, the
weights of relation 0 in columns 256 to 511 and those of relation 1 in columns 512 to 767. The two relation blocks are
the two slabs of a `2 × d × 256` array, each cut out as a `1 × d × 256` array and seen as `d × 256`. Here the combined
matrix is read at an entry of each of its three column blocks. Nothing depends on the float instance: a concatenation,
a slice and a change of shape only move entries.
-/

noncomputable section

namespace Cert.KernelIdeal.Hand

open Cert.KernelIdeal Cert.KernelIdeal.Gen
open Idealize.ShloMosaic Idealize.ShloMosaic.StableHlo Idealize.SL.Sem Idealize.ShloMosaic.ValueIdx

/-! ## Three blocks of 256 columns side by side, read at an entry -/

section Columns
variable {α : Type} {d : Nat}

/-- An entry in the first 256 columns of three `d × 256` arrays set side by side is the first array's. -/
theorem cols3_first (x0 x1 x2 : (⟨2, ![d, 256]⟩ : Shape).Idx → α)
    (h : Shape.Concatenates (([⟨⟨2, ![d, 256]⟩, x0⟩, ⟨⟨2, ![d, 256]⟩, x1⟩, ⟨⟨2, ![d, 256]⟩, x2⟩] :
      List ((s : Shape) × (s.Idx → α))).map (·.1)) ⟨2, ![d, 768]⟩ 1)
    (k : Fin d) (j : Fin 256) (hj : j.val < 768) :
    concatenate ⟨2, ![d, 768]⟩ 1 [⟨⟨2, ![d, 256]⟩, x0⟩, ⟨⟨2, ![d, 256]⟩, x1⟩, ⟨⟨2, ![d, 256]⟩, x2⟩] h (ix2 k ⟨j.val, hj⟩)
      = x0 (ix2 k j) :=
  concatenate_apply_piece (1 : Fin 2) _ h (ix2 k ⟨j.val, hj⟩) 0 (by simp) ⟨2, ![d, 256]⟩ x0 rfl rfl 0 rfl (ix2 k j)
    (fun b hb => by match b with | ⟨0, _⟩ => rfl | ⟨1, _⟩ => exact absurd rfl hb)
    (Nat.zero_add _)

/-- An entry in columns 256 to 511 is the second array's, 256 columns to the left. -/
theorem cols3_second (x0 x1 x2 : (⟨2, ![d, 256]⟩ : Shape).Idx → α)
    (h : Shape.Concatenates (([⟨⟨2, ![d, 256]⟩, x0⟩, ⟨⟨2, ![d, 256]⟩, x1⟩, ⟨⟨2, ![d, 256]⟩, x2⟩] :
      List ((s : Shape) × (s.Idx → α))).map (·.1)) ⟨2, ![d, 768]⟩ 1)
    (k : Fin d) (j : Fin 256) (hj : 256 + j.val < 768) :
    concatenate ⟨2, ![d, 768]⟩ 1 [⟨⟨2, ![d, 256]⟩, x0⟩, ⟨⟨2, ![d, 256]⟩, x1⟩, ⟨⟨2, ![d, 256]⟩, x2⟩] h (ix2 k ⟨256 + j.val, hj⟩)
      = x1 (ix2 k j) :=
  concatenate_apply_piece (1 : Fin 2) _ h (ix2 k ⟨256 + j.val, hj⟩) 1 (by simp) ⟨2, ![d, 256]⟩ x1 rfl rfl 256 rfl (ix2 k j)
    (fun b hb => by match b with | ⟨0, _⟩ => rfl | ⟨1, _⟩ => exact absurd rfl hb)
    rfl

/-- An entry in columns 512 to 767 is the third array's, 512 columns to the left. -/
theorem cols3_third (x0 x1 x2 : (⟨2, ![d, 256]⟩ : Shape).Idx → α)
    (h : Shape.Concatenates (([⟨⟨2, ![d, 256]⟩, x0⟩, ⟨⟨2, ![d, 256]⟩, x1⟩, ⟨⟨2, ![d, 256]⟩, x2⟩] :
      List ((s : Shape) × (s.Idx → α))).map (·.1)) ⟨2, ![d, 768]⟩ 1)
    (k : Fin d) (j : Fin 256) (hj : 512 + j.val < 768) :
    concatenate ⟨2, ![d, 768]⟩ 1 [⟨⟨2, ![d, 256]⟩, x0⟩, ⟨⟨2, ![d, 256]⟩, x1⟩, ⟨⟨2, ![d, 256]⟩, x2⟩] h (ix2 k ⟨512 + j.val, hj⟩)
      = x2 (ix2 k j) :=
  concatenate_apply_piece (1 : Fin 2) _ h (ix2 k ⟨512 + j.val, hj⟩) 2 (by simp) ⟨2, ![d, 256]⟩ x2 rfl rfl 512 rfl (ix2 k j)
    (fun b hb => by match b with | ⟨0, _⟩ => rfl | ⟨1, _⟩ => exact absurd rfl hb)
    rfl

/-- Slab `r` of a `2 × d × 256` array, cut out as a `1 × d × 256` array and seen as `d × 256`, read at `(k, j)`:
    the array at `(r, k, j)`. -/
theorem slab_apply (r : Fin 2) (off : Fin 3 → Nat) (hoff : off = ![r.val, 0, 0]) (w : (⟨3, ![2, d, 256]⟩ : Shape).Idx → α)
    (hs : (⟨3, ![2, d, 256]⟩ : Shape).Slices off ⟨3, ![1, d, 256]⟩)
    (hc : (⟨3, ![1, d, 256]⟩ : Shape).ShapeCasts ⟨2, ![d, 256]⟩) (k : Fin d) (j : Fin 256) :
    shapeCast ⟨2, ![d, 256]⟩ (extractStridedSlice ⟨3, ![1, d, 256]⟩ off w hs) hc (ix2 k j) = w (ix3 r k j) := by
  subst hoff
  rw [shapeCast_dropUnit_apply ![d, 256]]
  refine extractStridedSlice_apply _ w hs _ (ix3 r k j) fun a => ?_
  match a with
  | ⟨0, _⟩ => rfl
  | ⟨1, _⟩ => exact (Nat.zero_add _).symm
  | ⟨2, _⟩ => exact (Nat.zero_add _).symm

end Columns

/-! ## The combined weights at an entry -/

variable {F : FTy → Type} [FloatOps F]

/-- The first 256 columns of the first layer's combined weights are the root weights. -/
theorem comb768_root (root : Arr (F := F) S768x256 .f32) (wrel : Arr (F := F) S2x768x256 .f32) (k : Fin 768) (j : Fin 256) :
    comb768 (F := F) root wrel (ix2 k ⟨j.val, by omega⟩) = root (ix2 k j) := by
  unfold comb768
  exact cols3_first _ _ _ _ k j _

/-- Columns 256 to 511 are the weights of relation 0. -/
theorem comb768_rel0 (root : Arr (F := F) S768x256 .f32) (wrel : Arr (F := F) S2x768x256 .f32) (k : Fin 768) (j : Fin 256) :
    comb768 (F := F) root wrel (ix2 k ⟨256 + j.val, by omega⟩) = wrel (ix3 (0 : Fin 2) k j) := by
  unfold comb768
  exact (cols3_second _ _ _ _ k j _).trans (slab_apply (0 : Fin 2) _ rfl wrel _ _ k j)

/-- Columns 512 to 767 are the weights of relation 1. -/
theorem comb768_rel1 (root : Arr (F := F) S768x256 .f32) (wrel : Arr (F := F) S2x768x256 .f32) (k : Fin 768) (j : Fin 256) :
    comb768 (F := F) root wrel (ix2 k ⟨512 + j.val, by omega⟩) = wrel (ix3 (1 : Fin 2) k j) := by
  unfold comb768
  exact (cols3_third _ _ _ _ k j _).trans (slab_apply (1 : Fin 2) _ rfl wrel _ _ k j)

/-- The same three readings of the second layer's combined weights. -/
theorem comb256_root (root : Arr (F := F) S256x256 .f32) (wrel : Arr (F := F) S2x256x256 .f32) (k : Fin 256) (j : Fin 256) :
    comb256 (F := F) root wrel (ix2 k ⟨j.val, by omega⟩) = root (ix2 k j) := by
  unfold comb256
  exact cols3_first _ _ _ _ k j _

theorem comb256_rel0 (root : Arr (F := F) S256x256 .f32) (wrel : Arr (F := F) S2x256x256 .f32) (k : Fin 256) (j : Fin 256) :
    comb256 (F := F) root wrel (ix2 k ⟨256 + j.val, by omega⟩) = wrel (ix3 (0 : Fin 2) k j) := by
  unfold comb256
  exact (cols3_second _ _ _ _ k j _).trans (slab_apply (0 : Fin 2) _ rfl wrel _ _ k j)

theorem comb256_rel1 (root : Arr (F := F) S256x256 .f32) (wrel : Arr (F := F) S2x256x256 .f32) (k : Fin 256) (j : Fin 256) :
    comb256 (F := F) root wrel (ix2 k ⟨512 + j.val, by omega⟩) = wrel (ix3 (1 : Fin 2) k j) := by
  unfold comb256
  exact (cols3_third _ _ _ _ k j _).trans (slab_apply (1 : Fin 2) _ rfl wrel _ _ k j)

end Cert.KernelIdeal.Hand

end
-- ==== Proof.RefFns.lean ====
/-
  The graph part of one layer of the reference program, as a function of arrays.  For each of the two relations the
  reference masks the edges of that relation, gathers per edge the source node's transformed features, zeroes the rows of
  the other relation's edges, sums the rows arriving at each destination, counts the relation's edges arriving there, and
  divides the sum by the count (at least one).  The layer's output is the root term plus the two means, added in order.
-/
import proofs.«431101_j53455162966646_3_alg».proof.Proof.Gen.ReferenceIdeal

noncomputable section

namespace Cert.ReferenceIdeal.Hand

open Cert.ReferenceIdeal Cert.ReferenceIdeal.Gen
open Idealize.ShloMosaic

variable {F : FTy → Type} [FloatOps F]

/-- Contents of a buffer of the given shape and element type. -/
abbrev Arr (s : Shape) (e : EltTy) : Type := (⟨s, e⟩ : BufTy).Contents (Elt F)

/-- A node word as indexing reads it: `v + 50000` where `v < 0`. -/
def rWrapNode (v : Arr (F := F) S800000 .i32) : Arr (F := F) S800000 .i32 :=
  select (cmpi .slt v (broadcastInDim S800000 ![] bcast_S_S800000 (constantI S_ 32 0#32)))
    (addi v (broadcastInDim S800000 ![] bcast_S_S800000 (constantI S_ 32 50000#32))) v

/-- Which edges are of relation `r`. -/
def rMask (et : Arr (F := F) S800000 .i32) (r : BitVec 32) : Arr (F := F) S800000 .i1 :=
  cmpi .eq et (broadcastInDim S800000 ![] bcast_S_S800000 (constantI S_ 32 r))

/-- The mean, over relation `r`'s edges arriving at each node, of the source rows of `h`. -/
def rMean (h : Arr (F := F) S50000x256 .f32) (src dst et : Arr (F := F) S800000 .i32) (r : BitVec 32) :
    Arr (F := F) S50000x256 .f32 :=
  Host.divf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (mulf
        (Host.gather gather_S50000x256_S800000x1_S800000x256_1_0_n_n_0_1_1256 h
          (broadcastInDim S800000x1 ![0] bcast_S800000_S800000x1_0 (rWrapNode src)))
        (broadcastInDim S800000x256 ![0, 1] bcast_S800000x1_S800000x256_0_1
          (uitofp .f32 (broadcastInDim S800000x1 ![0] bcast_S800000_S800000x1_0 (rMask et r))))))
    (broadcastInDim S50000x256 ![0, 1] bcast_S50000x1_S50000x256_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (uitofp .f32 (rMask et r)))
          (broadcastInDim S50000 ![] bcast_S_S50000 (constant S_ .f32 0x3F800000#32)))))

/-- One graph layer of the reference: the root term, plus relation 0's mean, plus relation 1's mean. -/
def rAgg (ro h0 h1 : Arr (F := F) S50000x256 .f32) (src dst et : Arr (F := F) S800000 .i32) :
    Arr (F := F) S50000x256 .f32 :=
  addf (addf ro (rMean h0 src dst et 0#32)) (rMean h1 src dst et 1#32)

end Cert.ReferenceIdeal.Hand

end
-- ==== Proof.LibSegmentSum.lean ====
/-
  A segment sum read at one of its entries, and a batched row gather read at one of its entries.

  A scatter with an additive body whose scatter indices are an [n × 1] column of words adds update `i` to the
  operand entry that word `i` names (read signed, not clamped; an entry the word does not name receives
  nothing). At the exact instance each operand entry therefore ends at its own value plus the sum of the updates
  whose word names it. Three layouts of the same operation are read here: a vector of `P` segments; `B` rows of
  `P` segments fed by `B` rows of updates; and `P` segments of `C` columns fed by `n` rows of `C` columns.

  A gather that reads, for each of `n` words, one column of a [B × N] table (all `B` rows of it) returns at
  (b, i) the table's entry in row `b` at the column word `i` names, read signed and clamped into `[0, N − 1]`.
-/
import Idealize.ShloMosaic.PureOps.Ideal
import Idealize.ShloMosaic.PureOps.Contract
import Idealize.ShloMosaic.Lib.ValueIdx

noncomputable section

namespace Idealize.ShloMosaic.SegmentSum

open Idealize.ShloMosaic.ValueIdx

/-- Row `i` of an [n × 1] column of words. -/
abbrev colIx {n : Nat} (i : Fin n) : (⟨2, ![n, 1]⟩ : Shape).Idx := ix2 i (0 : Fin 1)

/-! ## A vector of segments -/

/-- The dimension numbers of `segment_sum` over a vector: operand [P], words [n × 1], updates [n]. -/
abbrev dimsVec (P n : Nat) (wf : ScatterDims.WF ⟨1, ![P]⟩ ⟨2, ![n, 1]⟩ ⟨1, ![n]⟩ [] [0] [0] 1) :
    ScatterDims ⟨1, ![P]⟩ ⟨2, ![n, 1]⟩ ⟨1, ![n]⟩ where
  updateWindowDims := []
  insertedWindowDims := [0]
  scatterDimsToOperandDims := [0]
  indexVectorDim := 1
  wf := wf

section Vec
variable {P n w : Nat} (wf : ScatterDims.WF ⟨1, ![P]⟩ ⟨2, ![n, 1]⟩ ⟨1, ![n]⟩ [] [0] [0] 1)

/-- The operand's one axis starts at the word the update's coordinate names. -/
private theorem vec_start0 (j : (⟨1, ![n]⟩ : Shape).Idx) (idx : IVec ⟨2, ![n, 1]⟩ w) :
    (dimsVec P n wf).start j idx 0 = (idx (colIx (j 0))).toInt := by
  unfold ScatterDims.start
  rw [dif_pos (show (0 : Fin 1) ∈ (dimsVec P n wf).scatterDimsToOperandDims from List.mem_singleton.mpr rfl)]
  congr 2
  funext b; refine Fin.ext ?_
  match b with
  | ⟨0, _⟩ => rfl
  | ⟨1, _⟩ => rfl

/-- The operand's one axis is inserted: no window coordinate. -/
private theorem vec_window0 (j : (⟨1, ![n]⟩ : Shape).Idx) :
    (dimsVec P n wf).window j 0 = 0 := by
  unfold ScatterDims.window
  have h : (0 : Fin 1) ∉ (dimsVec P n wf).sKept :=
    show (0 : Fin 1) ∉ (List.finRange 1).filter (· ∉ ([0] : List (Fin 1))) by decide
  rw [dif_neg h]

/-- An update lands on segment `p` exactly when its word is `p`. -/
private theorem vec_resultIdx_iff (j : (⟨1, ![n]⟩ : Shape).Idx) (idx : IVec ⟨2, ![n, 1]⟩ w) (p : Fin P) :
    (dimsVec P n wf).resultIdx? j idx = some (ix1 p) ↔ (idx (colIx (j 0))).toInt = (p.val : Int) := by
  have hs0 : (⟨1, ![P]⟩ : Shape).size 0 = P := rfl
  unfold ScatterDims.resultIdx?
  split
  · rename_i h
    rw [Option.some.injEq]
    constructor
    · intro he
      have h0 := congrArg Fin.val (congrFun he 0)
      have g0 := h 0
      simp only [vec_start0, vec_window0] at h0 g0
      change _ = p.val at h0
      omega
    · intro h0
      funext a
      refine Fin.ext ?_
      match a with
      | ⟨0, _⟩ =>
        show ((dimsVec P n wf).start j idx 0 + ((dimsVec P n wf).window j 0 : Int)).toNat = p.val
        rw [vec_start0, vec_window0, h0]; omega
  · rename_i h
    constructor
    · intro he; exact absurd he (by simp)
    · intro h0
      exfalso; apply h
      intro a
      match a with
      | ⟨0, _⟩ =>
        show 0 ≤ (dimsVec P n wf).start j idx 0 + ((dimsVec P n wf).window j 0 : Int)
          ∧ (dimsVec P n wf).start j idx 0 + ((dimsVec P n wf).window j 0 : Int) < ((⟨1, ![P]⟩ : Shape).size 0 : Nat)
        have := p.isLt
        rw [vec_start0, vec_window0, h0, hs0]; omega
end Vec

/-- Segment `p` ends at its own value plus the sum of the updates whose word is `p`. -/
theorem scatterAdd_vec_apply {P n w : Nat} (wf : ScatterDims.WF ⟨1, ![P]⟩ ⟨2, ![n, 1]⟩ ⟨1, ![n]⟩ [] [0] [0] 1)
    (x : (⟨1, ![P]⟩ : Shape).Idx → EReal) (idx : IVec ⟨2, ![n, 1]⟩ w) (upd : (⟨1, ![n]⟩ : Shape).Idx → EReal) (p : Fin P) :
    Ideal.hostScatterAdd (dimsVec P n wf) x idx upd (ix1 p)
      = x (ix1 p) + ∑ i ∈ Finset.univ.filter (fun i : Fin n => (idx (colIx i)).toInt = (p.val : Int)), upd (ix1 i) := by
  unfold Ideal.hostScatterAdd
  congr 1
  refine Finset.sum_nbij' (fun j => (j 0 : Fin n)) (fun i => ix1 i) ?_ ?_ ?_ ?_ ?_
  · intro j hj
    have hj' := (Finset.mem_filter.mp hj).2
    exact Finset.mem_filter.mpr ⟨Finset.mem_univ _, (vec_resultIdx_iff wf j idx p).mp hj'⟩
  · intro i hi
    have hi' := (Finset.mem_filter.mp hi).2
    exact Finset.mem_filter.mpr ⟨Finset.mem_univ _, (vec_resultIdx_iff wf (ix1 i) idx p).mpr hi'⟩
  · intro j _
    exact (eq_ix1 j).symm
  · intro i _
    rfl
  · intro j _
    exact congrArg upd (eq_ix1 j)

/-! ## Rows of segments -/

/-- Operand [B × P], words [n × 1], updates [B × n]: update column `i` goes, whole, to operand column word `i` names. -/
abbrev dimsRows (B P n : Nat) (wf : ScatterDims.WF ⟨2, ![B, P]⟩ ⟨2, ![n, 1]⟩ ⟨2, ![B, n]⟩ [0] [1] [1] 1) :
    ScatterDims ⟨2, ![B, P]⟩ ⟨2, ![n, 1]⟩ ⟨2, ![B, n]⟩ where
  updateWindowDims := [0]
  insertedWindowDims := [1]
  scatterDimsToOperandDims := [1]
  indexVectorDim := 1
  wf := wf

section Rows
variable {B P n w : Nat} (wf : ScatterDims.WF ⟨2, ![B, P]⟩ ⟨2, ![n, 1]⟩ ⟨2, ![B, n]⟩ [0] [1] [1] 1)

/-- Axis 0 of the operand is not named by the map: its start is 0. -/
private theorem rows_start0 (j : (⟨2, ![B, n]⟩ : Shape).Idx) (idx : IVec ⟨2, ![n, 1]⟩ w) :
    (dimsRows B P n wf).start j idx 0 = 0 := by
  unfold ScatterDims.start
  rw [dif_neg (show (0 : Fin 2) ∉ ([1] : List (Fin 2)) by decide)]

/-- Axis 1 of the operand starts at the word the update's second coordinate names. -/
private theorem rows_start1 (j : (⟨2, ![B, n]⟩ : Shape).Idx) (idx : IVec ⟨2, ![n, 1]⟩ w) :
    (dimsRows B P n wf).start j idx 1 = (idx (colIx (j 1))).toInt := by
  unfold ScatterDims.start
  rw [dif_pos (show (1 : Fin 2) ∈ (dimsRows B P n wf).scatterDimsToOperandDims from List.mem_singleton.mpr rfl)]
  congr 2
  funext b; refine Fin.ext ?_
  match b with
  | ⟨0, _⟩ => rfl
  | ⟨1, _⟩ => rfl

/-- Axis 0 of the operand is the window axis: its window coordinate is the update's first coordinate. -/
private theorem rows_window0 (j : (⟨2, ![B, n]⟩ : Shape).Idx) :
    (dimsRows B P n wf).window j 0 = (j 0).val := by
  unfold ScatterDims.window
  have h : (0 : Fin 2) ∈ (dimsRows B P n wf).sKept :=
    show (0 : Fin 2) ∈ (List.finRange 2).filter (· ∉ ([1] : List (Fin 2))) by decide
  rw [dif_pos h]
  rfl

/-- Axis 1 of the operand is inserted: no window coordinate. -/
private theorem rows_window1 (j : (⟨2, ![B, n]⟩ : Shape).Idx) :
    (dimsRows B P n wf).window j 1 = 0 := by
  unfold ScatterDims.window
  have h : (1 : Fin 2) ∉ (dimsRows B P n wf).sKept :=
    show (1 : Fin 2) ∉ (List.finRange 2).filter (· ∉ ([1] : List (Fin 2))) by decide
  rw [dif_neg h]

/-- An update lands on entry (b, p) exactly when it sits in row `b` and its word is `p`. -/
private theorem rows_resultIdx_iff (j : (⟨2, ![B, n]⟩ : Shape).Idx) (idx : IVec ⟨2, ![n, 1]⟩ w) (b : Fin B) (p : Fin P) :
    (dimsRows B P n wf).resultIdx? j idx = some (ix2 b p)
      ↔ j 0 = b ∧ (idx (colIx (j 1))).toInt = (p.val : Int) := by
  have hb := (j 0).isLt
  have hB : (⟨2, ![B, n]⟩ : Shape).size 0 = B := rfl
  have hs0 : (⟨2, ![B, P]⟩ : Shape).size 0 = B := rfl
  have hs1 : (⟨2, ![B, P]⟩ : Shape).size 1 = P := rfl
  unfold ScatterDims.resultIdx?
  split
  · rename_i h
    rw [Option.some.injEq]
    constructor
    · intro he
      have h0 := congrArg Fin.val (congrFun he 0)
      have h1 := congrArg Fin.val (congrFun he 1)
      have g1 := h 1
      simp only [rows_start0, rows_start1, rows_window0, rows_window1] at h0 h1 g1
      change _ = b.val at h0
      change _ = p.val at h1
      refine ⟨Fin.ext ?_, ?_⟩ <;> omega
    · rintro ⟨h0, h1⟩
      funext a
      refine Fin.ext ?_
      match a with
      | ⟨0, _⟩ =>
        show ((dimsRows B P n wf).start j idx 0 + ((dimsRows B P n wf).window j 0 : Int)).toNat = b.val
        rw [rows_start0, rows_window0, ← h0]; omega
      | ⟨1, _⟩ =>
        show ((dimsRows B P n wf).start j idx 1 + ((dimsRows B P n wf).window j 1 : Int)).toNat = p.val
        rw [rows_start1, rows_window1, h1]; omega
  · rename_i h
    constructor
    · intro he; exact absurd he (by simp)
    · rintro ⟨h0, h1⟩
      exfalso; apply h
      intro a
      match a with
      | ⟨0, _⟩ =>
        show 0 ≤ (dimsRows B P n wf).start j idx 0 + ((dimsRows B P n wf).window j 0 : Int)
          ∧ (dimsRows B P n wf).start j idx 0 + ((dimsRows B P n wf).window j 0 : Int) < ((⟨2, ![B, P]⟩ : Shape).size 0 : Nat)
        rw [rows_start0, rows_window0, hs0]; omega
      | ⟨1, _⟩ =>
        show 0 ≤ (dimsRows B P n wf).start j idx 1 + ((dimsRows B P n wf).window j 1 : Int)
          ∧ (dimsRows B P n wf).start j idx 1 + ((dimsRows B P n wf).window j 1 : Int) < ((⟨2, ![B, P]⟩ : Shape).size 1 : Nat)
        have := p.isLt
        rw [rows_start1, rows_window1, h1, hs1]; omega
end Rows

/-- Entry (b, p) ends at its own value plus the sum over the words equal to `p` of row `b` of the updates. -/
theorem scatterAdd_rows_apply {B P n w : Nat} (wf : ScatterDims.WF ⟨2, ![B, P]⟩ ⟨2, ![n, 1]⟩ ⟨2, ![B, n]⟩ [0] [1] [1] 1)
    (x : (⟨2, ![B, P]⟩ : Shape).Idx → EReal) (idx : IVec ⟨2, ![n, 1]⟩ w) (upd : (⟨2, ![B, n]⟩ : Shape).Idx → EReal)
    (b : Fin B) (p : Fin P) :
    Ideal.hostScatterAdd (dimsRows B P n wf) x idx upd (ix2 b p)
      = x (ix2 b p) + ∑ i ∈ Finset.univ.filter (fun i : Fin n => (idx (colIx i)).toInt = (p.val : Int)), upd (ix2 b i) := by
  unfold Ideal.hostScatterAdd
  congr 1
  refine Finset.sum_nbij' (fun j => (j 1 : Fin n)) (fun i => ix2 b i) ?_ ?_ ?_ ?_ ?_
  · intro j hj
    have hj' := (Finset.mem_filter.mp hj).2
    exact Finset.mem_filter.mpr ⟨Finset.mem_univ _, ((rows_resultIdx_iff wf j idx b p).mp hj').2⟩
  · intro i hi
    have hi' := (Finset.mem_filter.mp hi).2
    exact Finset.mem_filter.mpr ⟨Finset.mem_univ _, (rows_resultIdx_iff wf (ix2 b i) idx b p).mpr ⟨rfl, hi'⟩⟩
  · intro j hj
    have h0 := ((rows_resultIdx_iff wf j idx b p).mp (Finset.mem_filter.mp hj).2).1
    show ix2 b (j 1) = j
    rw [← h0]; exact (eq_ix2 j).symm
  · intro i _
    rfl
  · intro j hj
    have h0 := ((rows_resultIdx_iff wf j idx b p).mp (Finset.mem_filter.mp hj).2).1
    show upd j = upd (ix2 b (j 1))
    rw [← h0]; exact congrArg upd (eq_ix2 j)

/-! ## Segments of columns -/

/-- Operand [P × C], words [n × 1], updates [n × C]: update row `i` goes, whole, to operand row word `i` names. -/
abbrev dimsCols (P C n : Nat) (wf : ScatterDims.WF ⟨2, ![P, C]⟩ ⟨2, ![n, 1]⟩ ⟨2, ![n, C]⟩ [1] [0] [0] 1) :
    ScatterDims ⟨2, ![P, C]⟩ ⟨2, ![n, 1]⟩ ⟨2, ![n, C]⟩ where
  updateWindowDims := [1]
  insertedWindowDims := [0]
  scatterDimsToOperandDims := [0]
  indexVectorDim := 1
  wf := wf

section Cols
variable {P C n w : Nat} (wf : ScatterDims.WF ⟨2, ![P, C]⟩ ⟨2, ![n, 1]⟩ ⟨2, ![n, C]⟩ [1] [0] [0] 1)

/-- Axis 0 of the operand starts at the word the update's first coordinate names. -/
private theorem cols_start0 (j : (⟨2, ![n, C]⟩ : Shape).Idx) (idx : IVec ⟨2, ![n, 1]⟩ w) :
    (dimsCols P C n wf).start j idx 0 = (idx (colIx (j 0))).toInt := by
  unfold ScatterDims.start
  rw [dif_pos (show (0 : Fin 2) ∈ (dimsCols P C n wf).scatterDimsToOperandDims from List.mem_singleton.mpr rfl)]
  congr 2
  funext b; refine Fin.ext ?_
  match b with
  | ⟨0, _⟩ => rfl
  | ⟨1, _⟩ => rfl

/-- Axis 1 of the operand is not named by the map: its start is 0. -/
private theorem cols_start1 (j : (⟨2, ![n, C]⟩ : Shape).Idx) (idx : IVec ⟨2, ![n, 1]⟩ w) :
    (dimsCols P C n wf).start j idx 1 = 0 := by
  unfold ScatterDims.start
  rw [dif_neg (show (1 : Fin 2) ∉ ([0] : List (Fin 2)) by decide)]

/-- Axis 0 of the operand is inserted: no window coordinate. -/
private theorem cols_window0 (j : (⟨2, ![n, C]⟩ : Shape).Idx) :
    (dimsCols P C n wf).window j 0 = 0 := by
  unfold ScatterDims.window
  have h : (0 : Fin 2) ∉ (dimsCols P C n wf).sKept :=
    show (0 : Fin 2) ∉ (List.finRange 2).filter (· ∉ ([0] : List (Fin 2))) by decide
  rw [dif_neg h]

/-- Axis 1 of the operand is the window axis: its window coordinate is the update's second coordinate. -/
private theorem cols_window1 (j : (⟨2, ![n, C]⟩ : Shape).Idx) :
    (dimsCols P C n wf).window j 1 = (j 1).val := by
  unfold ScatterDims.window
  have h : (1 : Fin 2) ∈ (dimsCols P C n wf).sKept :=
    show (1 : Fin 2) ∈ (List.finRange 2).filter (· ∉ ([0] : List (Fin 2))) by decide
  rw [dif_pos h]
  rfl

/-- An update lands on entry (p, c) exactly when its word is `p` and it sits in column `c`. -/
private theorem cols_resultIdx_iff (j : (⟨2, ![n, C]⟩ : Shape).Idx) (idx : IVec ⟨2, ![n, 1]⟩ w) (p : Fin P) (c : Fin C) :
    (dimsCols P C n wf).resultIdx? j idx = some (ix2 p c)
      ↔ (idx (colIx (j 0))).toInt = (p.val : Int) ∧ j 1 = c := by
  have hc := (j 1).isLt
  have hC : (⟨2, ![n, C]⟩ : Shape).size 1 = C := rfl
  have hs0 : (⟨2, ![P, C]⟩ : Shape).size 0 = P := rfl
  have hs1 : (⟨2, ![P, C]⟩ : Shape).size 1 = C := rfl
  unfold ScatterDims.resultIdx?
  split
  · rename_i h
    rw [Option.some.injEq]
    constructor
    · intro he
      have h0 := congrArg Fin.val (congrFun he 0)
      have h1 := congrArg Fin.val (congrFun he 1)
      have g0 := h 0
      simp only [cols_start0, cols_start1, cols_window0, cols_window1] at h0 h1 g0
      change _ = p.val at h0
      change _ = c.val at h1
      refine ⟨?_, Fin.ext ?_⟩ <;> omega
    · rintro ⟨h0, h1⟩
      funext a
      refine Fin.ext ?_
      match a with
      | ⟨0, _⟩ =>
        show ((dimsCols P C n wf).start j idx 0 + ((dimsCols P C n wf).window j 0 : Int)).toNat = p.val
        rw [cols_start0, cols_window0, h0]; omega
      | ⟨1, _⟩ =>
        show ((dimsCols P C n wf).start j idx 1 + ((dimsCols P C n wf).window j 1 : Int)).toNat = c.val
        rw [cols_start1, cols_window1, ← h1]; omega
  · rename_i h
    constructor
    · intro he; exact absurd he (by simp)
    · rintro ⟨h0, h1⟩
      exfalso; apply h
      intro a
      match a with
      | ⟨0, _⟩ =>
        show 0 ≤ (dimsCols P C n wf).start j idx 0 + ((dimsCols P C n wf).window j 0 : Int)
          ∧ (dimsCols P C n wf).start j idx 0 + ((dimsCols P C n wf).window j 0 : Int) < ((⟨2, ![P, C]⟩ : Shape).size 0 : Nat)
        have := p.isLt
        rw [cols_start0, cols_window0, h0, hs0]; omega
      | ⟨1, _⟩ =>
        show 0 ≤ (dimsCols P C n wf).start j idx 1 + ((dimsCols P C n wf).window j 1 : Int)
          ∧ (dimsCols P C n wf).start j idx 1 + ((dimsCols P C n wf).window j 1 : Int) < ((⟨2, ![P, C]⟩ : Shape).size 1 : Nat)
        rw [cols_start1, cols_window1, hs1]; omega
end Cols

/-- Entry (p, c) ends at its own value plus the sum over the words equal to `p` of column `c` of the updates. -/
theorem scatterAdd_cols_apply {P C n w : Nat} (wf : ScatterDims.WF ⟨2, ![P, C]⟩ ⟨2, ![n, 1]⟩ ⟨2, ![n, C]⟩ [1] [0] [0] 1)
    (x : (⟨2, ![P, C]⟩ : Shape).Idx → EReal) (idx : IVec ⟨2, ![n, 1]⟩ w) (upd : (⟨2, ![n, C]⟩ : Shape).Idx → EReal)
    (p : Fin P) (c : Fin C) :
    Ideal.hostScatterAdd (dimsCols P C n wf) x idx upd (ix2 p c)
      = x (ix2 p c) + ∑ i ∈ Finset.univ.filter (fun i : Fin n => (idx (colIx i)).toInt = (p.val : Int)), upd (ix2 i c) := by
  unfold Ideal.hostScatterAdd
  congr 1
  refine Finset.sum_nbij' (fun j => (j 0 : Fin n)) (fun i => ix2 i c) ?_ ?_ ?_ ?_ ?_
  · intro j hj
    have hj' := (Finset.mem_filter.mp hj).2
    exact Finset.mem_filter.mpr ⟨Finset.mem_univ _, ((cols_resultIdx_iff wf j idx p c).mp hj').1⟩
  · intro i hi
    have hi' := (Finset.mem_filter.mp hi).2
    exact Finset.mem_filter.mpr ⟨Finset.mem_univ _, (cols_resultIdx_iff wf (ix2 i c) idx p c).mpr ⟨hi', rfl⟩⟩
  · intro j hj
    have h1 := ((cols_resultIdx_iff wf j idx p c).mp (Finset.mem_filter.mp hj).2).2
    show ix2 (j 0) c = j
    rw [← h1]; exact (eq_ix2 j).symm
  · intro i _
    rfl
  · intro j hj
    have h1 := ((cols_resultIdx_iff wf j idx p c).mp (Finset.mem_filter.mp hj).2).2
    show upd j = upd (ix2 (j 0) c)
    rw [← h1]; exact congrArg upd (eq_ix2 j)

/-! ## A gather of whole columns of a table -/

/-- Operand [B × N], words [n × 1], result [B × n]: for each word one column of the table, all `B` rows of it. -/
abbrev dimsTakeCols (B N n : Nat)
    (wf : GatherDims.WF ⟨2, ![B, N]⟩ ⟨2, ![n, 1]⟩ ⟨2, ![B, n]⟩ [0] [1] [] [1] [] 1 ![B, 1]) :
    GatherDims ⟨2, ![B, N]⟩ ⟨2, ![n, 1]⟩ ⟨2, ![B, n]⟩ where
  offsetDims := [0]
  collapsedSliceDims := [1]
  operandBatchingDims := []
  startIndicesBatchingDims := []
  startIndexMap := [1]
  indexVectorDim := 1
  sliceSizes := ![B, 1]
  wf := wf

/-- Entry (b, i) of the result is the table's row `b` at the column word `i` names, signed and clamped. -/
theorem gather_cols_apply {α : Type} {B N n w : Nat} (hN : 0 < N)
    (wf : GatherDims.WF ⟨2, ![B, N]⟩ ⟨2, ![n, 1]⟩ ⟨2, ![B, n]⟩ [0] [1] [] [1] [] 1 ![B, 1])
    (x : (⟨2, ![B, N]⟩ : Shape).Idx → α) (idx : IVec ⟨2, ![n, 1]⟩ w) (b : Fin B) (i : Fin n) :
    Host.gather (dimsTakeCols B N n wf) x idx (ix2 b i)
      = x (ix2 b ⟨min (idx (colIx i)).toInt.toNat (N - 1), by omega⟩) := by
  unfold Host.gather
  congr 1
  funext a
  refine Fin.ext ?_
  have hob : ∀ a : Fin 2, a ∉ (dimsTakeCols B N n wf).operandBatchingDims := fun _ => List.not_mem_nil
  match a with
  | ⟨0, _⟩ =>
    -- the row axis: not start-indexed, an offset axis read off the result's first coordinate
    show (dimsTakeCols B N n wf).start (ix2 b i) idx 0 + (dimsTakeCols B N n wf).batchCoord (ix2 b i) 0
      + (dimsTakeCols B N n wf).offCoord (ix2 b i) 0 = b.val
    rw [GatherDims.batchCoord_eq_zero _ _ _ (hob 0)]
    unfold GatherDims.start GatherDims.offCoord
    have hk : (0 : Fin 2) ∈ (dimsTakeCols B N n wf).sKept :=
      show (0 : Fin 2) ∈ (List.finRange 2).filter (· ∉ (([1] : List (Fin 2)) ++ [])) by decide
    rw [dif_neg (show (0 : Fin 2) ∉ ([1] : List (Fin 2)) by decide), dif_pos hk]
    simp only [Nat.zero_add, Nat.add_zero]
    rfl
  | ⟨1, _⟩ =>
    -- the column axis: start-indexed and collapsed, the word clamped into the table
    show (dimsTakeCols B N n wf).start (ix2 b i) idx 1 + (dimsTakeCols B N n wf).batchCoord (ix2 b i) 1
      + (dimsTakeCols B N n wf).offCoord (ix2 b i) 1 = min (idx (colIx i)).toInt.toNat (N - 1)
    have hk : (1 : Fin 2) ∉ (dimsTakeCols B N n wf).sKept :=
      show (1 : Fin 2) ∉ (List.finRange 2).filter (· ∉ (([1] : List (Fin 2)) ++ [])) by decide
    rw [GatherDims.batchCoord_eq_zero _ _ _ (hob 1), GatherDims.offCoord_eq_zero _ _ _ hk]
    simp only [Nat.add_zero]
    unfold GatherDims.start
    rw [dif_pos (show (1 : Fin 2) ∈ (dimsTakeCols B N n wf).startIndexMap from List.mem_singleton.mpr rfl)]
    have hsi : (dimsTakeCols B N n wf).siIdx (ix2 b i) ⟨List.idxOf (1 : Fin 2) (dimsTakeCols B N n wf).startIndexMap,
        List.idxOf_lt_length_iff.2 (List.mem_singleton.mpr rfl)⟩ = colIx i := by
      funext c; refine Fin.ext ?_
      match c with
      | ⟨0, _⟩ => rfl
      | ⟨1, _⟩ => rfl
    rw [hsi]
    rfl

end Idealize.ShloMosaic.SegmentSum

end
-- ==== Proof.LibSegmentSumHost.lean ====
/-
  The segment-sum reads, stated for the host's accumulating scatter at the exact instance.

  At the exact instance the host's scatter with an additive body is, by definition, the operand plus the sum of the
  updates landing on each entry. With the sizes left as variables that identification is immediate; stated once
  here, a program at concrete sizes rewrites with these forms and never opens the scatter itself.
-/
import proofs.«431101_j53455162966646_3_alg».proof.Proof.LibSegmentSum

noncomputable section

namespace Idealize.ShloMosaic.SegmentSum

open Idealize.ShloMosaic.ValueIdx

/-- A vector of segments: segment `p` ends at its own value plus the sum of the updates whose word is `p`. -/
theorem scatterAdd_vec_host {P n w : Nat} {φ : FTy}
    (wf : ScatterDims.WF ⟨1, ![P]⟩ ⟨2, ![n, 1]⟩ ⟨1, ![n]⟩ [] [0] [0] 1)
    (x : FVec Ideal ⟨1, ![P]⟩ φ) (idx : IVec ⟨2, ![n, 1]⟩ w) (upd : FVec Ideal ⟨1, ![n]⟩ φ) (p : Fin P) :
    Host.scatterAdd (dimsVec P n wf) x idx upd (ix1 p)
      = x (ix1 p) + ∑ i ∈ Finset.univ.filter (fun i : Fin n => (idx (colIx i)).toInt = (p.val : Int)), upd (ix1 i) :=
  scatterAdd_vec_apply wf x idx upd p

/-- Rows of segments: entry (b, p) ends at its own value plus the sum, over the words equal to `p`, of row `b` of the updates. -/
theorem scatterAdd_rows_host {B P n w : Nat} {φ : FTy}
    (wf : ScatterDims.WF ⟨2, ![B, P]⟩ ⟨2, ![n, 1]⟩ ⟨2, ![B, n]⟩ [0] [1] [1] 1)
    (x : FVec Ideal ⟨2, ![B, P]⟩ φ) (idx : IVec ⟨2, ![n, 1]⟩ w) (upd : FVec Ideal ⟨2, ![B, n]⟩ φ)
    (b : Fin B) (p : Fin P) :
    Host.scatterAdd (dimsRows B P n wf) x idx upd (ix2 b p)
      = x (ix2 b p) + ∑ i ∈ Finset.univ.filter (fun i : Fin n => (idx (colIx i)).toInt = (p.val : Int)), upd (ix2 b i) :=
  scatterAdd_rows_apply wf x idx upd b p

/-- Segments of columns: entry (p, c) ends at its own value plus the sum, over the words equal to `p`, of column `c` of the updates. -/
theorem scatterAdd_cols_host {P C n w : Nat} {φ : FTy}
    (wf : ScatterDims.WF ⟨2, ![P, C]⟩ ⟨2, ![n, 1]⟩ ⟨2, ![n, C]⟩ [1] [0] [0] 1)
    (x : FVec Ideal ⟨2, ![P, C]⟩ φ) (idx : IVec ⟨2, ![n, 1]⟩ w) (upd : FVec Ideal ⟨2, ![n, C]⟩ φ)
    (p : Fin P) (c : Fin C) :
    Host.scatterAdd (dimsCols P C n wf) x idx upd (ix2 p c)
      = x (ix2 p c) + ∑ i ∈ Finset.univ.filter (fun i : Fin n => (idx (colIx i)).toInt = (p.val : Int)), upd (ix2 i c) :=
  scatterAdd_cols_apply wf x idx upd p c

end Idealize.ShloMosaic.SegmentSum

end
-- ==== Proof.LibRowGather.lean ====
/-
  A gather of whole rows: the operand is an N×C array, the start indices an R×1 array of words, and row `e` of the
  R×C result is the operand's row named by word `e`, read signed and clamped into `[0, N − 1]` (every start index of a
  gather is clamped so that the slice fits). This is what taking rows of a table at an integer vector lowers to.
-/
import Idealize.ShloMosaic.Lib.ValueIdx

noncomputable section

namespace Cert.Lib.RowGather

open Idealize.ShloMosaic Idealize.ShloMosaic.ValueIdx

variable {α : Type}

/-- The dimension numbers of a row gather: the result's axis 1 is the offset axis, the operand's axis 0 is collapsed
    and is the one the start index names, the index vector lies along the start indices' axis 1, slices are `1 × C`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: column `j` of the operand's row `idx[e, 0]`, the word read signed and clamped. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N C R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N C R wf).start (ix2 e j) idx 0 + (rowDims N C R wf).batchCoord (ix2 e j) 0
        + (rowDims N C R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e j) ⟨List.idxOf (0 : Fin 2) (rowDims N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C R wf).start (ix2 e j) idx 1 + (rowDims N C R wf).batchCoord (ix2 e j) 1
        + (rowDims N C R wf).offCoord (ix2 e j) 1 = j.val
    rw [GatherDims.batchCoord_eq_zero _ _ _ List.not_mem_nil]
    have hs : (rowDims N C R wf).start (ix2 e j) idx 1 = 0 := by
      unfold GatherDims.start
      rw [dif_neg (show ¬ (1 : Fin 2) ∈ ([0] : List (Fin 2)) by decide)]
    have ho : (rowDims N C R wf).offCoord (ix2 e j) 1 = j.val := by
      unfold GatherDims.offCoord
      rw [dif_pos ((GatherDims.mem_sKept _ _).2
        ⟨show ¬ (1 : Fin 2) ∈ ([0] : List (Fin 2)) by decide, List.not_mem_nil⟩)]
      rfl
    rw [hs, ho]
    omega

end Cert.Lib.RowGather

end
-- ==== Proof.LibPairGather.lean ====
/-
  A gather addressed by two index words: the start indices are an E×2 array of words, and entry `e` of the result is
  read from the operand at the position whose first two coordinates are the words `idx[e, 0]` and `idx[e, 1]`, each read
  signed and clamped into its own axis (every start index of a gather is clamped so that the slice fits). Two forms:
  the operand an N×R×C array and the result the E×C array of the rows named (slices `1 × 1 × C`), and the operand an
  N×R array and the result the length-E vector of the entries named (slices `1 × 1`). This is what reading a table at a
  pair of integer vectors lowers to.
-/
import Idealize.ShloMosaic.Lib.ValueIdx

noncomputable section

namespace Cert.Lib.PairGather

open Idealize.ShloMosaic Idealize.ShloMosaic.ValueIdx

variable {α : Type}

/-! ## Rows of an N×R×C array named by a pair of words -/

/-- The dimension numbers of a gather of rows by pairs: the result's axis 1 is the offset axis, the operand's axes 0
    and 1 are collapsed and are the ones the two words of a start index name, in that order, the index vector lies
    along the start indices' axis 1, slices are `1 × 1 × C`. -/
abbrev pairRowDims (N R C E : Nat)
    (wf : GatherDims.WF ⟨3, ![N, R, C]⟩ ⟨2, ![E, 2]⟩ ⟨2, ![E, C]⟩ [1] [0, 1] [] [0, 1] [] 1 ![1, 1, C]) :
    GatherDims ⟨3, ![N, R, C]⟩ ⟨2, ![E, 2]⟩ ⟨2, ![E, C]⟩ where
  offsetDims := [1]
  collapsedSliceDims := [0, 1]
  operandBatchingDims := []
  startIndicesBatchingDims := []
  startIndexMap := [0, 1]
  indexVectorDim := 1
  sliceSizes := ![1, 1, C]
  wf := wf

section Rows
variable {N R C E w : Nat}
  (wf : GatherDims.WF ⟨3, ![N, R, C]⟩ ⟨2, ![E, 2]⟩ ⟨2, ![E, C]⟩ [1] [0, 1] [] [0, 1] [] 1 ![1, 1, C])

/-- Component `c` of the start index of result entry `(e, j)` is the word at `[e, c]`. -/
private theorem rows_siIdx (e : Fin E) (j : Fin C) (c : Fin 2) :
    (pairRowDims N R C E wf).siIdx (ix2 e j) c = ix2 e c := by
  funext b; refine Fin.ext ?_
  match b with
  | ⟨0, _⟩ => rfl
  | ⟨1, _⟩ => rfl

/-- On operand axis 0 the slice starts at word 0, clamped into `[0, N − 1]`. -/
private theorem rows_start0 (idx : IVec ⟨2, ![E, 2]⟩ w) (e : Fin E) (j : Fin C) :
    (pairRowDims N R C E wf).start (ix2 e j) idx 0 = min (idx (ix2 e (0 : Fin 2))).toInt.toNat (N - 1) := by
  unfold GatherDims.start
  rw [dif_pos (show (0 : Fin 3) ∈ ([0, 1] : List (Fin 3)) by decide), rows_siIdx]
  rfl

/-- On operand axis 1 the slice starts at word 1, clamped into `[0, R − 1]`. -/
private theorem rows_start1 (idx : IVec ⟨2, ![E, 2]⟩ w) (e : Fin E) (j : Fin C) :
    (pairRowDims N R C E wf).start (ix2 e j) idx 1 = min (idx (ix2 e (1 : Fin 2))).toInt.toNat (R - 1) := by
  unfold GatherDims.start
  rw [dif_pos (show (1 : Fin 3) ∈ ([0, 1] : List (Fin 3)) by decide), rows_siIdx]
  rfl

/-- Operand axis 2 is not named by the start index: the slice starts at 0 there. -/
private theorem rows_start2 (idx : IVec ⟨2, ![E, 2]⟩ w) (e : Fin E) (j : Fin C) :
    (pairRowDims N R C E wf).start (ix2 e j) idx 2 = 0 := by
  unfold GatherDims.start
  rw [dif_neg (show ¬ (2 : Fin 3) ∈ ([0, 1] : List (Fin 3)) by decide)]

/-- A collapsed operand axis carries no offset. -/
private theorem rows_off_collapsed (e : Fin E) (j : Fin C) (a : Fin 3) (ha : a ∈ ([0, 1] : List (Fin 3))) :
    (pairRowDims N R C E wf).offCoord (ix2 e j) a = 0 :=
  GatherDims.offCoord_eq_zero _ _ _ (fun h => ((GatherDims.mem_sKept _ _).mp h).1 ha)

/-- Operand axis 2 is the one kept: its offset is the result's column. -/
private theorem rows_off2 (e : Fin E) (j : Fin C) :
    (pairRowDims N R C E wf).offCoord (ix2 e j) 2 = j.val := by
  unfold GatherDims.offCoord
  rw [dif_pos ((GatherDims.mem_sKept _ _).2
    ⟨show ¬ (2 : Fin 3) ∈ ([0, 1] : List (Fin 3)) by decide, List.not_mem_nil⟩)]
  rfl

/-- THE GATHER OF ROWS BY PAIRS READ AT `(e, j)`: column `j` of the operand's row `(idx[e, 0], idx[e, 1])`, each word read
    signed and clamped into its axis, `[0, N − 1]` and `[0, R − 1]`. -/
theorem gather_pair_rows_apply {α : Type} {N R C E w : Nat} (hN : 0 < N) (hR : 0 < R)
    (wf : GatherDims.WF ⟨3, ![N, R, C]⟩ ⟨2, ![E, 2]⟩ ⟨2, ![E, C]⟩ [1] [0, 1] [] [0, 1] [] 1 ![1, 1, C])
    (x : (⟨3, ![N, R, C]⟩ : Shape).Idx → α) (idx : IVec ⟨2, ![E, 2]⟩ w) (e : Fin E) (j : Fin C) :
    Host.gather (pairRowDims N R C E wf) x idx (ix2 e j)
      = x (ix3 ⟨min (idx (ix2 e (0 : Fin 2))).toInt.toNat (N - 1), by omega⟩
          ⟨min (idx (ix2 e (1 : Fin 2))).toInt.toNat (R - 1), by omega⟩ j) := by
  unfold Host.gather
  congr 1
  funext a
  refine Fin.ext ?_
  match a with
  | ⟨0, _⟩ =>
    show (pairRowDims N R C E wf).start (ix2 e j) idx 0 + (pairRowDims N R C E wf).batchCoord (ix2 e j) 0
        + (pairRowDims N R C E wf).offCoord (ix2 e j) 0 = min (idx (ix2 e (0 : Fin 2))).toInt.toNat (N - 1)
    rw [rows_start0, GatherDims.batchCoord_eq_zero _ _ _ List.not_mem_nil, rows_off_collapsed wf e j 0 (by decide)]
    rfl
  | ⟨1, _⟩ =>
    show (pairRowDims N R C E wf).start (ix2 e j) idx 1 + (pairRowDims N R C E wf).batchCoord (ix2 e j) 1
        + (pairRowDims N R C E wf).offCoord (ix2 e j) 1 = min (idx (ix2 e (1 : Fin 2))).toInt.toNat (R - 1)
    rw [rows_start1, GatherDims.batchCoord_eq_zero _ _ _ List.not_mem_nil, rows_off_collapsed wf e j 1 (by decide)]
    rfl
  | ⟨2, _⟩ =>
    show (pairRowDims N R C E wf).start (ix2 e j) idx 2 + (pairRowDims N R C E wf).batchCoord (ix2 e j) 2
        + (pairRowDims N R C E wf).offCoord (ix2 e j) 2 = j.val
    rw [rows_start2, GatherDims.batchCoord_eq_zero _ _ _ List.not_mem_nil, rows_off2]
    omega

end Rows

/-! ## Entries of an N×R array named by a pair of words -/

/-- The dimension numbers of a gather of entries by pairs: the result has no offset axis, the operand's axes 0 and 1
    are both collapsed and are the ones the two words of a start index name, in that order, the index vector lies along
    the start indices' axis 1, slices are `1 × 1`. -/
abbrev pairDims (N R E : Nat)
    (wf : GatherDims.WF ⟨2, ![N, R]⟩ ⟨2, ![E, 2]⟩ ⟨1, ![E]⟩ [] [0, 1] [] [0, 1] [] 1 ![1, 1]) :
    GatherDims ⟨2, ![N, R]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

section Entries
variable {N R E w : Nat}
  (wf : GatherDims.WF ⟨2, ![N, R]⟩ ⟨2, ![E, 2]⟩ ⟨1, ![E]⟩ [] [0, 1] [] [0, 1] [] 1 ![1, 1])

/-- Component `c` of the start index of result entry `e` is the word at `[e, c]`. -/
private theorem pair_siIdx (e : Fin E) (c : Fin 2) :
    (pairDims N R E wf).siIdx (ix1 e) c = ix2 e c := by
  funext b; refine Fin.ext ?_
  match b with
  | ⟨0, _⟩ => rfl
  | ⟨1, _⟩ => rfl

/-- On operand axis 0 the slice starts at word 0, clamped into `[0, N − 1]`. -/
private theorem pair_start0 (idx : IVec ⟨2, ![E, 2]⟩ w) (e : Fin E) :
    (pairDims N R E wf).start (ix1 e) idx 0 = min (idx (ix2 e (0 : Fin 2))).toInt.toNat (N - 1) := by
  unfold GatherDims.start
  rw [dif_pos (show (0 : Fin 2) ∈ ([0, 1] : List (Fin 2)) by decide), pair_siIdx]
  rfl

/-- On operand axis 1 the slice starts at word 1, clamped into `[0, R − 1]`. -/
private theorem pair_start1 (idx : IVec ⟨2, ![E, 2]⟩ w) (e : Fin E) :
    (pairDims N R E wf).start (ix1 e) idx 1 = min (idx (ix2 e (1 : Fin 2))).toInt.toNat (R - 1) := by
  unfold GatherDims.start
  rw [dif_pos (show (1 : Fin 2) ∈ ([0, 1] : List (Fin 2)) by decide), pair_siIdx]
  rfl

/-- Both operand axes are collapsed: neither carries an offset. -/
private theorem pair_off (e : Fin E) (a : Fin 2) (ha : a ∈ ([0, 1] : List (Fin 2))) :
    (pairDims N R E wf).offCoord (ix1 e) a = 0 :=
  GatherDims.offCoord_eq_zero _ _ _ (fun h => ((GatherDims.mem_sKept _ _).mp h).1 ha)

/-- THE GATHER OF ENTRIES BY PAIRS READ AT `e`: the operand's entry `(idx[e, 0], idx[e, 1])`, each word read signed and
    clamped into its axis, `[0, N − 1]` and `[0, R − 1]`. -/
theorem gather_pair_apply {α : Type} {N R E w : Nat} (hN : 0 < N) (hR : 0 < R)
    (wf : GatherDims.WF ⟨2, ![N, R]⟩ ⟨2, ![E, 2]⟩ ⟨1, ![E]⟩ [] [0, 1] [] [0, 1] [] 1 ![1, 1])
    (x : (⟨2, ![N, R]⟩ : Shape).Idx → α) (idx : IVec ⟨2, ![E, 2]⟩ w) (e : Fin E) :
    Host.gather (pairDims N R E wf) x idx (ix1 e)
      = x (ix2 ⟨min (idx (ix2 e (0 : Fin 2))).toInt.toNat (N - 1), by omega⟩
          ⟨min (idx (ix2 e (1 : Fin 2))).toInt.toNat (R - 1), by omega⟩) := by
  unfold Host.gather
  congr 1
  funext a
  refine Fin.ext ?_
  match a with
  | ⟨0, _⟩ =>
    show (pairDims N R E wf).start (ix1 e) idx 0 + (pairDims N R E wf).batchCoord (ix1 e) 0
        + (pairDims N R E wf).offCoord (ix1 e) 0 = min (idx (ix2 e (0 : Fin 2))).toInt.toNat (N - 1)
    rw [pair_start0, GatherDims.batchCoord_eq_zero _ _ _ List.not_mem_nil, pair_off wf e 0 (by decide)]
    rfl
  | ⟨1, _⟩ =>
    show (pairDims N R E wf).start (ix1 e) idx 1 + (pairDims N R E wf).batchCoord (ix1 e) 1
        + (pairDims N R E wf).offCoord (ix1 e) 1 = min (idx (ix2 e (1 : Fin 2))).toInt.toNat (R - 1)
    rw [pair_start1, GatherDims.batchCoord_eq_zero _ _ _ List.not_mem_nil, pair_off wf e 1 (by decide)]
    rfl

end Entries

end Cert.Lib.PairGather

end
-- ==== Proof.MeanRegroup.lean ====
import Mathlib.Data.EReal.Operations
import Mathlib.Algebra.BigOperators.Group.Finset.Basic
import Mathlib.Algebra.BigOperators.Ring.Finset

/-! # Regrouping a weighted sum over two classes, on the extended reals

A node of a graph receives one message along each edge `e` of a finite set `D`. Each edge is of class 0 or of
class 1, and its message is scaled by a weight that depends only on its class (the inverse of how many edges of that
class there are: a mean per class). Summing the scaled messages edge by edge gives the same as summing the messages of
each class apart and scaling each of the two sums once.

On the extended reals multiplication does not distribute over addition in general (`⊤ + ⊥ = ⊥` while a negative
factor swaps the two), but it does when the factor is a non-negative REAL, and that is all the regrouping needs: no
message has to be finite. The three ingredients are `x * 0 = 0` for every extended real, the regrouping of finite
sums, and `(y + z) * w = y * w + z * w` for real `w ≥ 0`. -/

open scoped BigOperators

namespace Cert.MeanRegroup

/-- A non-negative real factor goes through a finite sum of extended reals: by induction on the index set, each
    step being the two-term law for a non-negative factor that is not `⊤`. -/
theorem sum_mul_coe_of_nonneg {E : Type*} (D : Finset E) (f : E → EReal) (w : ℝ) (hw : 0 ≤ w) :
    (∑ e ∈ D, f e) * (w : EReal) = ∑ e ∈ D, f e * (w : EReal) := by
  classical
  induction D using Finset.induction_on with
  | empty => simp
  | insert a s ha ih =>
    rw [Finset.sum_insert ha, Finset.sum_insert ha,
      EReal.right_distrib_of_nonneg_of_ne_top (EReal.coe_nonneg.mpr hw) (EReal.coe_ne_top w), ih]

/-- The same with the factor on the left. -/
theorem coe_mul_sum_of_nonneg {E : Type*} (D : Finset E) (f : E → EReal) (w : ℝ) (hw : 0 ≤ w) :
    (w : EReal) * (∑ e ∈ D, f e) = ∑ e ∈ D, (w : EReal) * f e := by
  rw [EReal.mul_comm, sum_mul_coe_of_nonneg D f w hw]
  exact Finset.sum_congr rfl fun e _ => EReal.mul_comm _ _

/-- The regrouping. On the left every edge's message (`a1 e` for an edge of class 1, `a0 e` otherwise) is scaled by
    its class's weight. On the right the messages of class 0 are picked out by a factor that is 1 off class 1 and 0
    on it, summed and scaled by `w0` once, and likewise class 1. Both weights go into their sums, the two sums
    merge into one, and edge by edge one of the two terms is `_ * 0 * _ = 0` and the other is the left side's. -/
theorem sum_split_scale {E : Type*} (D : Finset E) (isOne : E → Prop) [DecidablePred isOne] (a0 a1 : E → EReal)
    (w0 w1 : ℝ) (h0 : 0 ≤ w0) (h1 : 0 ≤ w1) :
    ∑ e ∈ D, (if isOne e then a1 e else a0 e) * (if isOne e then (w1 : EReal) else (w0 : EReal))
      = (∑ e ∈ D, a0 e * (if isOne e then (0 : EReal) else 1)) * (w0 : EReal)
        + (∑ e ∈ D, a1 e * (if isOne e then (1 : EReal) else 0)) * (w1 : EReal) := by
  rw [sum_mul_coe_of_nonneg D _ w0 h0, sum_mul_coe_of_nonneg D _ w1 h1, ← Finset.sum_add_distrib]
  refine Finset.sum_congr rfl fun e _ => ?_
  by_cases h : isOne e
  · simp only [h, if_true, mul_zero, zero_mul, zero_add, mul_one]
  · simp only [h, if_false, mul_zero, zero_mul, add_zero, mul_one]

/-- Counting by a sum of indicators: the sum over `D` of 1 where `p` holds and 0 elsewhere is the number of
    elements of `D` where `p` holds, as a real number seen in the extended reals. -/
theorem sum_indicator_coe {E : Type*} (D : Finset E) (p : E → Prop) [DecidablePred p] :
    (∑ e ∈ D, (if p e then (1 : EReal) else 0)) = (((D.filter p).card : ℝ) : EReal) := by
  rw [Finset.sum_boole]; rfl

/-! ## The weight of a mean: the inverse of a count clamped at 1 -/

/-- A count clamped below at 1 is at least 1, -/
theorem one_le_max_card (k : ℕ) : (1 : ℝ) ≤ max (k : ℝ) 1 := le_max_right _ _

/-- so positive, -/
theorem max_card_pos (k : ℕ) : (0 : ℝ) < max (k : ℝ) 1 := lt_of_lt_of_le one_pos (one_le_max_card k)

/-- so not zero, -/
theorem max_card_ne_zero (k : ℕ) : max (k : ℝ) 1 ≠ 0 := (max_card_pos k).ne'

/-- and its inverse is positive, -/
theorem inv_max_card_pos (k : ℕ) : (0 : ℝ) < 1 / max (k : ℝ) 1 := one_div_pos.mpr (max_card_pos k)

/-- hence non-negative: a weight `sum_split_scale` accepts. -/
theorem inv_max_card_nonneg (k : ℕ) : (0 : ℝ) ≤ 1 / max (k : ℝ) 1 := (inv_max_card_pos k).le

/-- The inverse of the clamped count is at most 1. -/
theorem inv_max_card_le_one (k : ℕ) : 1 / max (k : ℝ) 1 ≤ 1 := by
  rw [div_le_one (max_card_pos k)]; exact one_le_max_card k

end Cert.MeanRegroup
-- ==== Proof.IdealFacts.lean ====
import Idealize.ShloMosaic.PureOps.Ideal
import Idealize.ShloMosaic.PureOps.Ideal.Laws
import Mathlib.Data.EReal.Operations

/-! # The float operations at the extended reals, as the textbook operations they are

At the instance `Ideal` every float format's carrier is the extended reals and every float operation of a program
means its exact operation there. The facts below spell that out for the operations a mean over a clamped count is
made of: the constants 1 and 0, the quotient by a non-zero real (the product with its reciprocal, whatever the
dividend, the infinities included), the maximum of two reals, the conversion of a one-bit integer (0 or 1), sum and
product, and the changes of format (the identity: nothing is rounded). -/

namespace Cert.IdealFacts

open Idealize.ShloMosaic

/-! ## Constants -/

/-- The single-precision pattern `0x3F800000` (sign 0, biased exponent 127, fraction 0) denotes `2^0 = 1`. -/
theorem ofBits_one_f32 : Ideal.ofBits .f32 0x3F800000#32 = (1 : EReal) := by
  simp [Ideal.ofBits, Ideal.ieee, -EReal.coe_mul]; norm_num

/-- The all-zero pattern denotes 0. -/
theorem ofBits_zero_f32' : Ideal.ofBits .f32 0x00000000#32 = (0 : EReal) := Ideal.ofBits_zero_f32

/-- The same two through the class's field, as a printed constant spells them. -/
theorem floatOps_ofBits_one_f32 : FloatOps.ofBits (F := Ideal) .f32 0x3F800000#32 = (1 : EReal) := ofBits_one_f32
theorem floatOps_ofBits_zero_f32 : FloatOps.ofBits (F := Ideal) .f32 0x00000000#32 = (0 : EReal) := ofBits_zero_f32'

/-! ## Sum, product, maximum -/

theorem addf_eq (x y : EReal) : FloatOps.addf (F := Ideal) (φ := .f32) x y = x + y := rfl
theorem subf_eq (x y : EReal) : FloatOps.subf (F := Ideal) (φ := .f32) x y = x - y := rfl
theorem mulf_eq (x y : EReal) : FloatOps.mulf (F := Ideal) (φ := .f32) x y = x * y := rfl
theorem maximumf_eq (x y : EReal) : FloatOps.maximumf (F := Ideal) (φ := .f32) x y = max x y := rfl

/-- The maximum of two reals, taken in the extended reals, is the real maximum: the inclusion is monotone. -/
theorem maximumf_coe (a b : ℝ) :
    FloatOps.maximumf (F := Ideal) (φ := .f32) ((a : ℝ) : EReal) ((b : ℝ) : EReal) = (((max a b : ℝ)) : EReal) :=
  (EReal.coe_strictMono.monotone.map_max (a := a) (b := b)).symm

/-! ## The quotient by a non-zero real -/

/-- The host's quotient by a non-zero real `c` is the product with the real `1 / c`, for every dividend: for a
    finite one this is division of reals, and `±∞ / c` and `±∞ * (1 / c)` are the same infinity, by the sign of `c`. -/
theorem hostDivf_coe (x : EReal) (c : ℝ) (hc : c ≠ 0) :
    FloatOps.hostDivf (F := Ideal) (φ := .f32) x ((c : ℝ) : EReal) = x * (((1 / c : ℝ)) : EReal) :=
  Ideal.div_coe hc x

/-- In particular `1 / c` is the real `1 / c`. -/
theorem hostDivf_one_coe (c : ℝ) (hc : c ≠ 0) :
    FloatOps.hostDivf (F := Ideal) (φ := .f32) (1 : EReal) ((c : ℝ) : EReal) = (((1 / c : ℝ)) : EReal) := by
  rw [hostDivf_coe 1 c hc, one_mul]

/-- A kernel's quotient is the same function as the host's here. -/
theorem divf_coe (x : EReal) (c : ℝ) (hc : c ≠ 0) :
    FloatOps.divf (F := Ideal) (φ := .f32) x ((c : ℝ) : EReal) = x * (((1 / c : ℝ)) : EReal) :=
  Ideal.div_coe hc x

theorem divf_eq_hostDivf (x y : EReal) :
    FloatOps.divf (F := Ideal) (φ := .f32) x y = FloatOps.hostDivf (F := Ideal) (φ := .f32) x y := rfl

/-! ## Integers to floats -/

/-- An unsigned integer converts to its value, exactly. -/
theorem uitofp_eq {w : Nat} (b : BitVec w) : FloatOps.uitofp (F := Ideal) .f32 b = (((b.toNat : ℝ)) : EReal) := rfl

/-- A one-bit integer is 0 or 1, and converts to that. -/
theorem uitofp_bit (b : BitVec 1) : FloatOps.uitofp (F := Ideal) .f32 b = if b = 1#1 then (1 : EReal) else 0 := by
  have hb : b = 0#1 ∨ b = 1#1 := by revert b; decide
  rcases hb with rfl | rfl
  · rw [uitofp_eq, if_neg (by decide)]; simp
  · rw [uitofp_eq, if_pos rfl]; simp

/-! ## Changes of format

Widening and narrowing are the identity on the extended reals, between any two formats: on one value (the class's
fields), lane by lane on a vector, and on the scalar unit. -/

theorem extf_eq {φ : FTy} (ψ : FTy) (h : φ.bits < ψ.bits) (x : EReal) :
    FloatOps.extf (F := Ideal) (φ := φ) ψ h x = x := rfl

theorem truncf_eq {φ : FTy} (ψ : FTy) (h : ψ.bits < φ.bits) (x : EReal) :
    FloatOps.truncf (F := Ideal) (φ := φ) ψ h x = x := rfl

theorem vec_extf_eq {s : Shape} {φ : FTy} (ψ : FTy) (x : s.Idx → EReal) (h : φ.bits < ψ.bits) :
    extf (F := Ideal) (s := s) (φ := φ) ψ x h = x := rfl

theorem vec_truncf_eq {s : Shape} {φ : FTy} (ψ : FTy) (x : s.Idx → EReal) (h : ψ.bits < φ.bits) :
    truncf (F := Ideal) (s := s) (φ := φ) ψ x h = x := rfl

theorem scalar_extf_eq {φ : FTy} (ψ : FTy) (h : φ.bits < ψ.bits) (x : EReal) :
    Scalar.extf (F := Ideal) (φ := φ) ψ h x = x := rfl

theorem scalar_truncf_eq {φ : FTy} (ψ : FTy) (h : ψ.bits < φ.bits) (x : EReal) :
    Scalar.truncf (F := Ideal) (φ := φ) ψ h x = x := rfl

/-- Narrowing to half the width and widening back changes nothing: the round trip a matrix product's operands make. -/
theorem extf_truncf_eq (x : EReal) :
    FloatOps.extf (F := Ideal) .f32 (by decide) (FloatOps.truncf (F := Ideal) (φ := .f32) .bf16 (by decide) x) = x := rfl

end Cert.IdealFacts
-- ==== Proof.GraphBase.lean ====
import proofs.«431101_j53455162966646_3_alg».proof.Proof.RefFns
import proofs.«431101_j53455162966646_3_alg».proof.Proof.LibSegmentSumHost
import proofs.«431101_j53455162966646_3_alg».proof.Proof.LibRowGather
import proofs.«431101_j53455162966646_3_alg».proof.Proof.LibPairGather
import proofs.«431101_j53455162966646_3_alg».proof.Proof.MeanRegroup
import proofs.«431101_j53455162966646_3_alg».proof.Proof.IdealFacts
import Idealize.ShloMosaic.Lib.ValueIdx
import Idealize.ShloMosaic.Lib.ValueLayout
import Idealize.ShloMosaic.Lib.Pipeline.Value

/-! # One graph layer, both programs: vocabulary and the reference's side

Both programs run, between their dense stages, one layer of message passing over 800000 edges and 50000 nodes with two
relations. This module fixes the vocabulary the comparison is stated in — the node a word names when a gather reads it
(`nodeOf`), the edges a scatter-add lands on a node (`lands`), the indicator of a relation at an edge (`ind`), the
number of a relation's edges arriving at a node (`cnt`) and the weight of the mean over them (`wgt`) — and reads the
reference's operations at an entry: its per-edge message, its count and its sum of messages per node. -/

noncomputable section

namespace Cert.Graph

open Idealize.ShloMosaic Idealize.ShloMosaic.ValueIdx
open scoped BigOperators

/-! ## Words as indices -/

/-- An index word as array indexing reads it before a gather: `x + c` where `x` is negative, else `x`. -/
def wrapWord (x c : BitVec 32) : BitVec 32 := Scalar.select (IntOp.cmpi .slt x 0#32) (IntOp.addi x c) x

/-- A word that reads as a non-negative integer is left alone. -/
theorem wrapWord_of_nonneg (x c : BitVec 32) (h : 0 ≤ x.toInt) : wrapWord x c = x := by
  unfold wrapWord IntOp.cmpi
  have hs : x.slt 0#32 = false := by
    rw [BitVec.slt_eq_decide]
    exact decide_eq_false (by rw [show (0#32 : BitVec 32).toInt = 0 from rfl]; omega)
  simp only [hs]
  exact if_neg (by decide)

/-- A comparison for equality, as a bit, is set exactly when the two words are equal. -/
theorem ofBool_beq_eq_one (x r : BitVec 32) : BitVec.ofBool (x == r) = 1#1 ↔ x = r := by
  constructor
  · intro h
    by_contra hne
    rw [beq_eq_false_iff_ne.mpr hne] at h
    exact absurd h (by decide)
  · rintro rfl
    rw [beq_self_eq_true]; rfl

/-- The node a source or destination word names when a gather reads it: wrapped, read signed, clamped into the node range. -/
def nodeOf (v : (⟨1, ![800000]⟩ : Shape).Idx → BitVec 32) (e : Fin 800000) : Fin 50000 :=
  ⟨min (wrapWord (v (ix1 e)) 50000#32).toInt.toNat (50000 - 1), by omega⟩

/-- The edges whose destination word, read signed, is node `n`: the ones a scatter-add lands on row `n`. -/
def lands (dst : (⟨1, ![800000]⟩ : Shape).Idx → BitVec 32) (n : Fin 50000) : Finset (Fin 800000) :=
  Finset.univ.filter fun e => (dst (ix1 e)).toInt = (n.val : Int)

/-- An edge that lands on `n` names `n` when its destination word is read by a gather: a non-negative word is not
    wrapped, and a node number is inside the node range, so the clamp does nothing. -/
theorem nodeOf_of_lands (dst : (⟨1, ![800000]⟩ : Shape).Idx → BitVec 32) (n : Fin 50000) (e : Fin 800000)
    (he : e ∈ lands dst n) : nodeOf dst e = n := by
  have h : (dst (ix1 e)).toInt = (n.val : Int) := (Finset.mem_filter.mp he).2
  apply Fin.ext
  show min (wrapWord (dst (ix1 e)) 50000#32).toInt.toNat (50000 - 1) = n.val
  rw [wrapWord_of_nonneg _ _ (by omega), h]
  have := n.isLt
  omega

/-! ## Layout operations of the two programs, read at an index -/

section Layout
variable {α : Type}

/-- A vector as a one-column array: entry `(e, 0)` is entry `e`. -/
theorem col_apply {n : Nat} (hn : n ≠ 1) (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) :=
  broadcastInDim_apply _ h v _ _ (fun a => by
    match a with
    | ⟨0, _⟩ => exact (if_neg hn).symm)

/-- A one-column array spread over `c` columns: entry `(e, j)` is entry `(e, 0)`. -/
theorem spread_apply {n c : Nat} (hn : n ≠ 1) (h : (⟨2, ![n, 1]⟩ : Shape).BroadcastsInDim ⟨2, ![n, c]⟩ ![0, 1])
    (v : (⟨2, ![n, 1]⟩ : Shape).Idx → α) (e : Fin n) (j : Fin c) :
    broadcastInDim ⟨2, ![n, c]⟩ ![0, 1] h v (ix2 e j) = v (ix2 e (0 : Fin 1)) :=
  broadcastInDim_apply _ h v _ _ (fun a => by
    match a with
    | ⟨0, _⟩ => exact (if_neg hn).symm
    | ⟨1, _⟩ => exact (if_pos rfl).symm)

end Layout

/-! ## The reference's layer at an entry -/

section Reference
open Cert.ReferenceIdeal Cert.ReferenceIdeal.Hand

/-- The indicator of relation `r` at an edge, as an extended real. -/
def ind (et : (⟨1, ![800000]⟩ : Shape).Idx → BitVec 32) (r : BitVec 32) (e : Fin 800000) : EReal :=
  if et (ix1 e) = r then 1 else 0

/-- The reference's mask of relation `r`, converted to a float, is the indicator. -/
theorem uitofp_rMask_apply (et : (⟨1, ![800000]⟩ : Shape).Idx → BitVec 32) (r : BitVec 32) (e : Fin 800000) :
    FloatOps.uitofp (F := Ideal) .f32 (rMask (F := Ideal) et r (ix1 e)) = ind et r e := by
  rw [Cert.IdealFacts.uitofp_bit]
  show (if BitVec.ofBool (et (ix1 e) == r) = 1#1 then (1 : EReal) else 0) = if et (ix1 e) = r then 1 else 0
  by_cases h : et (ix1 e) = r
  · rw [if_pos h, if_pos ((ofBool_beq_eq_one _ _).mpr h)]
  · rw [if_neg h, if_neg (fun hb => h ((ofBool_beq_eq_one _ _).mp hb))]

abbrev Words : Type := (⟨1, ![800000]⟩ : Shape).Idx → BitVec 32
abbrev Rows : Type := (⟨2, ![50000, 256]⟩ : Shape).Idx → EReal

/-- The reference's wrap of a node word is `wrapWord` at 50000. -/
theorem rWrapNode_apply (v : Words) (e : Fin 800000) : rWrapNode (F := Ideal) v (ix1 e) = wrapWord (v (ix1 e)) 50000#32 := rfl

/-- The reference's message of relation `r` along edge `e`, column `j`: the source's row of `h` there, times the
    indicator of the relation. -/
theorem ref_msg_apply (hc : (⟨1, ![800000]⟩ : Shape).BroadcastsInDim ⟨2, ![800000, 1]⟩ ![0])
    (hs : (⟨2, ![800000, 1]⟩ : Shape).BroadcastsInDim ⟨2, ![800000, 256]⟩ ![0, 1])
    (h : Rows) (src et : Words) (r : BitVec 32) (e : Fin 800000) (j : Fin 256) :
    mulf (F := Ideal) (φ := .f32)
      (Host.gather gather_S50000x256_S800000x1_S800000x256_1_0_n_n_0_1_1256 h
        (broadcastInDim ⟨2, ![800000, 1]⟩ ![0] hc (rWrapNode (F := Ideal) src)))
      (broadcastInDim ⟨2, ![800000, 256]⟩ ![0, 1] hs
        (uitofp (F := Ideal) .f32 (broadcastInDim ⟨2, ![800000, 1]⟩ ![0] hc (rMask (F := Ideal) et r))))
      (ix2 e j)
      = h (ix2 (nodeOf src e) j) * ind et r e := by
  have h1 : Host.gather gather_S50000x256_S800000x1_S800000x256_1_0_n_n_0_1_1256 h
      (broadcastInDim ⟨2, ![800000, 1]⟩ ![0] hc (rWrapNode (F := Ideal) src)) (ix2 e j)
      = h (ix2 (nodeOf src e) j) := by
    refine (Cert.Lib.RowGather.gather_rows_apply (N := 50000) (C := 256) (R := 800000) (by decide)
      gather_S50000x256_S800000x1_S800000x256_1_0_n_n_0_1_1256.wf h _ e j).trans ?_
    have hi : broadcastInDim ⟨2, ![800000, 1]⟩ ![0] hc (rWrapNode (F := Ideal) src) (ix2 e (0 : Fin 1))
        = wrapWord (src (ix1 e)) 50000#32 := col_apply (by decide) _ _ e 0
    exact congrArg (fun k : Fin 50000 => h (ix2 k j))
      (Fin.ext (congrArg (fun w : BitVec 32 => min w.toInt.toNat (50000 - 1)) hi))
  have h2 : broadcastInDim ⟨2, ![800000, 256]⟩ ![0, 1] hs
      (uitofp (F := Ideal) .f32 (broadcastInDim ⟨2, ![800000, 1]⟩ ![0] hc (rMask (F := Ideal) et r)))
      (ix2 e j) = ind et r e := by
    rw [spread_apply (by decide)]
    show FloatOps.uitofp (F := Ideal) .f32 (broadcastInDim ⟨2, ![800000, 1]⟩ ![0] hc (rMask (F := Ideal) et r) (ix2 e (0 : Fin 1))) = _
    rw [col_apply (by decide), uitofp_rMask_apply]
  show _ * _ = _
  rw [h1, h2]

/-- The edges a scatter-add lands on row `n`, when the words come as a one-column array. -/
theorem filter_col_eq_lands (hc : (⟨1, ![800000]⟩ : Shape).BroadcastsInDim ⟨2, ![800000, 1]⟩ ![0]) (dst : Words) (n : Fin 50000) :
    (Finset.univ.filter fun i : Fin 800000 =>
      (broadcastInDim ⟨2, ![800000, 1]⟩ ![0] hc dst (SegmentSum.colIx i)).toInt = (n.val : Int)) = lands dst n :=
  Finset.filter_congr (fun i _ => by rw [col_apply (by decide)])

/-- The reference's count of relation `r`'s edges arriving at node `n`: the sum of the indicator over the edges that land there. -/
theorem ref_cnt_apply (hz : (⟨0, ![]⟩ : Shape).BroadcastsInDim ⟨1, ![50000]⟩ ![])
    (hc : (⟨1, ![800000]⟩ : Shape).BroadcastsInDim ⟨2, ![800000, 1]⟩ ![0])
    (dst et : Words) (r : BitVec 32) (n : Fin 50000) :
    Host.scatterAdd scatter_S50000_S800000x1_S800000_n_0_0_1
      (broadcastInDim ⟨1, ![50000]⟩ ![] hz (constant (F := Ideal) ⟨0, ![]⟩ .f32 0x00000000#32))
      (broadcastInDim ⟨2, ![800000, 1]⟩ ![0] hc dst)
      (uitofp (F := Ideal) .f32 (rMask (F := Ideal) et r)) (ix1 n)
      = ∑ e ∈ lands dst n, ind et r e := by
  refine (SegmentSum.scatterAdd_vec_host (P := 50000) (n := 800000) scatter_S50000_S800000x1_S800000_n_0_0_1.wf _ _ _ n).trans ?_
  rw [filter_col_eq_lands]
  show Ideal.ofBits .f32 0x00000000#32 + _ = _
  rw [Cert.IdealFacts.ofBits_zero_f32', zero_add]
  exact Finset.sum_congr rfl fun e _ => uitofp_rMask_apply et r e

/-- The reference's sum, over relation `r`'s edges arriving at node `n`, of the source rows of `h`, column `j`. -/
theorem ref_sum_apply (hz : (⟨0, ![]⟩ : Shape).BroadcastsInDim ⟨2, ![50000, 256]⟩ ![])
    (hc : (⟨1, ![800000]⟩ : Shape).BroadcastsInDim ⟨2, ![800000, 1]⟩ ![0])
    (hs : (⟨2, ![800000, 1]⟩ : Shape).BroadcastsInDim ⟨2, ![800000, 256]⟩ ![0, 1])
    (h : Rows) (src dst et : Words) (r : BitVec 32) (n : Fin 50000) (j : Fin 256) :
    Host.scatterAdd scatter_S50000x256_S800000x1_S800000x256_1_0_0_1
      (broadcastInDim ⟨2, ![50000, 256]⟩ ![] hz (constant (F := Ideal) ⟨0, ![]⟩ .f32 0x00000000#32))
      (broadcastInDim ⟨2, ![800000, 1]⟩ ![0] hc dst)
      (mulf (F := Ideal) (φ := .f32)
        (Host.gather gather_S50000x256_S800000x1_S800000x256_1_0_n_n_0_1_1256 h
          (broadcastInDim ⟨2, ![800000, 1]⟩ ![0] hc (rWrapNode (F := Ideal) src)))
        (broadcastInDim ⟨2, ![800000, 256]⟩ ![0, 1] hs
          (uitofp (F := Ideal) .f32 (broadcastInDim ⟨2, ![800000, 1]⟩ ![0] hc (rMask (F := Ideal) et r))))) (ix2 n j)
      = ∑ e ∈ lands dst n, h (ix2 (nodeOf src e) j) * ind et r e := by
  refine (SegmentSum.scatterAdd_cols_host (P := 50000) (C := 256) (n := 800000)
    scatter_S50000x256_S800000x1_S800000x256_1_0_0_1.wf _ _ _ n j).trans ?_
  rw [filter_col_eq_lands]
  show Ideal.ofBits .f32 0x00000000#32 + _ = _
  rw [Cert.IdealFacts.ofBits_zero_f32', zero_add]
  exact Finset.sum_congr rfl fun e _ => ref_msg_apply hc hs h src et r e j

/-- How many edges of relation `r` arrive at node `n`. -/
def cnt (dst et : Words) (r : BitVec 32) (n : Fin 50000) : ℕ :=
  ((lands dst n).filter fun e => et (ix1 e) = r).card

/-- The weight of a mean over them: one over their number, at least one. -/
def wgt (dst et : Words) (r : BitVec 32) (n : Fin 50000) : ℝ := 1 / max (cnt dst et r n : ℝ) 1

/-- The sum of the indicator over the edges that land on `n` is that number, a real. -/
theorem sum_ind_eq (dst et : Words) (r : BitVec 32) (n : Fin 50000) :
    ∑ e ∈ lands dst n, ind et r e = (((cnt dst et r n : ℕ) : ℝ) : EReal) := by
  unfold ind cnt
  exact Cert.MeanRegroup.sum_indicator_coe (lands dst n) (fun e => et (ix1 e) = r)

/-- The maximum of a real and 1, taken in the extended reals, is the real maximum. -/
theorem max_coe_one (k : ℝ) : max ((k : ℝ) : EReal) 1 = (((max k 1 : ℝ)) : EReal) := by
  rw [← EReal.coe_one]; exact (EReal.coe_strictMono.monotone.map_max).symm

/-- Dividing by the count clamped at one is multiplying by the weight, whatever is divided. -/
theorem hostDivf_cnt (x : EReal) (dst et : Words) (r : BitVec 32) (n : Fin 50000) :
    FloatOps.hostDivf (F := Ideal) (φ := .f32) x (max (((cnt dst et r n : ℕ) : ℝ) : EReal) 1)
      = x * ((wgt dst et r n : ℝ) : EReal) := by
  rw [max_coe_one, Cert.IdealFacts.hostDivf_coe x _ (Cert.MeanRegroup.max_card_ne_zero _)]; rfl

end Reference

end Cert.Graph

end
-- ==== Proof.GraphMsg.lean ====
/-
  The kernel's message along an edge. In a graph layer the kernel's program gathers, for edge e, the row of the
  transformed features named by the pair (source of e, relation of e) out of the two relation blocks of the stage's
  output laid side by side, and multiplies it by the edge's scale. Read at (e, j) that is column j of the source's row
  in the block of the edge's relation, times the scale of e.
-/
import proofs.«431101_j53455162966646_3_alg».proof.Proof.GraphBase
import proofs.«431101_j53455162966646_3_alg».proof.Proof.KI.HostFns
import proofs.«431101_j53455162966646_3_alg».proof.Proof.LibPairGather
import proofs.«431101_j53455162966646_3_alg».proof.Proof.LibSegmentSumHost
import proofs.«431101_j53455162966646_3_alg».proof.Proof.IdealFacts
import proofs.«431101_j53455162966646_3_alg».proof.Proof.MeanRegroup
import Idealize.ShloMosaic.Lib.ValueIdx
import Idealize.ShloMosaic.Lib.ValueLayout
import Idealize.ShloMosaic.Lib.Pipeline.Value

noncomputable section

namespace Cert.Graph

open Cert.KernelIdeal Cert.KernelIdeal.Gen Cert.KernelIdeal.Hand
open Idealize.ShloMosaic Idealize.ShloMosaic.ValueIdx

/-! ## The pair of index words of an edge -/

/-- The kernel's wrap of a node word is `wrapWord` at 50000. -/
theorem wrapNode_apply (v : Words) (e : Fin 800000) : wrapNode (F := Ideal) v (ix1 e) = wrapWord (v (ix1 e)) 50000#32 := rfl

/-- The kernel's wrap of a relation word is `wrapWord` at 2. -/
theorem wrapRel_apply (v : Words) (e : Fin 800000) : wrapRel (F := Ideal) v (ix1 e) = wrapWord (v (ix1 e)) 2#32 := rfl

/-- Two vectors of words side by side, read in the first column: the first vector. -/
theorem pairIdx_fst (a b : Words) (e : Fin 800000) : pairIdx (F := Ideal) a b (ix2 e (0 : Fin 2)) = a (ix1 e) := by
  unfold pairIdx
  refine (concatenate_pair_apply_left (t := S800000x2) (s₁ := S800000x1) (s₂ := S800000x1) (1 : Fin 2) (asCol (F := Ideal) a)
    (asCol (F := Ideal) b) concatenates_S800000x1_S800000x1_S800000x2_d1 (ix2 e (0 : Fin 2)) rfl
    (ix2 e (0 : Fin 1)) fun b => ?_).trans ?_
  · match b with
    | ⟨0, _⟩ => rfl
    | ⟨1, _⟩ => rfl
  · exact col_apply (by decide) _ a e 0

/-- Read in the second column: the second vector. -/
theorem pairIdx_snd (a b : Words) (e : Fin 800000) : pairIdx (F := Ideal) a b (ix2 e (1 : Fin 2)) = b (ix1 e) := by
  unfold pairIdx
  refine (concatenate_pair_apply_right (t := S800000x2) (s₁ := S800000x1) (s₂ := S800000x1) (1 : Fin 2) (asCol (F := Ideal) a)
    (asCol (F := Ideal) b) concatenates_S800000x1_S800000x1_S800000x2_d1 (ix2 e (1 : Fin 2)) rfl rfl
    (ix2 e (0 : Fin 1)) (fun b hb => ?_) rfl).trans ?_
  · match b with
    | ⟨0, _⟩ => rfl
    | ⟨1, _⟩ => exact absurd rfl hb
  · exact col_apply (by decide) _ b e 0

/-- The relation a relation word names when a gather reads it: wrapped, read signed, clamped into the two relations. -/
def relOf (w : BitVec 32) : Fin 2 := ⟨min (wrapWord w 2#32).toInt.toNat (2 - 1), by omega⟩

theorem relOf_zero : relOf 0#32 = 0 := by
  apply Fin.ext
  show min (wrapWord 0#32 2#32).toInt.toNat (2 - 1) = 0
  rw [wrapWord_of_nonneg _ _ (by decide)]; decide

theorem relOf_one : relOf 1#32 = 1 := by
  apply Fin.ext
  show min (wrapWord 1#32 2#32).toInt.toNat (2 - 1) = 1
  rw [wrapWord_of_nonneg _ _ (by decide)]; decide

/-! ## The two relation blocks as one array of pairs of rows -/

/-- Columns 256 … 767 of the stage's output, regrouped as [node, relation, column]: entry (n, r, c) is the output at
    column 256 + 256 r + c of row n. -/
theorem relBlocks_apply (t : (⟨2, ![50000, 768]⟩ : Shape).Idx → EReal) (n : Fin 50000) (r : Fin 2) (c : Fin 256) :
    shapeCast S50000x2x256 (extractStridedSlice S50000x512 ![0, 256] t slices_S50000x768_S50000x512_0_256)
        shapeCasts_S50000x512_S50000x2x256 (ix3 n r c)
      = t (ix2 n ⟨256 + (r.val * 256 + c.val), by have := r.isLt; have := c.isLt; omega⟩) := by
  refine (shapeCast_apply _ shapeCasts_S50000x512_S50000x2x256 (ix3 n r c)
    (ix2 n (⟨r.val * 256 + c.val, by have := r.isLt; have := c.isLt; omega⟩ : Fin 512)) ?_).trans ?_
  · rw [Shape.rowMajor_val_two, Shape.rowMajor_val_three]
    show n.val * 512 + (r.val * 256 + c.val) = (n.val * 2 + r.val) * 256 + c.val
    omega
  · exact slice2_axis1_eq 256 t slices_S50000x768_S50000x512_0_256 n _

/-- An entry of a [50000, 2, 256] array depends on the values of its node and relation coordinates only. -/
theorem pairRow_congr {α : Type} (X : (⟨3, ![50000, 2, 256]⟩ : Shape).Idx → α) (n n' : Fin 50000) (r r' : Fin 2) (j : Fin 256)
    (hn : n.val = n'.val) (hr : r.val = r'.val) : X (ix3 n r j) = X (ix3 n' r' j) := by
  obtain rfl := Fin.ext hn; obtain rfl := Fin.ext hr; rfl

/-! ## The message -/

/-- The kernel's message along edge `e`, column `j`: the source's row in the block of the edge's relation, times the
    edge's scale. -/
theorem kMsg_apply (t : (⟨2, ![50000, 768]⟩ : Shape).Idx → EReal) (src et : Words) (scale : (⟨1, ![800000]⟩ : Shape).Idx → EReal) (h0 h1 : Rows)
    (hEt : ∀ e : Fin 800000, et (ix1 e) = 0#32 ∨ et (ix1 e) = 1#32)
    (hh0 : ∀ (n : Fin 50000) (j : Fin 256), h0 (ix2 n j) = t (ix2 n ⟨256 + j.val, by omega⟩))
    (hh1 : ∀ (n : Fin 50000) (j : Fin 256), h1 (ix2 n j) = t (ix2 n ⟨512 + j.val, by omega⟩))
    (e : Fin 800000) (j : Fin 256) :
    mulf (F := Ideal) (φ := .f32)
        (extf .f32
          (Host.gather gather_S50000x2x256_S800000x2_S800000x256_1_01_n_n_01_1_11256
            (shapeCast S50000x2x256 (extractStridedSlice S50000x512 ![0, 256] t slices_S50000x768_S50000x512_0_256) shapeCasts_S50000x512_S50000x2x256)
            (pairIdx (F := Ideal) (wrapNode (F := Ideal) src) (wrapRel (F := Ideal) et)))
          bitsLt_bf16_f32)
        (broadcastInDim S800000x256 ![0, 1] bcast_S800000x1_S800000x256_0_1 (broadcastInDim S800000x1 ![0] bcast_S800000_S800000x1_0 scale))
      (ix2 e j)
      = (if et (ix1 e) = 1#32 then h1 (ix2 (nodeOf src e) j) else h0 (ix2 (nodeOf src e) j)) * scale (ix1 e) := by
  -- the scale, spread over the columns
  have hs : broadcastInDim S800000x256 ![0, 1] bcast_S800000x1_S800000x256_0_1
      (broadcastInDim S800000x1 ![0] bcast_S800000_S800000x1_0 scale) (ix2 e j) = scale (ix1 e) := by
    rw [spread_apply (by decide), col_apply (by decide)]
  -- the gathered row: the regrouped blocks at (node of the source word, relation of the relation word)
  have hg : ∀ r : Fin 2, relOf (et (ix1 e)) = r →
      Host.gather gather_S50000x2x256_S800000x2_S800000x256_1_01_n_n_01_1_11256
        (shapeCast S50000x2x256 (extractStridedSlice S50000x512 ![0, 256] t slices_S50000x768_S50000x512_0_256) shapeCasts_S50000x512_S50000x2x256)
        (pairIdx (F := Ideal) (wrapNode (F := Ideal) src) (wrapRel (F := Ideal) et)) (ix2 e j)
      = t (ix2 (nodeOf src e) ⟨256 + (r.val * 256 + j.val), by have := r.isLt; omega⟩) := by
    rintro r rfl
    refine (Cert.Lib.PairGather.gather_pair_rows_apply (N := 50000) (R := 2) (C := 256) (E := 800000) (by decide) (by decide)
      gather_S50000x2x256_S800000x2_S800000x256_1_01_n_n_01_1_11256.wf _ _ e j).trans ?_
    refine (pairRow_congr _ _ (nodeOf src e) _ (relOf (et (ix1 e))) j ?_ ?_).trans (relBlocks_apply t _ _ j)
    · show min _ (50000 - 1) = min (wrapWord (src (ix1 e)) 50000#32).toInt.toNat (50000 - 1)
      rw [pairIdx_fst, wrapNode_apply]
    · show min _ (2 - 1) = min (wrapWord (et (ix1 e)) 2#32).toInt.toNat (2 - 1)
      rw [pairIdx_snd, wrapRel_apply]
  rcases hEt e with h | h
  · have hr : relOf (et (ix1 e)) = 0 := by rw [h]; exact relOf_zero
    have hne : ¬ et (ix1 e) = 1#32 := by rw [h]; decide
    rw [mulf_apply, extf_apply, hs, hg 0 hr, if_neg hne, hh0]
    congr 1
    exact congrArg (fun k : Fin 768 => t (ix2 (nodeOf src e) k)) (Fin.ext (by show 256 + (0 * 256 + j.val) = 256 + j.val; omega))
  · have hr : relOf (et (ix1 e)) = 1 := by rw [h]; exact relOf_one
    rw [mulf_apply, extf_apply, hs, hg 1 hr, if_pos h, hh1]
    congr 1
    exact congrArg (fun k : Fin 768 => t (ix2 (nodeOf src e) k)) (Fin.ext (by show 256 + (1 * 256 + j.val) = 512 + j.val; omega))

end Cert.Graph

end
-- ==== Proof.GraphScale.lean ====
import proofs.«431101_j53455162966646_3_alg».proof.Proof.GraphBase
import proofs.«431101_j53455162966646_3_alg».proof.Proof.KI.HostFns
import proofs.«431101_j53455162966646_3_alg».proof.Proof.LibPairGather
import proofs.«431101_j53455162966646_3_alg».proof.Proof.LibSegmentSumHost
import proofs.«431101_j53455162966646_3_alg».proof.Proof.IdealFacts
import proofs.«431101_j53455162966646_3_alg».proof.Proof.MeanRegroup
import Idealize.ShloMosaic.Lib.ValueIdx
import Idealize.ShloMosaic.Lib.ValueLayout
import Idealize.ShloMosaic.Lib.Pipeline.Value

/-! # The kernel's per-edge scale at an edge that lands on a node

The kernel's program counts, per node and relation, the edges arriving by a scatter-add of one-hot rows, turns the
counts into the table `1 / max(count, 1)`, and reads the table per edge at the pair (destination, relation). At an
edge that lands on node `n` the value read is the weight of the mean over the edges of the edge's own relation
arriving at `n`. -/

noncomputable section

namespace Cert.Graph

open Cert.KernelIdeal Cert.KernelIdeal.Gen Cert.KernelIdeal.Hand
open Idealize.ShloMosaic Idealize.ShloMosaic.ValueIdx
open scoped BigOperators

/-! ## The index words -/

/-- The kernel's wrap of a node word is `wrapWord` at 50000. -/
theorem wrapNode_apply_sc (v : Words) (e : Fin 800000) : wrapNode (F := Ideal) v (ix1 e) = wrapWord (v (ix1 e)) 50000#32 := rfl

/-- The kernel's wrap of a relation word is `wrapWord` at 2. -/
theorem wrapRel_apply_sc (v : Words) (e : Fin 800000) : wrapRel (F := Ideal) v (ix1 e) = wrapWord (v (ix1 e)) 2#32 := rfl

/-- The first word of row `e` of two vectors side by side is the first vector's entry `e`. -/
theorem pairIdx_fst_sc (a b : Words) (e : Fin 800000) : pairIdx (F := Ideal) a b (ix2 e (0 : Fin 2)) = a (ix1 e) := by
  unfold pairIdx
  refine (concatenate_pair_apply_left (t := S800000x2) (s₁ := S800000x1) (s₂ := S800000x1) (1 : Fin 2) _ _
    concatenates_S800000x1_S800000x1_S800000x2_d1
    (ix2 e (0 : Fin 2)) rfl (ix2 e (0 : Fin 1)) (fun d => ?_)).trans ?_
  · match d with
    | ⟨0, _⟩ => rfl
    | ⟨1, _⟩ => rfl
  · unfold asCol
    exact col_apply (by decide) _ a e 0

/-- The second word of row `e` is the second vector's entry `e`. -/
theorem pairIdx_snd_sc (a b : Words) (e : Fin 800000) : pairIdx (F := Ideal) a b (ix2 e (1 : Fin 2)) = b (ix1 e) := by
  unfold pairIdx
  refine (concatenate_pair_apply_right (t := S800000x2) (s₁ := S800000x1) (s₂ := S800000x1) (1 : Fin 2) _ _
    concatenates_S800000x1_S800000x1_S800000x2_d1
    (ix2 e (1 : Fin 2)) rfl rfl (ix2 e (0 : Fin 1)) (fun d hd => ?_) rfl).trans ?_
  · match d with
    | ⟨0, _⟩ => rfl
    | ⟨1, _⟩ => exact absurd rfl hd
  · unfold asCol
    exact col_apply (by decide) _ b e 0

/-! ## The one-hot rows -/

/-- Entry `(e, c)` of the one-hot rows is the indicator that edge `e` is of relation `c`. -/
theorem oneHot_apply (et : Words) (e : Fin 800000) (c : Fin 2) :
    oneHot (F := Ideal) et (ix2 e c) = ind et (BitVec.ofNat 32 c.val) e := by
  have hA : broadcastInDim S800000x2 ![0, 1] bcast_S800000x1_S800000x2_0_1
      (broadcastInDim S800000x1 ![0] bcast_S800000_S800000x1_0 et) (ix2 e c) = et (ix1 e) := by
    rw [spread_apply (by decide), col_apply (by decide)]
  have hB : broadcastInDim S800000x2 ![0, 1] bcast_S1x2_S800000x2_0_1 (iotaInDim S1x2 32 1) (ix2 e c)
      = BitVec.ofNat 32 c.val := by
    refine (broadcastInDim_apply _ bcast_S1x2_S800000x2_0_1 (iotaInDim S1x2 32 1) (ix2 e c) (ix2 (0 : Fin 1) c)
      (fun a => ?_)).trans ?_
    · match a with
      | ⟨0, _⟩ => exact (if_pos rfl).symm
      | ⟨1, _⟩ => exact (if_neg (by decide : ¬ (2 : ℕ) = 1)).symm
    · rfl
  unfold oneHot
  show FloatOps.uitofp (F := Ideal) .f32 (IntOp.cmpi .eq _ _) = _
  rw [hA, hB, Cert.IdealFacts.uitofp_bit]
  show (if BitVec.ofBool (et (ix1 e) == BitVec.ofNat 32 c.val) = 1#1 then (1 : EReal) else 0)
    = if et (ix1 e) = BitVec.ofNat 32 c.val then 1 else 0
  by_cases h : et (ix1 e) = BitVec.ofNat 32 c.val
  · rw [if_pos h, if_pos ((ofBool_beq_eq_one _ _).mpr h)]
  · rw [if_neg h, if_neg (fun hb => h ((ofBool_beq_eq_one _ _).mp hb))]

/-! ## The counts and the table of weights -/

/-- The kernel's count at `(n, c)`: how many edges of relation `c` arrive at node `n`. -/
theorem kCount_apply (dst et : Words) (n : Fin 50000) (c : Fin 2) :
    Host.scatterAdd scatter_S50000x2_S800000x1_S800000x2_1_0_0_1
      (broadcastInDim S50000x2 ![] bcast_S_S50000x2 (constant (F := Ideal) S_ .f32 0x00000000#32))
      (asCol (F := Ideal) dst) (oneHot (F := Ideal) et) (ix2 n c)
      = (((cnt dst et (BitVec.ofNat 32 c.val) n : ℕ) : ℝ) : EReal) := by
  refine (SegmentSum.scatterAdd_cols_host (P := 50000) (C := 2) (n := 800000)
    scatter_S50000x2_S800000x1_S800000x2_1_0_0_1.wf _ _ _ n c).trans ?_
  unfold asCol
  rw [filter_col_eq_lands]
  show Ideal.ofBits .f32 0x00000000#32 + _ = _
  rw [Cert.IdealFacts.ofBits_zero_f32', zero_add]
  refine (Finset.sum_congr rfl fun e _ => oneHot_apply et e c).trans ?_
  exact sum_ind_eq dst et _ n

/-- A quotient of arrays whose divisor is a maximum, at an entry. -/
theorem hostDivf_max_apply {s : Shape} (a b c : FVec Ideal s .f32) (i : s.Idx) :
    Host.divf a (maximumf b c) i = FloatOps.hostDivf (F := Ideal) (φ := .f32) (a i) (max (b i) (c i)) := rfl

/-- The array of ones, at an entry. -/
theorem ones_apply (i : S50000x2.Idx) :
    broadcastInDim S50000x2 ![] bcast_S_S50000x2 (constant (F := Ideal) S_ .f32 0x3F800000#32) i = (1 : EReal) := by
  show Ideal.ofBits .f32 0x3F800000#32 = 1
  exact Cert.IdealFacts.ofBits_one_f32

/-- The table at `(n, c)`: the weight of the mean over the edges of relation `r`, the word of `c`, arriving at `n`. -/
theorem kTable_apply (dst et : Words) (n : Fin 50000) (c : Fin 2) (r : BitVec 32) (hr : BitVec.ofNat 32 c.val = r) :
    Host.divf (broadcastInDim S50000x2 ![] bcast_S_S50000x2 (constant (F := Ideal) S_ .f32 0x3F800000#32))
      (maximumf
        (Host.scatterAdd scatter_S50000x2_S800000x1_S800000x2_1_0_0_1
          (broadcastInDim S50000x2 ![] bcast_S_S50000x2 (constant (F := Ideal) S_ .f32 0x00000000#32))
          (asCol (F := Ideal) dst) (oneHot (F := Ideal) et))
        (broadcastInDim S50000x2 ![] bcast_S_S50000x2 (constant (F := Ideal) S_ .f32 0x3F800000#32))) (ix2 n c)
      = ((wgt dst et r n : ℝ) : EReal) := by
  subst hr
  rw [hostDivf_max_apply, ones_apply, kCount_apply, hostDivf_cnt, one_mul]

/-! ## The gather at the pair (destination, relation) -/

/-- An entry of a 50000 × 2 table named by two naturals that are a node's and a column's numbers. -/
theorem table_at (T : S50000x2.Idx → EReal) (a b : ℕ) (ha : a < 50000) (hb : b < 2) (n : Fin 50000) (c : Fin 2)
    (h1 : a = n.val) (h2 : b = c.val) : T (ix2 (⟨a, ha⟩ : Fin 50000) (⟨b, hb⟩ : Fin 2)) = T (ix2 n c) := by
  subst h1 h2; rfl

/-- The kernel's scale at an edge that lands on `n`: the weight of the mean over the edges of the edge's relation
    arriving at `n`. -/
theorem kScale_apply_of_lands (dst et : Words) (hEt : ∀ e : Fin 800000, et (ix1 e) = 0#32 ∨ et (ix1 e) = 1#32)
    (n : Fin 50000) (e : Fin 800000) (he : e ∈ lands dst n) :
    kScale (F := Ideal) dst et (oneHot (F := Ideal) et) (ix1 e)
      = if et (ix1 e) = 1#32 then ((wgt dst et 1#32 n : ℝ) : EReal) else ((wgt dst et 0#32 n : ℝ) : EReal) := by
  unfold kScale
  refine (Cert.Lib.PairGather.gather_pair_apply (N := 50000) (R := 2) (E := 800000) (by decide) (by decide)
    gather_S50000x2_S800000x2_S800000_n_01_n_n_01_1_11.wf _ _ e).trans ?_
  have hrow : min (pairIdx (F := Ideal) (wrapNode (F := Ideal) dst) (wrapRel (F := Ideal) et) (ix2 e (0 : Fin 2))).toInt.toNat (50000 - 1)
      = n.val := by
    rw [pairIdx_fst_sc, wrapNode_apply_sc]
    exact congrArg Fin.val (nodeOf_of_lands dst n e he)
  rcases hEt e with h0 | h1
  · have hcol : min (pairIdx (F := Ideal) (wrapNode (F := Ideal) dst) (wrapRel (F := Ideal) et) (ix2 e (1 : Fin 2))).toInt.toNat (2 - 1)
        = (0 : Fin 2).val := by
      rw [pairIdx_snd_sc, wrapRel_apply_sc, h0]; decide
    refine (table_at _ _ _ _ _ n 0 hrow hcol).trans ?_
    rw [kTable_apply dst et n 0 0#32 rfl, h0, if_neg (by decide)]
  · have hcol : min (pairIdx (F := Ideal) (wrapNode (F := Ideal) dst) (wrapRel (F := Ideal) et) (ix2 e (1 : Fin 2))).toInt.toNat (2 - 1)
        = (1 : Fin 2).val := by
      rw [pairIdx_snd_sc, wrapRel_apply_sc, h1]; decide
    refine (table_at _ _ _ _ _ n 1 hrow hcol).trans ?_
    rw [kTable_apply dst et n 1 1#32 rfl, h1, if_pos rfl]

end Cert.Graph

end
-- ==== Proof.Graph.lean ====
import proofs.«431101_j53455162966646_3_alg».proof.Proof.GraphBase
import proofs.«431101_j53455162966646_3_alg».proof.Proof.KI.HostFns
import proofs.«431101_j53455162966646_3_alg».proof.Proof.GraphMsg
import proofs.«431101_j53455162966646_3_alg».proof.Proof.GraphScale

/-! # The graph lemma: one layer of the kernel's program is one layer of the reference

Between their dense stages both programs run one layer of message passing over the graph. The kernel's program gathers
per edge one row out of the two relation blocks of the transformed features, at the pair (source, relation), scales it by
one over the number of edges of that relation arriving at the edge's destination, and scatter-adds the rows onto their
destinations. The reference takes the two relations apart: per relation it gathers the source rows, zeroes the rows of the
other relation's edges, scatter-adds, and divides each node's sum by the relation's count there. At the exact instance
the two agree entry by entry: on the edges that land on a node the kernel's scale is the weight of the edge's relation at
that node, a non-negative real, and a sum of terms each scaled by its class's weight is the sum per class scaled once
(`Cert.MeanRegroup.sum_split_scale`), with no finiteness asked of any feature. -/

noncomputable section

namespace Cert.Graph

open Idealize.ShloMosaic Idealize.ShloMosaic.ValueIdx
open scoped BigOperators

section Kernel
open Cert.KernelIdeal Cert.KernelIdeal.Gen Cert.KernelIdeal.Hand

/-- One row spread over `n` rows: entry `(e, j)` is entry `(0, j)`. -/
theorem rowBcast_apply {α : Type} {n c : Nat} (hc : c ≠ 1) (h : (⟨2, ![1, c]⟩ : Shape).BroadcastsInDim ⟨2, ![n, c]⟩ ![0, 1])
    (v : (⟨2, ![1, c]⟩ : Shape).Idx → α) (e : Fin n) (j : Fin c) :
    broadcastInDim ⟨2, ![n, c]⟩ ![0, 1] h v (ix2 e j) = v (ix2 (0 : Fin 1) j) :=
  broadcastInDim_apply _ h v _ _ (fun a => by
    match a with
    | ⟨0, _⟩ => exact (if_pos rfl).symm
    | ⟨1, _⟩ => exact (if_neg hc).symm)

/-- The kernel's scatter-add of per-edge rows `U` onto the zero array, at `(n, j)`: the sum of column `j` of the rows of
    the edges that land on `n`. -/
theorem kScatter_apply (hz : (⟨0, ![]⟩ : Shape).BroadcastsInDim ⟨2, ![50000, 256]⟩ ![]) (dst : Words)
    (U : (⟨2, ![800000, 256]⟩ : Shape).Idx → EReal) (n : Fin 50000) (j : Fin 256) :
    Host.scatterAdd scatter_S50000x256_S800000x1_S800000x256_1_0_0_1
      (broadcastInDim ⟨2, ![50000, 256]⟩ ![] hz (constant (F := Ideal) ⟨0, ![]⟩ .f32 0x00000000#32))
      (asCol (F := Ideal) dst) U (ix2 n j)
      = ∑ e ∈ lands dst n, U (ix2 e j) := by
  refine (SegmentSum.scatterAdd_cols_host (P := 50000) (C := 256) (n := 800000)
    scatter_S50000x256_S800000x1_S800000x256_1_0_0_1.wf _ _ _ n j).trans ?_
  unfold asCol
  rw [filter_col_eq_lands]
  show Ideal.ofBits .f32 0x00000000#32 + _ = _
  rw [Cert.IdealFacts.ofBits_zero_f32', zero_add]

/-- The root block of `t` plus the bias, at `(n, j)`. -/
theorem kRoot_apply (t : (⟨2, ![50000, 768]⟩ : Shape).Idx → EReal) (bias : (⟨1, ![256]⟩ : Shape).Idx → EReal)
    (hsl : (⟨2, ![50000, 768]⟩ : Shape).Slices ![0, 0] ⟨2, ![50000, 256]⟩)
    (hb : (FTy.bf16).bits < (FTy.f32).bits)
    (hbc : (⟨2, ![1, 256]⟩ : Shape).BroadcastsInDim ⟨2, ![50000, 256]⟩ ![0, 1])
    (hsc : (⟨1, ![256]⟩ : Shape).ShapeCasts ⟨2, ![1, 256]⟩)
    (n : Fin 50000) (j : Fin 256) :
    addf (F := Ideal) (φ := .f32)
      (extf .f32 (extractStridedSlice ⟨2, ![50000, 256]⟩ ![0, 0] t hsl) hb)
      (broadcastInDim ⟨2, ![50000, 256]⟩ ![0, 1] hbc (shapeCast ⟨2, ![1, 256]⟩ bias hsc)) (ix2 n j)
      = t (ix2 n ⟨j.val, by omega⟩) + bias (ix1 j) := by
  rw [addf_apply, extf_apply, slice2_axis1_apply 0 t hsl n j ⟨j.val, by omega⟩ (Nat.zero_add _).symm,
    rowBcast_apply (by decide), shapeCast_a_1a_apply]

/-- One layer of the kernel's program at `(n, j)`, for any per-edge scale: the root term, plus the sum over the edges that
    land on `n` of the gathered row of the edge's relation block, scaled. -/
theorem kLayer_apply (t : (⟨2, ![50000, 768]⟩ : Shape).Idx → EReal) (bias : (⟨1, ![256]⟩ : Shape).Idx → EReal)
    (src dst et : Words) (scale : (⟨1, ![800000]⟩ : Shape).Idx → EReal) (h0 h1 : Rows)
    (hEt : ∀ e : Fin 800000, et (ix1 e) = 0#32 ∨ et (ix1 e) = 1#32)
    (hh0 : ∀ (n : Fin 50000) (j : Fin 256), h0 (ix2 n j) = t (ix2 n ⟨256 + j.val, by omega⟩))
    (hh1 : ∀ (n : Fin 50000) (j : Fin 256), h1 (ix2 n j) = t (ix2 n ⟨512 + j.val, by omega⟩))
    (n : Fin 50000) (j : Fin 256) :
    kLayer (F := Ideal) t bias src dst et scale (ix2 n j)
      = (t (ix2 n ⟨j.val, by omega⟩) + bias (ix1 j))
        + ∑ e ∈ lands dst n,
            (if et (ix1 e) = 1#32 then h1 (ix2 (nodeOf src e) j) else h0 (ix2 (nodeOf src e) j)) * scale (ix1 e) := by
  unfold kLayer
  rw [addf_apply, kRoot_apply, kScatter_apply]
  exact congrArg _ (Finset.sum_congr rfl fun e _ => kMsg_apply t src et scale h0 h1 hEt hh0 hh1 e j)

end Kernel

section Reference
open Cert.ReferenceIdeal Cert.ReferenceIdeal.Gen Cert.ReferenceIdeal.Hand

/-- The host's quotient of two arrays, at an index. -/
theorem divf_host_apply {s : Shape} (a b : FVec Ideal s .f32) (i : s.Idx) :
    Host.divf a b i = FloatOps.hostDivf (F := Ideal) (φ := .f32) (a i) (b i) := rfl

/-- A constant spread over a shape reads the constant everywhere. -/
theorem bcast_const_apply {t : Shape} (h : (⟨0, ![]⟩ : Shape).BroadcastsInDim t ![]) (b : BitVec 32) (j : t.Idx) :
    broadcastInDim t ![] h (constant (F := Ideal) ⟨0, ![]⟩ .f32 b) j = Ideal.ofBits .f32 b := rfl

/-- A sum per node divided by a count per node clamped at one, read at `(n, j)`: the division of the two entries. The
    count is spread over the columns and clamped by a maximum with the constant one. -/
theorem mean_div_apply (S : Rows) (cntv : (⟨1, ![50000]⟩ : Shape).Idx → EReal)
    (hs1 : (⟨2, ![50000, 1]⟩ : Shape).BroadcastsInDim ⟨2, ![50000, 256]⟩ ![0, 1])
    (hc1 : (⟨1, ![50000]⟩ : Shape).BroadcastsInDim ⟨2, ![50000, 1]⟩ ![0])
    (hz : (⟨0, ![]⟩ : Shape).BroadcastsInDim ⟨1, ![50000]⟩ ![]) (n : Fin 50000) (j : Fin 256) :
    Host.divf (F := Ideal) (φ := .f32) S
      (broadcastInDim ⟨2, ![50000, 256]⟩ ![0, 1] hs1
        (broadcastInDim ⟨2, ![50000, 1]⟩ ![0] hc1
          (maximumf (F := Ideal) (φ := .f32) cntv
            (broadcastInDim ⟨1, ![50000]⟩ ![] hz (constant (F := Ideal) ⟨0, ![]⟩ .f32 0x3F800000#32))))) (ix2 n j)
      = FloatOps.hostDivf (F := Ideal) (φ := .f32) (S (ix2 n j)) (max (cntv (ix1 n)) 1) := by
  rw [divf_host_apply, spread_apply (by decide), col_apply (by decide), maximumf_apply, bcast_const_apply,
    Cert.IdealFacts.ofBits_one_f32]

/-- The reference's mean of relation `r` is that division, of its sum of messages by its count. -/
theorem rMean_eq (h : Rows) (src dst et : Words) (r : BitVec 32) :
    rMean (F := Ideal) h src dst et r
      = Host.divf (F := Ideal) (φ := .f32)
          (Host.scatterAdd scatter_S50000x256_S800000x1_S800000x256_1_0_0_1
            (broadcastInDim S50000x256 ![] bcast_S_S50000x256 (constant (F := Ideal) S_ .f32 0x00000000#32))
            (broadcastInDim S800000x1 ![0] bcast_S800000_S800000x1_0 dst)
            (mulf (F := Ideal) (φ := .f32)
              (Host.gather gather_S50000x256_S800000x1_S800000x256_1_0_n_n_0_1_1256 h
                (broadcastInDim S800000x1 ![0] bcast_S800000_S800000x1_0 (rWrapNode (F := Ideal) src)))
              (broadcastInDim S800000x256 ![0, 1] bcast_S800000x1_S800000x256_0_1
                (uitofp (F := Ideal) .f32 (broadcastInDim S800000x1 ![0] bcast_S800000_S800000x1_0 (rMask (F := Ideal) et r))))))
          (broadcastInDim S50000x256 ![0, 1] bcast_S50000x1_S50000x256_0_1
            (broadcastInDim S50000x1 ![0] bcast_S50000_S50000x1_0
              (maximumf (F := Ideal) (φ := .f32)
                (Host.scatterAdd scatter_S50000_S800000x1_S800000_n_0_0_1
                  (broadcastInDim S50000 ![] bcast_S_S50000 (constant (F := Ideal) S_ .f32 0x00000000#32))
                  (broadcastInDim S800000x1 ![0] bcast_S800000_S800000x1_0 dst)
                  (uitofp (F := Ideal) .f32 (rMask (F := Ideal) et r)))
                (broadcastInDim S50000 ![] bcast_S_S50000 (constant (F := Ideal) S_ .f32 0x3F800000#32))))) := rfl

/-- The reference's mean of relation `r` at `(n, j)`: the sum of the messages arriving there, times the weight. -/
theorem ref_mean_apply (h : Rows) (src dst et : Words) (r : BitVec 32) (n : Fin 50000) (j : Fin 256) :
    rMean (F := Ideal) h src dst et r (ix2 n j)
      = (∑ e ∈ lands dst n, h (ix2 (nodeOf src e) j) * ind et r e) * ((wgt dst et r n : ℝ) : EReal) := by
  rw [rMean_eq, mean_div_apply, ref_sum_apply, ref_cnt_apply, sum_ind_eq, hostDivf_cnt]

end Reference

section Final
open Cert.KernelIdeal.Hand Cert.ReferenceIdeal.Hand

/-- The reference's layer at `(n, j)`: the root term plus the two means, in order. -/
theorem rAgg_apply (ro h0 h1 : Rows) (src dst et : Words) (n : Fin 50000) (j : Fin 256) :
    rAgg (F := Ideal) ro h0 h1 src dst et (ix2 n j)
      = (ro (ix2 n j) + rMean (F := Ideal) h0 src dst et 0#32 (ix2 n j)) + rMean (F := Ideal) h1 src dst et 1#32 (ix2 n j) := by
  unfold rAgg
  rw [addf_apply, addf_apply]

/-- THE GRAPH LEMMA. -/
theorem layer_eq
    (t : (⟨2, ![50000, 768]⟩ : Shape).Idx → EReal) (bias : (⟨1, ![256]⟩ : Shape).Idx → EReal)
    (src dst et : (⟨1, ![800000]⟩ : Shape).Idx → BitVec 32)
    (ro h0 h1 : (⟨2, ![50000, 256]⟩ : Shape).Idx → EReal)
    (hEt : ∀ e : Fin 800000, et (ix1 e) = 0#32 ∨ et (ix1 e) = 1#32)
    (hro : ∀ (n : Fin 50000) (j : Fin 256), ro (ix2 n j) = t (ix2 n ⟨j.val, by omega⟩) + bias (ix1 j))
    (hh0 : ∀ (n : Fin 50000) (j : Fin 256), h0 (ix2 n j) = t (ix2 n ⟨256 + j.val, by omega⟩))
    (hh1 : ∀ (n : Fin 50000) (j : Fin 256), h1 (ix2 n j) = t (ix2 n ⟨512 + j.val, by omega⟩)) :
    Cert.KernelIdeal.Hand.kLayer (F := Ideal) t bias src dst et
        (Cert.KernelIdeal.Hand.kScale (F := Ideal) dst et (Cert.KernelIdeal.Hand.oneHot (F := Ideal) et))
      = Cert.ReferenceIdeal.Hand.rAgg (F := Ideal) ro h0 h1 src dst et := by
  funext i
  obtain ⟨n, j, rfl⟩ : ∃ (n : Fin 50000) (j : Fin 256), i = ix2 n j := ⟨i 0, i 1, eq_ix2 i⟩
  rw [kLayer_apply t bias src dst et _ h0 h1 hEt hh0 hh1 n j, rAgg_apply, ref_mean_apply, ref_mean_apply, hro n j]
  -- on the edges that land on `n` the kernel's scale is the weight of the edge's relation at `n`
  have hsc : ∀ e ∈ lands dst n,
      (if et (ix1 e) = 1#32 then h1 (ix2 (nodeOf src e) j) else h0 (ix2 (nodeOf src e) j))
          * kScale (F := Ideal) dst et (oneHot (F := Ideal) et) (ix1 e)
        = (if et (ix1 e) = 1#32 then h1 (ix2 (nodeOf src e) j) else h0 (ix2 (nodeOf src e) j))
          * (if et (ix1 e) = 1#32 then ((wgt dst et 1#32 n : ℝ) : EReal) else ((wgt dst et 0#32 n : ℝ) : EReal)) :=
    fun e he => by rw [kScale_apply_of_lands dst et hEt n e he]
  -- the two indicators, in the form the regrouping lemma leaves them
  have hind1 : ∀ e : Fin 800000, (if et (ix1 e) = 1#32 then (1 : EReal) else 0) = ind et 1#32 e := fun e => rfl
  have hind0 : ∀ e : Fin 800000, (if et (ix1 e) = 1#32 then (0 : EReal) else 1) = ind et 0#32 e := fun e => by
    unfold ind
    rcases hEt e with h | h
    · rw [h, if_neg (by decide), if_pos rfl]
    · rw [h, if_pos rfl, if_neg (by decide)]
  rw [Finset.sum_congr rfl hsc,
    Cert.MeanRegroup.sum_split_scale (lands dst n) (fun e => et (ix1 e) = 1#32)
      (fun e => h0 (ix2 (nodeOf src e) j)) (fun e => h1 (ix2 (nodeOf src e) j))
      (wgt dst et 0#32 n) (wgt dst et 1#32 n)
      (Cert.MeanRegroup.inv_max_card_nonneg _) (Cert.MeanRegroup.inv_max_card_nonneg _)]
  simp only [hind0, hind1]
  exact (add_assoc _ _ _).symm

end Final

end Cert.Graph

end
-- ==== Proof.RefRead.lean ====
/-
  The reference program's run, and each of its operations read at an index, as the generated modules state them. Later modules state, over them, what each stage of the reference holds at an index.
-/
import proofs.«431101_j53455162966646_3_alg».proof.Proof.Gen.ReferenceIdeal.Run
import proofs.«431101_j53455162966646_3_alg».proof.Proof.Gen.ReferenceIdeal.Read
-- ==== Proof.RefDense.lean ====
/-
  The dense stages of the reference program read against the specification, on the extended reals.
  First layer: the root product with its bias and the two relation products, each a sum over the hidden width of the
  rectified linear layer's entry times a weight. Second layer: the same three products over the node features.
  Head: the linear layer, the rectifier, the two-class output layer and each row's softmax taken against its maximum.
  A bias vector enters the specification as the row whose entry (0, k) is the vector's entry k.
-/
import proofs.«431101_j53455162966646_3_alg».proof.Proof.RefRead
import proofs.«431101_j53455162966646_3_alg».proof.Proof.Spec
import proofs.«431101_j53455162966646_3_alg».proof.Proof.IdealFacts
import proofs.«431101_j53455162966646_3_alg».proof.Proof.LibRowMax
import proofs.«431101_j53455162966646_3_alg».proof.Proof.LibRowOps

noncomputable section

namespace Cert.RefDense

open Idealize.ShloMosaic Idealize.ShloMosaic.ValueIdx Cert.ReferenceIdeal Cert.ReferenceIdeal.Gen Cert.ReferenceIdeal.Read

/-! ## First layer -/

/-- The first linear layer with its bias and the rectifier, read at (n, k): the specification's hidden entry. -/
theorem v12_apply (x0 : (⟨S50000x768, .f32⟩ : BufTy).Contents (Elt Ideal)) (x4 : (⟨S768x768, .f32⟩ : BufTy).Contents (Elt Ideal))
    (x5 : (⟨S768, .f32⟩ : BufTy).Contents (Elt Ideal)) (n : Fin 50000) (k : Fin 768) :
    val_main_v12 (F := Ideal) x0 x4 x5 (ix2 n k)
      = Cert.Spec.hidden x0 x4 (fun i => x5 (ix1 ⟨(i 1).val, (i 1).isLt⟩)) n k := by
  have hl : ∀ q : Fin 768, lidx_main_v4 (ix2 n k) q = ix2 n q := fun q => funext fun a => Fin.ext (by
    match a with | ⟨0, _⟩ => rfl | ⟨1, _⟩ => rfl)
  have hr : ∀ q : Fin 768, ridx_main_v4 (ix2 n k) q = ix2 q k := fun q => funext fun a => Fin.ext (by
    match a with | ⟨0, _⟩ => rfl | ⟨1, _⟩ => rfl)
  have hb : idx_main_v5 (idx_main_v6 (ix2 n k)) = ix1 k := funext fun a => Fin.ext (by
    match a with | ⟨0, _⟩ => rfl)
  rw [val_main_v12_apply, val_main_v9_apply, val_main_v11_apply, val_main_v7_apply, val_main_v8_apply, val_main_cst_apply,
    val_main_v10_apply, val_main_cst_0_apply, val_main_v4_apply, val_main_v6_apply, val_main_v5_apply]
  simp only [hl, hr, hb]
  rfl

/-- The first layer's root product with its bias, read at (n, j). -/
theorem v16_apply (x0 : (⟨S50000x768, .f32⟩ : BufTy).Contents (Elt Ideal)) (x4 : (⟨S768x768, .f32⟩ : BufTy).Contents (Elt Ideal))
    (x5 : (⟨S768, .f32⟩ : BufTy).Contents (Elt Ideal)) (x7 : (⟨S768x256, .f32⟩ : BufTy).Contents (Elt Ideal))
    (x8 : (⟨S256, .f32⟩ : BufTy).Contents (Elt Ideal)) (n : Fin 50000) (j : Fin 256) :
    val_main_v16 (F := Ideal) x0 x4 x5 x7 x8 (ix2 n j)
      = (∑ k : Fin 768, Cert.Spec.hidden x0 x4 (fun i => x5 (ix1 ⟨(i 1).val, (i 1).isLt⟩)) n k * x7 (ix2 k j)) + x8 (ix1 j) := by
  have hl : ∀ k : Fin 768, lidx_main_v13 (ix2 n j) k = ix2 n k := fun k => funext fun a => Fin.ext (by
    match a with | ⟨0, _⟩ => rfl | ⟨1, _⟩ => rfl)
  have hr : ∀ k : Fin 768, ridx_main_v13 (ix2 n j) k = ix2 k j := fun k => funext fun a => Fin.ext (by
    match a with | ⟨0, _⟩ => rfl | ⟨1, _⟩ => rfl)
  have hb : idx_main_v14 (idx_main_v15 (ix2 n j)) = ix1 j := funext fun a => Fin.ext (by
    match a with | ⟨0, _⟩ => rfl)
  rw [val_main_v16_apply, val_main_v13_apply, val_main_v15_apply, val_main_v14_apply]
  simp only [hl, hr, hb, v12_apply]
  rfl

/-- A row-major index into a 768×256 array, split back into its coordinates. -/
private theorem split_768_256 (k : Fin 768) (j : Fin 256) :
    (k.val * 256 + j.val) / 256 % 768 = k.val ∧ (k.val * 256 + j.val) % 256 = j.val := by
  have hk := k.isLt; have hj := j.isLt; omega

/-- The first layer's product with the relation-0 weights, read at (n, j). -/
theorem v21_apply (x0 : (⟨S50000x768, .f32⟩ : BufTy).Contents (Elt Ideal)) (x4 : (⟨S768x768, .f32⟩ : BufTy).Contents (Elt Ideal))
    (x5 : (⟨S768, .f32⟩ : BufTy).Contents (Elt Ideal)) (x6 : (⟨S2x768x256, .f32⟩ : BufTy).Contents (Elt Ideal))
    (n : Fin 50000) (j : Fin 256) :
    val_main_v21 (F := Ideal) x0 x4 x5 x6 (ix2 n j)
      = ∑ k : Fin 768, Cert.Spec.hidden x0 x4 (fun i => x5 (ix1 ⟨(i 1).val, (i 1).isLt⟩)) n k * x6 (ix3 (0 : Fin 2) k j) := by
  have hl : ∀ k : Fin 768, lidx_main_v21 (ix2 n j) k = ix2 n k := fun k => funext fun a => Fin.ext (by
    match a with | ⟨0, _⟩ => rfl | ⟨1, _⟩ => rfl)
  have hr : ∀ k : Fin 768, idx_main_v19 (idx_main_v20 (ridx_main_v21 (ix2 n j) k)) = ix3 (0 : Fin 2) k j :=
    fun k => funext fun a => Fin.ext (by
      match a with
      | ⟨0, _⟩ => rfl
      | ⟨1, _⟩ => exact (split_768_256 k j).1
      | ⟨2, _⟩ => exact (split_768_256 k j).2)
  rw [val_main_v21_apply]
  simp only [val_main_v20_apply, val_main_v19_apply, hl, hr, v12_apply]

/-- The first layer's product with the relation-1 weights, read at (n, j). -/
theorem v50_apply (x0 : (⟨S50000x768, .f32⟩ : BufTy).Contents (Elt Ideal)) (x4 : (⟨S768x768, .f32⟩ : BufTy).Contents (Elt Ideal))
    (x5 : (⟨S768, .f32⟩ : BufTy).Contents (Elt Ideal)) (x6 : (⟨S2x768x256, .f32⟩ : BufTy).Contents (Elt Ideal))
    (n : Fin 50000) (j : Fin 256) :
    val_main_v50 (F := Ideal) x0 x4 x5 x6 (ix2 n j)
      = ∑ k : Fin 768, Cert.Spec.hidden x0 x4 (fun i => x5 (ix1 ⟨(i 1).val, (i 1).isLt⟩)) n k * x6 (ix3 (1 : Fin 2) k j) := by
  have hl : ∀ k : Fin 768, lidx_main_v50 (ix2 n j) k = ix2 n k := fun k => funext fun a => Fin.ext (by
    match a with | ⟨0, _⟩ => rfl | ⟨1, _⟩ => rfl)
  have hr : ∀ k : Fin 768, idx_main_v48 (idx_main_v49 (ridx_main_v50 (ix2 n j) k)) = ix3 (1 : Fin 2) k j :=
    fun k => funext fun a => Fin.ext (by
      match a with
      | ⟨0, _⟩ => rfl
      | ⟨1, _⟩ => exact (split_768_256 k j).1
      | ⟨2, _⟩ => exact (split_768_256 k j).2)
  rw [val_main_v50_apply]
  simp only [val_main_v49_apply, val_main_v48_apply, hl, hr, v12_apply]

/-! ## Second layer

The node features the second layer reads, the first layer's output, stay an opaque array here. -/

/-- The second layer's root product with its bias, read at (n, j). -/
theorem v78_apply (x0 : (⟨S50000x768, .f32⟩ : BufTy).Contents (Elt Ideal)) (x1 : (⟨S2x800000, .i32⟩ : BufTy).Contents (Elt Ideal))
    (x3 : (⟨S800000, .i32⟩ : BufTy).Contents (Elt Ideal)) (x4 : (⟨S768x768, .f32⟩ : BufTy).Contents (Elt Ideal))
    (x5 : (⟨S768, .f32⟩ : BufTy).Contents (Elt Ideal)) (x6 : (⟨S2x768x256, .f32⟩ : BufTy).Contents (Elt Ideal))
    (x7 : (⟨S768x256, .f32⟩ : BufTy).Contents (Elt Ideal)) (x8 : (⟨S256, .f32⟩ : BufTy).Contents (Elt Ideal))
    (x10 : (⟨S256x256, .f32⟩ : BufTy).Contents (Elt Ideal)) (x11 : (⟨S256, .f32⟩ : BufTy).Contents (Elt Ideal))
    (n : Fin 50000) (j : Fin 256) :
    val_main_v78 (F := Ideal) x0 x1 x3 x4 x5 x6 x7 x8 x10 x11 (ix2 n j)
      = (∑ k : Fin 256, val_main_v74 (F := Ideal) x0 x1 x3 x4 x5 x6 x7 x8 (ix2 n k) * x10 (ix2 k j)) + x11 (ix1 j) := by
  have hl : ∀ k : Fin 256, lidx_main_v75 (ix2 n j) k = ix2 n k := fun k => funext fun a => Fin.ext (by
    match a with | ⟨0, _⟩ => rfl | ⟨1, _⟩ => rfl)
  have hr : ∀ k : Fin 256, ridx_main_v75 (ix2 n j) k = ix2 k j := fun k => funext fun a => Fin.ext (by
    match a with | ⟨0, _⟩ => rfl | ⟨1, _⟩ => rfl)
  have hb : idx_main_v76 (idx_main_v77 (ix2 n j)) = ix1 j := funext fun a => Fin.ext (by
    match a with | ⟨0, _⟩ => rfl)
  rw [val_main_v78_apply, val_main_v75_apply, val_main_v77_apply, val_main_v76_apply]
  generalize val_main_v74 (F := Ideal) x0 x1 x3 x4 x5 x6 x7 x8 = H
  simp only [hl, hr, hb]
  rfl

/-- A row-major index into a 256×256 array, split back into its coordinates. -/
private theorem split_256_256 (k : Fin 256) (j : Fin 256) :
    (k.val * 256 + j.val) / 256 % 256 = k.val ∧ (k.val * 256 + j.val) % 256 = j.val := by
  have hk := k.isLt; have hj := j.isLt; omega

/-- The second layer's product with the relation-0 weights, read at (n, j). -/
theorem v83_apply (x0 : (⟨S50000x768, .f32⟩ : BufTy).Contents (Elt Ideal)) (x1 : (⟨S2x800000, .i32⟩ : BufTy).Contents (Elt Ideal))
    (x3 : (⟨S800000, .i32⟩ : BufTy).Contents (Elt Ideal)) (x4 : (⟨S768x768, .f32⟩ : BufTy).Contents (Elt Ideal))
    (x5 : (⟨S768, .f32⟩ : BufTy).Contents (Elt Ideal)) (x6 : (⟨S2x768x256, .f32⟩ : BufTy).Contents (Elt Ideal))
    (x7 : (⟨S768x256, .f32⟩ : BufTy).Contents (Elt Ideal)) (x8 : (⟨S256, .f32⟩ : BufTy).Contents (Elt Ideal))
    (x9 : (⟨S2x256x256, .f32⟩ : BufTy).Contents (Elt Ideal)) (n : Fin 50000) (j : Fin 256) :
    val_main_v83 (F := Ideal) x0 x1 x3 x4 x5 x6 x7 x8 x9 (ix2 n j)
      = ∑ k : Fin 256, val_main_v74 (F := Ideal) x0 x1 x3 x4 x5 x6 x7 x8 (ix2 n k) * x9 (ix3 (0 : Fin 2) k j) := by
  have hl : ∀ k : Fin 256, lidx_main_v83 (ix2 n j) k = ix2 n k := fun k => funext fun a => Fin.ext (by
    match a with | ⟨0, _⟩ => rfl | ⟨1, _⟩ => rfl)
  have hr : ∀ k : Fin 256, idx_main_v81 (idx_main_v82 (ridx_main_v83 (ix2 n j) k)) = ix3 (0 : Fin 2) k j :=
    fun k => funext fun a => Fin.ext (by
      match a with
      | ⟨0, _⟩ => rfl
      | ⟨1, _⟩ => exact (split_256_256 k j).1
      | ⟨2, _⟩ => exact (split_256_256 k j).2)
  rw [val_main_v83_apply]
  generalize val_main_v74 (F := Ideal) x0 x1 x3 x4 x5 x6 x7 x8 = H
  simp only [val_main_v82_apply, val_main_v81_apply, hl, hr]

/-- The second layer's product with the relation-1 weights, read at (n, j). -/
theorem v112_apply (x0 : (⟨S50000x768, .f32⟩ : BufTy).Contents (Elt Ideal)) (x1 : (⟨S2x800000, .i32⟩ : BufTy).Contents (Elt Ideal))
    (x3 : (⟨S800000, .i32⟩ : BufTy).Contents (Elt Ideal)) (x4 : (⟨S768x768, .f32⟩ : BufTy).Contents (Elt Ideal))
    (x5 : (⟨S768, .f32⟩ : BufTy).Contents (Elt Ideal)) (x6 : (⟨S2x768x256, .f32⟩ : BufTy).Contents (Elt Ideal))
    (x7 : (⟨S768x256, .f32⟩ : BufTy).Contents (Elt Ideal)) (x8 : (⟨S256, .f32⟩ : BufTy).Contents (Elt Ideal))
    (x9 : (⟨S2x256x256, .f32⟩ : BufTy).Contents (Elt Ideal)) (n : Fin 50000) (j : Fin 256) :
    val_main_v112 (F := Ideal) x0 x1 x3 x4 x5 x6 x7 x8 x9 (ix2 n j)
      = ∑ k : Fin 256, val_main_v74 (F := Ideal) x0 x1 x3 x4 x5 x6 x7 x8 (ix2 n k) * x9 (ix3 (1 : Fin 2) k j) := by
  have hl : ∀ k : Fin 256, lidx_main_v112 (ix2 n j) k = ix2 n k := fun k => funext fun a => Fin.ext (by
    match a with | ⟨0, _⟩ => rfl | ⟨1, _⟩ => rfl)
  have hr : ∀ k : Fin 256, idx_main_v110 (idx_main_v111 (ridx_main_v112 (ix2 n j) k)) = ix3 (1 : Fin 2) k j :=
    fun k => funext fun a => Fin.ext (by
      match a with
      | ⟨0, _⟩ => rfl
      | ⟨1, _⟩ => exact (split_256_256 k j).1
      | ⟨2, _⟩ => exact (split_256_256 k j).2)
  rw [val_main_v112_apply]
  generalize val_main_v74 (F := Ideal) x0 x1 x3 x4 x5 x6 x7 x8 = H
  simp only [val_main_v111_apply, val_main_v110_apply, hl, hr]

/-! ## Head

The node features the head reads, the second layer's output, stay an opaque array here. -/

/-- The head's linear layer with its bias and the rectifier, read at (n, k): the specification's hidden entry over the
    node features. -/
theorem v145_apply (x0 : (⟨S50000x768, .f32⟩ : BufTy).Contents (Elt Ideal)) (x1 : (⟨S2x800000, .i32⟩ : BufTy).Contents (Elt Ideal))
    (x3 : (⟨S800000, .i32⟩ : BufTy).Contents (Elt Ideal)) (x4 : (⟨S768x768, .f32⟩ : BufTy).Contents (Elt Ideal))
    (x5 : (⟨S768, .f32⟩ : BufTy).Contents (Elt Ideal)) (x6 : (⟨S2x768x256, .f32⟩ : BufTy).Contents (Elt Ideal))
    (x7 : (⟨S768x256, .f32⟩ : BufTy).Contents (Elt Ideal)) (x8 : (⟨S256, .f32⟩ : BufTy).Contents (Elt Ideal))
    (x9 : (⟨S2x256x256, .f32⟩ : BufTy).Contents (Elt Ideal)) (x10 : (⟨S256x256, .f32⟩ : BufTy).Contents (Elt Ideal))
    (x11 : (⟨S256, .f32⟩ : BufTy).Contents (Elt Ideal))
    (x12 : (⟨S256x256, .f32⟩ : BufTy).Contents (Elt Ideal)) (x13 : (⟨S256, .f32⟩ : BufTy).Contents (Elt Ideal)) (n : Fin 50000) (k : Fin 256) :
    val_main_v145 (F := Ideal) x0 x1 x3 x4 x5 x6 x7 x8 x9 x10 x11 x12 x13 (ix2 n k)
      = Cert.Spec.hidden (val_main_v136 (F := Ideal) x0 x1 x3 x4 x5 x6 x7 x8 x9 x10 x11) x12
          (fun i => x13 (ix1 ⟨(i 1).val, (i 1).isLt⟩)) n k := by
  have hl : ∀ q : Fin 256, lidx_main_v137 (ix2 n k) q = ix2 n q := fun q => funext fun a => Fin.ext (by
    match a with | ⟨0, _⟩ => rfl | ⟨1, _⟩ => rfl)
  have hr : ∀ q : Fin 256, ridx_main_v137 (ix2 n k) q = ix2 q k := fun q => funext fun a => Fin.ext (by
    match a with | ⟨0, _⟩ => rfl | ⟨1, _⟩ => rfl)
  have hb : idx_main_v138 (idx_main_v139 (ix2 n k)) = ix1 k := funext fun a => Fin.ext (by
    match a with | ⟨0, _⟩ => rfl)
  rw [val_main_v145_apply, val_main_v142_apply, val_main_v144_apply, val_main_v140_apply, val_main_v141_apply,
    val_main_cst_24_apply, val_main_v143_apply, val_main_cst_25_apply, val_main_v137_apply, val_main_v139_apply,
    val_main_v138_apply]
  generalize val_main_v136 (F := Ideal) x0 x1 x3 x4 x5 x6 x7 x8 x9 x10 x11 = H
  simp only [hl, hr, hb]
  rfl

/-- The output layer with its bias, read at (n, c): the specification's logit. -/
theorem v149_apply (x0 : (⟨S50000x768, .f32⟩ : BufTy).Contents (Elt Ideal)) (x1 : (⟨S2x800000, .i32⟩ : BufTy).Contents (Elt Ideal))
    (x3 : (⟨S800000, .i32⟩ : BufTy).Contents (Elt Ideal)) (x4 : (⟨S768x768, .f32⟩ : BufTy).Contents (Elt Ideal))
    (x5 : (⟨S768, .f32⟩ : BufTy).Contents (Elt Ideal)) (x6 : (⟨S2x768x256, .f32⟩ : BufTy).Contents (Elt Ideal))
    (x7 : (⟨S768x256, .f32⟩ : BufTy).Contents (Elt Ideal)) (x8 : (⟨S256, .f32⟩ : BufTy).Contents (Elt Ideal))
    (x9 : (⟨S2x256x256, .f32⟩ : BufTy).Contents (Elt Ideal)) (x10 : (⟨S256x256, .f32⟩ : BufTy).Contents (Elt Ideal))
    (x11 : (⟨S256, .f32⟩ : BufTy).Contents (Elt Ideal))
    (x12 : (⟨S256x256, .f32⟩ : BufTy).Contents (Elt Ideal)) (x13 : (⟨S256, .f32⟩ : BufTy).Contents (Elt Ideal))
    (x14 : (⟨S256x2, .f32⟩ : BufTy).Contents (Elt Ideal)) (x15 : (⟨S2, .f32⟩ : BufTy).Contents (Elt Ideal)) (n : Fin 50000) (c : Fin 2) :
    val_main_v149 (F := Ideal) x0 x1 x3 x4 x5 x6 x7 x8 x9 x10 x11 x12 x13 x14 x15 (ix2 n c)
      = Cert.Spec.logit (val_main_v136 (F := Ideal) x0 x1 x3 x4 x5 x6 x7 x8 x9 x10 x11) x12
          (fun i => x13 (ix1 ⟨(i 1).val, (i 1).isLt⟩)) x14
          (fun i => x15 (ix1 ⟨(i 1).val, (i 1).isLt⟩)) n c := by
  have hl : ∀ k : Fin 256, lidx_main_v146 (ix2 n c) k = ix2 n k := fun k => funext fun a => Fin.ext (by
    match a with | ⟨0, _⟩ => rfl | ⟨1, _⟩ => rfl)
  have hr : ∀ k : Fin 256, ridx_main_v146 (ix2 n c) k = ix2 k c := fun k => funext fun a => Fin.ext (by
    match a with | ⟨0, _⟩ => rfl | ⟨1, _⟩ => rfl)
  have hb : idx_main_v147 (idx_main_v148 (ix2 n c)) = ix1 c := funext fun a => Fin.ext (by
    match a with | ⟨0, _⟩ => rfl)
  rw [val_main_v149_apply, val_main_v146_apply, val_main_v148_apply, val_main_v147_apply]
  simp only [hl, hr, hb, v145_apply]
  rfl

/-- The host's maximum over the second axis of an [a, b] array of extended reals, from an initial value that is minus
    infinity, read at p: the fold of the maximum from the bottom element over the entries (p, c). -/
theorem hostRowMax_apply {a b : ℕ} {u : Shape} (x : FVec Ideal ⟨2, ![a, b]⟩ .f32) (init : u.Idx → Ideal .f32)
    (hinit : ∀ i, init i = (⊥ : EReal)) (h' : (⟨2, ![a, b]⟩ : Shape).ReducesTo [1] ⟨1, ![a]⟩)
    (h : (⟨2, ![a, b]⟩ : Shape).Reduces [1] ⟨1, ![a]⟩) (hu : 0 < u.numel) (p : Fin a) :
    Host.reduce FloatOps.maximumf x init h' hu (ix1 p)
      = (Finset.univ : Finset (Fin b)).fold max (⊥ : EReal) (fun c => x (ix2 p c)) := by
  rw [Host.reduce_eq_fold_single FloatOps.maximumf x init h' h hu, hinit]
  refine congrArg ((Finset.univ : Finset (Fin b)).fold max (⊥ : EReal)) (funext fun c => congrArg x (funext fun d => Fin.ext ?_))
  show h.liftVal (ix1 p) c.val d = _
  match d with
  | ⟨0, _⟩ => simp [Shape.Reduces.liftVal]
  | ⟨1, _⟩ => simp [Shape.Reduces.liftVal]

/-- The row maximum the softmax subtracts, read at n: the largest logit of node n, from minus infinity (the further
    maximum with minus infinity changes nothing). -/
theorem v152_apply (x0 : (⟨S50000x768, .f32⟩ : BufTy).Contents (Elt Ideal)) (x1 : (⟨S2x800000, .i32⟩ : BufTy).Contents (Elt Ideal))
    (x3 : (⟨S800000, .i32⟩ : BufTy).Contents (Elt Ideal)) (x4 : (⟨S768x768, .f32⟩ : BufTy).Contents (Elt Ideal))
    (x5 : (⟨S768, .f32⟩ : BufTy).Contents (Elt Ideal)) (x6 : (⟨S2x768x256, .f32⟩ : BufTy).Contents (Elt Ideal))
    (x7 : (⟨S768x256, .f32⟩ : BufTy).Contents (Elt Ideal)) (x8 : (⟨S256, .f32⟩ : BufTy).Contents (Elt Ideal))
    (x9 : (⟨S2x256x256, .f32⟩ : BufTy).Contents (Elt Ideal)) (x10 : (⟨S256x256, .f32⟩ : BufTy).Contents (Elt Ideal))
    (x11 : (⟨S256, .f32⟩ : BufTy).Contents (Elt Ideal))
    (x12 : (⟨S256x256, .f32⟩ : BufTy).Contents (Elt Ideal)) (x13 : (⟨S256, .f32⟩ : BufTy).Contents (Elt Ideal))
    (x14 : (⟨S256x2, .f32⟩ : BufTy).Contents (Elt Ideal)) (x15 : (⟨S2, .f32⟩ : BufTy).Contents (Elt Ideal)) (n : Fin 50000) :
    val_main_v152 (F := Ideal) x0 x1 x3 x4 x5 x6 x7 x8 x9 x10 x11 x12 x13 x14 x15 (ix1 n)
      = Cert.Spec.rowMax (Cert.Spec.logit (val_main_v136 (F := Ideal) x0 x1 x3 x4 x5 x6 x7 x8 x9 x10 x11) x12
          (fun i => x13 (ix1 ⟨(i 1).val, (i 1).isLt⟩)) x14
          (fun i => x15 (ix1 ⟨(i 1).val, (i 1).isLt⟩)) n) := by
  have hm : val_main_v150 (F := Ideal) x0 x1 x3 x4 x5 x6 x7 x8 x9 x10 x11 x12 x13 x14 x15 (ix1 n)
      = (Finset.univ : Finset (Fin 2)).fold max (⊥ : EReal)
          (fun c => val_main_v149 (F := Ideal) x0 x1 x3 x4 x5 x6 x7 x8 x9 x10 x11 x12 x13 x14 x15 (ix2 n c)) :=
    hostRowMax_apply _ _ (fun i => (val_main_cst_26_apply (F := Ideal) i).trans Cert.RowMax.ofBits_neg_inf_f32)
      reducesTo_S50000x2_S50000_d1 (by decide) h_S_ n
  rw [val_main_v152_apply, val_main_v151_apply, val_main_cst_27_apply, hm]
  simp only [v149_apply]
  show max (Ideal.ofBits .f32 0xFF800000#32) _ = _
  rw [Cert.RowMax.ofBits_neg_inf_f32, max_bot_left]
  rfl

/-- The exponential of a logit taken against its row's maximum, read at (n, c). -/
theorem v156_apply (x0 : (⟨S50000x768, .f32⟩ : BufTy).Contents (Elt Ideal)) (x1 : (⟨S2x800000, .i32⟩ : BufTy).Contents (Elt Ideal))
    (x3 : (⟨S800000, .i32⟩ : BufTy).Contents (Elt Ideal)) (x4 : (⟨S768x768, .f32⟩ : BufTy).Contents (Elt Ideal))
    (x5 : (⟨S768, .f32⟩ : BufTy).Contents (Elt Ideal)) (x6 : (⟨S2x768x256, .f32⟩ : BufTy).Contents (Elt Ideal))
    (x7 : (⟨S768x256, .f32⟩ : BufTy).Contents (Elt Ideal)) (x8 : (⟨S256, .f32⟩ : BufTy).Contents (Elt Ideal))
    (x9 : (⟨S2x256x256, .f32⟩ : BufTy).Contents (Elt Ideal)) (x10 : (⟨S256x256, .f32⟩ : BufTy).Contents (Elt Ideal))
    (x11 : (⟨S256, .f32⟩ : BufTy).Contents (Elt Ideal))
    (x12 : (⟨S256x256, .f32⟩ : BufTy).Contents (Elt Ideal)) (x13 : (⟨S256, .f32⟩ : BufTy).Contents (Elt Ideal))
    (x14 : (⟨S256x2, .f32⟩ : BufTy).Contents (Elt Ideal)) (x15 : (⟨S2, .f32⟩ : BufTy).Contents (Elt Ideal)) (n : Fin 50000) (c : Fin 2) :
    val_main_v156 (F := Ideal) x0 x1 x3 x4 x5 x6 x7 x8 x9 x10 x11 x12 x13 x14 x15 (ix2 n c)
      = FloatOps.exp (F := Ideal) (FloatOps.subf (F := Ideal)
          (Cert.Spec.logit (val_main_v136 (F := Ideal) x0 x1 x3 x4 x5 x6 x7 x8 x9 x10 x11) x12
          (fun i => x13 (ix1 ⟨(i 1).val, (i 1).isLt⟩)) x14
          (fun i => x15 (ix1 ⟨(i 1).val, (i 1).isLt⟩)) n c)
          (Cert.Spec.rowMax (Cert.Spec.logit (val_main_v136 (F := Ideal) x0 x1 x3 x4 x5 x6 x7 x8 x9 x10 x11) x12
          (fun i => x13 (ix1 ⟨(i 1).val, (i 1).isLt⟩)) x14
          (fun i => x15 (ix1 ⟨(i 1).val, (i 1).isLt⟩)) n))) := by
  have hi : idx_main_v153 (idx_main_v154 (ix2 n c)) = ix1 n := funext fun a => Fin.ext (by
    match a with | ⟨0, _⟩ => rfl)
  rw [val_main_v156_apply, val_main_v155_apply, val_main_v154_apply, val_main_v153_apply, hi, v152_apply, v149_apply]
  rfl

/-- The softmax's denominator, read at n: the sum over the two classes of those exponentials. -/
theorem v157_apply (x0 : (⟨S50000x768, .f32⟩ : BufTy).Contents (Elt Ideal)) (x1 : (⟨S2x800000, .i32⟩ : BufTy).Contents (Elt Ideal))
    (x3 : (⟨S800000, .i32⟩ : BufTy).Contents (Elt Ideal)) (x4 : (⟨S768x768, .f32⟩ : BufTy).Contents (Elt Ideal))
    (x5 : (⟨S768, .f32⟩ : BufTy).Contents (Elt Ideal)) (x6 : (⟨S2x768x256, .f32⟩ : BufTy).Contents (Elt Ideal))
    (x7 : (⟨S768x256, .f32⟩ : BufTy).Contents (Elt Ideal)) (x8 : (⟨S256, .f32⟩ : BufTy).Contents (Elt Ideal))
    (x9 : (⟨S2x256x256, .f32⟩ : BufTy).Contents (Elt Ideal)) (x10 : (⟨S256x256, .f32⟩ : BufTy).Contents (Elt Ideal))
    (x11 : (⟨S256, .f32⟩ : BufTy).Contents (Elt Ideal))
    (x12 : (⟨S256x256, .f32⟩ : BufTy).Contents (Elt Ideal)) (x13 : (⟨S256, .f32⟩ : BufTy).Contents (Elt Ideal))
    (x14 : (⟨S256x2, .f32⟩ : BufTy).Contents (Elt Ideal)) (x15 : (⟨S2, .f32⟩ : BufTy).Contents (Elt Ideal)) (n : Fin 50000) :
    val_main_v157 (F := Ideal) x0 x1 x3 x4 x5 x6 x7 x8 x9 x10 x11 x12 x13 x14 x15 (ix1 n)
      = ∑ c : Fin 2, FloatOps.exp (F := Ideal) (FloatOps.subf (F := Ideal)
          (Cert.Spec.logit (val_main_v136 (F := Ideal) x0 x1 x3 x4 x5 x6 x7 x8 x9 x10 x11) x12
          (fun i => x13 (ix1 ⟨(i 1).val, (i 1).isLt⟩)) x14
          (fun i => x15 (ix1 ⟨(i 1).val, (i 1).isLt⟩)) n c)
          (Cert.Spec.rowMax (Cert.Spec.logit (val_main_v136 (F := Ideal) x0 x1 x3 x4 x5 x6 x7 x8 x9 x10 x11) x12
          (fun i => x13 (ix1 ⟨(i 1).val, (i 1).isLt⟩)) x14
          (fun i => x15 (ix1 ⟨(i 1).val, (i 1).isLt⟩)) n))) := by
  have hi : ∀ c : Fin 2, idx_main_v157 (ix1 n) c = ix2 n c := fun c => funext fun a => Fin.ext (by
    match a with | ⟨0, _⟩ => rfl | ⟨1, _⟩ => rfl)
  rw [val_main_v157_apply, val_main_cst_28_apply]
  simp only [hi, v156_apply]
  show Ideal.ofBits .f32 0x00000000#32 + _ = _
  rw [Ideal.ofBits_zero_f32, zero_add]

/-- THE HEAD IS THE SPECIFICATION'S SOFTMAX STAGE over the second layer's node features. -/
theorem v160_eq (x0 : (⟨S50000x768, .f32⟩ : BufTy).Contents (Elt Ideal)) (x1 : (⟨S2x800000, .i32⟩ : BufTy).Contents (Elt Ideal))
    (x3 : (⟨S800000, .i32⟩ : BufTy).Contents (Elt Ideal)) (x4 : (⟨S768x768, .f32⟩ : BufTy).Contents (Elt Ideal))
    (x5 : (⟨S768, .f32⟩ : BufTy).Contents (Elt Ideal)) (x6 : (⟨S2x768x256, .f32⟩ : BufTy).Contents (Elt Ideal))
    (x7 : (⟨S768x256, .f32⟩ : BufTy).Contents (Elt Ideal)) (x8 : (⟨S256, .f32⟩ : BufTy).Contents (Elt Ideal))
    (x9 : (⟨S2x256x256, .f32⟩ : BufTy).Contents (Elt Ideal)) (x10 : (⟨S256x256, .f32⟩ : BufTy).Contents (Elt Ideal))
    (x11 : (⟨S256, .f32⟩ : BufTy).Contents (Elt Ideal))
    (x12 : (⟨S256x256, .f32⟩ : BufTy).Contents (Elt Ideal)) (x13 : (⟨S256, .f32⟩ : BufTy).Contents (Elt Ideal))
    (x14 : (⟨S256x2, .f32⟩ : BufTy).Contents (Elt Ideal)) (x15 : (⟨S2, .f32⟩ : BufTy).Contents (Elt Ideal)) :
    val_main_v160 (F := Ideal) x0 x1 x3 x4 x5 x6 x7 x8 x9 x10 x11 x12 x13 x14 x15
      = Cert.Spec.smFun (val_main_v136 (F := Ideal) x0 x1 x3 x4 x5 x6 x7 x8 x9 x10 x11) x12
          (fun i => x13 (ix1 ⟨(i 1).val, (i 1).isLt⟩)) x14
          (fun i => x15 (ix1 ⟨(i 1).val, (i 1).isLt⟩)) := by
  funext i
  obtain ⟨n, c, rfl⟩ : ∃ (n : Fin 50000) (c : Fin 2), i = ix2 n c := ⟨i 0, i 1, eq_ix2 i⟩
  have hi : idx_main_v158 (idx_main_v159 (ix2 n c)) = ix1 n := funext fun a => Fin.ext (by
    match a with | ⟨0, _⟩ => rfl)
  rw [val_main_v160_apply, val_main_v159_apply, val_main_v158_apply, hi, v157_apply, v156_apply]
  rfl

end Cert.RefDense

end
-- ==== Proof.RefLayers.lean ====
/-
  Each graph layer of the reference program is the aggregate function of its three dense terms: the root term with its
  bias, and the two relation transforms, over the source words, the destination words and the relation words.
-/
import proofs.«431101_j53455162966646_3_alg».proof.Proof.RefRead
import proofs.«431101_j53455162966646_3_alg».proof.Proof.RefFns

noncomputable section

namespace Cert.RefLayers

open Cert.ReferenceIdeal Cert.ReferenceIdeal.Gen Cert.ReferenceIdeal.Read Cert.ReferenceIdeal.Hand
open Idealize.ShloMosaic

variable {F : FTy → Type} [FloatOps F]

/-- The first layer's output is the aggregate of `h · root + bias`, `h · W₀` and `h · W₁`. -/
theorem layer1 (x0 : (⟨S50000x768, .f32⟩ : BufTy).Contents (Elt F)) (x1 : (⟨S2x800000, .i32⟩ : BufTy).Contents (Elt F)) (x3 : (⟨S800000, .i32⟩ : BufTy).Contents (Elt F)) (x4 : (⟨S768x768, .f32⟩ : BufTy).Contents (Elt F)) (x5 : (⟨S768, .f32⟩ : BufTy).Contents (Elt F)) (x6 : (⟨S2x768x256, .f32⟩ : BufTy).Contents (Elt F)) (x7 : (⟨S768x256, .f32⟩ : BufTy).Contents (Elt F)) (x8 : (⟨S256, .f32⟩ : BufTy).Contents (Elt F)) :
    val_main_v74 (F := F) x0 x1 x3 x4 x5 x6 x7 x8
      = rAgg (val_main_v16 (F := F) x0 x4 x5 x7 x8) (val_main_v21 (F := F) x0 x4 x5 x6) (val_main_v50 (F := F) x0 x4 x5 x6)
          (val_main_v1 (F := F) x1) (val_main_v3 (F := F) x1) x3 := rfl

/-- The second layer's output is the aggregate of the same three terms of the first layer's output. -/
theorem layer2 (x0 : (⟨S50000x768, .f32⟩ : BufTy).Contents (Elt F)) (x1 : (⟨S2x800000, .i32⟩ : BufTy).Contents (Elt F)) (x3 : (⟨S800000, .i32⟩ : BufTy).Contents (Elt F)) (x4 : (⟨S768x768, .f32⟩ : BufTy).Contents (Elt F)) (x5 : (⟨S768, .f32⟩ : BufTy).Contents (Elt F)) (x6 : (⟨S2x768x256, .f32⟩ : BufTy).Contents (Elt F)) (x7 : (⟨S768x256, .f32⟩ : BufTy).Contents (Elt F)) (x8 : (⟨S256, .f32⟩ : BufTy).Contents (Elt F)) (x9 : (⟨S2x256x256, .f32⟩ : BufTy).Contents (Elt F)) (x10 : (⟨S256x256, .f32⟩ : BufTy).Contents (Elt F)) (x11 : (⟨S256, .f32⟩ : BufTy).Contents (Elt F)) :
    val_main_v136 (F := F) x0 x1 x3 x4 x5 x6 x7 x8 x9 x10 x11
      = rAgg (val_main_v78 (F := F) x0 x1 x3 x4 x5 x6 x7 x8 x10 x11) (val_main_v83 (F := F) x0 x1 x3 x4 x5 x6 x7 x8 x9)
          (val_main_v112 (F := F) x0 x1 x3 x4 x5 x6 x7 x8 x9) (val_main_v1 (F := F) x1) (val_main_v3 (F := F) x1) x3 := rfl

end Cert.RefLayers

end
-- ==== Proof.Bridge.lean ====
/-
  The two programs compute one function.  On the extended reals, with every relation word 0 or 1:
  the first dense stage's three column blocks are the reference's root term and its two relation transforms, so the
  kernel's first graph layer is the reference's first aggregate; the same holds one layer later over those node features;
  and the softmax head is the same function of the second layer's features on both sides.
  No finiteness of the inputs is used: the regrouping of the scaled sums holds for all extended reals.
-/
import proofs.«431101_j53455162966646_3_alg».proof.Proof.KI.Result
import proofs.«431101_j53455162966646_3_alg».proof.Proof.KI.CombEntries
import proofs.«431101_j53455162966646_3_alg».proof.Proof.Graph
import proofs.«431101_j53455162966646_3_alg».proof.Proof.RefDense
import proofs.«431101_j53455162966646_3_alg».proof.Proof.RefLayers
import Idealize.ShloMosaic.Lib.ValueLayout

noncomputable section

namespace Cert.Bridge

open Idealize.ShloMosaic Idealize.ShloMosaic.ValueIdx
open Cert.KernelIdeal.Hand Cert.ReferenceIdeal.Read Cert.Spec

/-- The hidden entry sees the bias row only at its entries `(0, k)`. -/
theorem hidden_congr {d e : ℕ} (x : FVec Ideal ⟨2, ![50000, d]⟩ .f32) (w : FVec Ideal ⟨2, ![d, e]⟩ .f32)
    (b b' : FVec Ideal ⟨2, ![1, e]⟩ .f32) (h : ∀ k : Fin e, b (ix2 (0 : Fin 1) k) = b' (ix2 (0 : Fin 1) k))
    (n : Fin 50000) (k : Fin e) : Cert.Spec.hidden x w b n k = Cert.Spec.hidden x w b' n k := by
  unfold Cert.Spec.hidden; rw [h]

/-- A vector cast to a one-row array, against the row that reads the vector at the column: the same entries. -/
theorem row_of_vec {a : ℕ} (v : (⟨1, ![a]⟩ : Shape).Idx → Ideal .f32) (h : (⟨1, ![a]⟩ : Shape).ShapeCasts ⟨2, ![1, a]⟩) (k : Fin a) :
    shapeCast ⟨2, ![1, a]⟩ v h (ix2 (0 : Fin 1) k) = (fun i : (⟨2, ![1, a]⟩ : Shape).Idx => v (ix1 ⟨(i 1).val, (i 1).isLt⟩)) (ix2 (0 : Fin 1) k) :=
  ValueIdx.shapeCast_a_1a_apply v h 0 k

/-- The logits see the two bias rows only at their entries `(0, ·)`. -/
theorem logit_congr (h : FVec Ideal ⟨2, ![50000, 256]⟩ .f32) (w2 : FVec Ideal ⟨2, ![256, 256]⟩ .f32)
    (b2 b2' : FVec Ideal ⟨2, ![1, 256]⟩ .f32) (wo : FVec Ideal ⟨2, ![256, 2]⟩ .f32) (bo bo' : FVec Ideal ⟨2, ![1, 2]⟩ .f32)
    (hb : ∀ k : Fin 256, b2 (ix2 (0 : Fin 1) k) = b2' (ix2 (0 : Fin 1) k))
    (ho : ∀ c : Fin 2, bo (ix2 (0 : Fin 1) c) = bo' (ix2 (0 : Fin 1) c)) (n : Fin 50000) :
    logit h w2 b2 wo bo n = logit h w2 b2' wo bo' n := by
  funext c
  unfold logit
  rw [ho c]
  congr 1
  exact Finset.sum_congr rfl fun k _ => by rw [hidden_congr h w2 b2 b2' hb n k]

/-- So does the softmax head. -/
theorem smFun_congr (h : FVec Ideal ⟨2, ![50000, 256]⟩ .f32) (w2 : FVec Ideal ⟨2, ![256, 256]⟩ .f32)
    (b2 b2' : FVec Ideal ⟨2, ![1, 256]⟩ .f32) (wo : FVec Ideal ⟨2, ![256, 2]⟩ .f32) (bo bo' : FVec Ideal ⟨2, ![1, 2]⟩ .f32)
    (hb : ∀ k : Fin 256, b2 (ix2 (0 : Fin 1) k) = b2' (ix2 (0 : Fin 1) k))
    (ho : ∀ c : Fin 2, bo (ix2 (0 : Fin 1) c) = bo' (ix2 (0 : Fin 1) c)) :
    smFun h w2 b2 wo bo = smFun h w2 b2' wo bo' := by
  funext i
  unfold smFun
  rw [logit_congr h w2 b2 b2' wo bo bo' hb ho (row i)]

/-- Both programs read the source words as row 0 of the edge list. -/
theorem src_eq (x1 : (⟨Cert.ReferenceIdeal.S2x800000, .i32⟩ : BufTy).Contents (Elt Ideal)) : srcOf (F := Ideal) x1 = val_main_v1 (F := Ideal) x1 := rfl
/-- Both programs read the destination words as row 1 of the edge list. -/
theorem dst_eq (x1 : (⟨Cert.ReferenceIdeal.S2x800000, .i32⟩ : BufTy).Contents (Elt Ideal)) : dstOf (F := Ideal) x1 = val_main_v3 (F := Ideal) x1 := rfl

/-- After the first graph layer both programs hold the same node features. -/
theorem h1_eq (x0 : (⟨Cert.ReferenceIdeal.S50000x768, .f32⟩ : BufTy).Contents (Elt Ideal)) (x1 : (⟨Cert.ReferenceIdeal.S2x800000, .i32⟩ : BufTy).Contents (Elt Ideal)) (x3 : (⟨Cert.ReferenceIdeal.S800000, .i32⟩ : BufTy).Contents (Elt Ideal)) (x4 : (⟨Cert.ReferenceIdeal.S768x768, .f32⟩ : BufTy).Contents (Elt Ideal)) (x5 : (⟨Cert.ReferenceIdeal.S768, .f32⟩ : BufTy).Contents (Elt Ideal)) (x6 : (⟨Cert.ReferenceIdeal.S2x768x256, .f32⟩ : BufTy).Contents (Elt Ideal)) (x7 : (⟨Cert.ReferenceIdeal.S768x256, .f32⟩ : BufTy).Contents (Elt Ideal)) (x8 : (⟨Cert.ReferenceIdeal.S256, .f32⟩ : BufTy).Contents (Elt Ideal))
    (hEt : ∀ e : Fin 800000, x3 (ix1 e) = 0#32 ∨ x3 (ix1 e) = 1#32) :
    kH1 x0 x1 x3 x4 x5 x6 x7 x8 = val_main_v74 (F := Ideal) x0 x1 x3 x4 x5 x6 x7 x8 := by
  rw [Cert.RefLayers.layer1]
  unfold kH1
  rw [src_eq, dst_eq]
  refine Cert.Graph.layer_eq _ x8 _ _ x3 _ _ _ hEt (fun n j => ?_) (fun n j => ?_) (fun n j => ?_)
  · rw [Cert.RefDense.v16_apply]
    show _ = (∑ k : Fin 768, Cert.Spec.hidden x0 x4 _ n k * comb768 (F := Ideal) x7 x6 (ix2 k ⟨j.val, _⟩)) + _
    congr 1
    refine Finset.sum_congr rfl fun k _ => ?_
    rw [comb768_root]
    congr 1
    exact hidden_congr _ _ _ _ (fun k => (row_of_vec x5 _ k).symm) n k
  · rw [Cert.RefDense.v21_apply]
    show _ = ∑ k : Fin 768, Cert.Spec.hidden x0 x4 _ n k * comb768 (F := Ideal) x7 x6 (ix2 k ⟨256 + j.val, _⟩)
    refine Finset.sum_congr rfl fun k _ => ?_
    rw [comb768_rel0]
    congr 1
    exact hidden_congr _ _ _ _ (fun k => (row_of_vec x5 _ k).symm) n k
  · rw [Cert.RefDense.v50_apply]
    show _ = ∑ k : Fin 768, Cert.Spec.hidden x0 x4 _ n k * comb768 (F := Ideal) x7 x6 (ix2 k ⟨512 + j.val, _⟩)
    refine Finset.sum_congr rfl fun k _ => ?_
    rw [comb768_rel1]
    congr 1
    exact hidden_congr _ _ _ _ (fun k => (row_of_vec x5 _ k).symm) n k

/-- After the second graph layer both programs hold the same node features. -/
theorem h2_eq (x0 : (⟨Cert.ReferenceIdeal.S50000x768, .f32⟩ : BufTy).Contents (Elt Ideal)) (x1 : (⟨Cert.ReferenceIdeal.S2x800000, .i32⟩ : BufTy).Contents (Elt Ideal)) (x3 : (⟨Cert.ReferenceIdeal.S800000, .i32⟩ : BufTy).Contents (Elt Ideal)) (x4 : (⟨Cert.ReferenceIdeal.S768x768, .f32⟩ : BufTy).Contents (Elt Ideal)) (x5 : (⟨Cert.ReferenceIdeal.S768, .f32⟩ : BufTy).Contents (Elt Ideal)) (x6 : (⟨Cert.ReferenceIdeal.S2x768x256, .f32⟩ : BufTy).Contents (Elt Ideal)) (x7 : (⟨Cert.ReferenceIdeal.S768x256, .f32⟩ : BufTy).Contents (Elt Ideal)) (x8 : (⟨Cert.ReferenceIdeal.S256, .f32⟩ : BufTy).Contents (Elt Ideal)) (x9 : (⟨Cert.ReferenceIdeal.S2x256x256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal))
    (hEt : ∀ e : Fin 800000, x3 (ix1 e) = 0#32 ∨ x3 (ix1 e) = 1#32) :
    kH2 x0 x1 x3 x4 x5 x6 x7 x8 x9 x10 x11 = val_main_v136 (F := Ideal) x0 x1 x3 x4 x5 x6 x7 x8 x9 x10 x11 := by
  rw [Cert.RefLayers.layer2]
  unfold kH2
  rw [h1_eq x0 x1 x3 x4 x5 x6 x7 x8 hEt, src_eq, dst_eq]
  refine Cert.Graph.layer_eq _ x11 _ _ x3 _ _ _ hEt (fun n j => ?_) (fun n j => ?_) (fun n j => ?_)
  · rw [Cert.RefDense.v78_apply]
    show _ = (∑ k : Fin 256, _ * comb256 (F := Ideal) x10 x9 (ix2 k ⟨j.val, _⟩)) + _
    congr 1
    refine Finset.sum_congr rfl fun k _ => ?_
    rw [comb256_root]
  · rw [Cert.RefDense.v83_apply]
    show _ = ∑ k : Fin 256, _ * comb256 (F := Ideal) x10 x9 (ix2 k ⟨256 + j.val, _⟩)
    refine Finset.sum_congr rfl fun k _ => ?_
    rw [comb256_rel0]
  · rw [Cert.RefDense.v112_apply]
    show _ = ∑ k : Fin 256, _ * comb256 (F := Ideal) x10 x9 (ix2 k ⟨512 + j.val, _⟩)
    refine Finset.sum_congr rfl fun k _ => ?_
    rw [comb256_rel1]

/-- The kernel program's result is the reference program's result. -/
theorem result_eq (x0 : (⟨Cert.ReferenceIdeal.S50000x768, .f32⟩ : BufTy).Contents (Elt Ideal)) (x1 : (⟨Cert.ReferenceIdeal.S2x800000, .i32⟩ : BufTy).Contents (Elt Ideal)) (x3 : (⟨Cert.ReferenceIdeal.S800000, .i32⟩ : BufTy).Contents (Elt Ideal)) (x4 : (⟨Cert.ReferenceIdeal.S768x768, .f32⟩ : BufTy).Contents (Elt Ideal)) (x5 : (⟨Cert.ReferenceIdeal.S768, .f32⟩ : BufTy).Contents (Elt Ideal)) (x6 : (⟨Cert.ReferenceIdeal.S2x768x256, .f32⟩ : BufTy).Contents (Elt Ideal)) (x7 : (⟨Cert.ReferenceIdeal.S768x256, .f32⟩ : BufTy).Contents (Elt Ideal)) (x8 : (⟨Cert.ReferenceIdeal.S256, .f32⟩ : BufTy).Contents (Elt Ideal)) (x9 : (⟨Cert.ReferenceIdeal.S2x256x256, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S256x256, .f32⟩ : BufTy).Contents (Elt Ideal)) (x13 : (⟨Cert.ReferenceIdeal.S256, .f32⟩ : BufTy).Contents (Elt Ideal)) (x14 : (⟨Cert.ReferenceIdeal.S256x2, .f32⟩ : BufTy).Contents (Elt Ideal)) (x15 : (⟨Cert.ReferenceIdeal.S2, .f32⟩ : BufTy).Contents (Elt Ideal))
    (hEt : ∀ e : Fin 800000, x3 (ix1 e) = 0#32 ∨ x3 (ix1 e) = 1#32) :
    kResult x0 x1 x3 x4 x5 x6 x7 x8 x9 x10 x11 x12 x13 x14 x15 = val_main_v160 (F := Ideal) x0 x1 x3 x4 x5 x6 x7 x8 x9 x10 x11 x12 x13 x14 x15 := by
  rw [Cert.RefDense.v160_eq]
  unfold kResult
  rw [h2_eq x0 x1 x3 x4 x5 x6 x7 x8 x9 x10 x11 hEt]
  exact smFun_congr _ _ _ _ _ _ _ (fun k => row_of_vec x13 _ k) (fun c => row_of_vec x15 _ c)

end Cert.Bridge

end
-- ==== Proof.EdgeTypeRange.lean ====
/-
  The relation words are 0 or 1.  The precondition is a conjunction of "all" tests over the sixteen inputs; its last two
  conjuncts say of the relation words `t`, each read signed, that every `t e ≥ 0` and every `t e < 2`.  An "all" test is
  a reduction by "and" into one word, from the word 1: when the result is 1, every element tested was 1.  A signed word in
  [0, 2) is the word 0 or the word 1.
-/
import proofs.«431101_j53455162966646_3_alg».proof.Proof.Gen.Pre_finite_inputs
import Idealize.ShloMosaic.Lib.ReduceAll
import Idealize.ShloMosaic.Lib.StableHlo.Predicate
import Idealize.ShloMosaic.Lib.ValueIdx

noncomputable section

namespace Cert.EdgeTypeRange

open Idealize.ShloMosaic Idealize.ShloMosaic.StableHlo
open Cert.Pre_finite_inputs

/-- The shape with no axes has one index. -/
local instance : Subsingleton S_.Idx := ⟨fun a b => funext fun d => d.elim0⟩

/-- A 32-bit word that is at least 0 and below 2, read signed, is the word 0 or the word 1. -/
theorem word_zero_or_one (w : BitVec 32) (h0 : (0#32 : BitVec 32).toInt ≤ w.toInt) (h2 : w.toInt < (2#32 : BitVec 32).toInt) :
    w = 0#32 ∨ w = 1#32 := by
  have e0 : (0#32 : BitVec 32).toInt = 0 := by decide
  have e2 : (2#32 : BitVec 32).toInt = 2 := by decide
  rw [e0] at h0; rw [e2] at h2
  have hn : w.toInt = (w.toNat : Int) := by
    rw [BitVec.toInt_eq_toNat_cond] at h0 h2 ⊢
    have := w.isLt
    split at h0 <;> omega
  have hlt : w.toNat < 2 := by omega
  rcases Nat.lt_succ_iff_lt_or_eq.1 hlt with h | h
  · left; apply BitVec.eq_of_toNat_eq; simp only [BitVec.toNat_ofNat]; omega
  · right; apply BitVec.eq_of_toNat_eq; simp only [BitVec.toNat_ofNat]; omega

/-- The last stretch of the precondition: whatever the earlier conjuncts came to, when the whole is 1 the two tests of
    the relation words were 1 at every word. -/
theorem part4_zero_or_one {F : FTy → Type} [FloatOps F] [Facts] (t : IVec S800000 32) (x y : IVec S_ 1)
    (h : fn_part4 (F := F) t x y = (fun _ => 1#1)) :
    ∀ e : Fin 800000, t (ValueIdx.ix1 e) = 0#32 ∨ t (ValueIdx.ix1 e) = 1#32 := by
  intro e
  have h0 := congrFun h ValueIdx.ix0
  unfold fn_part4 at h0
  simp only [andi, IntOp.andi_eq_one] at h0
  obtain ⟨⟨-, hge⟩, hlt⟩ := h0
  have gge := Host.reduce_andi_all _ _ _ _ _ hge (ValueIdx.ix1 e)
  have glt := Host.reduce_andi_all _ _ _ _ _ hlt (ValueIdx.ix1 e)
  simp only [cmpi, broadcastInDim, constantI] at gge glt
  exact word_zero_or_one _ (IntOp.cmpi_sge.1 gge) (IntOp.cmpi_slt.1 glt)

/-- Under the precondition every relation word is 0 or 1. -/
theorem et_zero_or_one {F : FTy → Type} [FloatOps F] [Cert.Pre_finite_inputs.Facts]
    (a0 : FVec F Cert.Pre_finite_inputs.S50000x768 .f32) (a1 : IVec Cert.Pre_finite_inputs.S2x800000 32)
    (a2 : FVec F Cert.Pre_finite_inputs.S800000 .f32) (a3 : IVec Cert.Pre_finite_inputs.S800000 32)
    (a4 : FVec F Cert.Pre_finite_inputs.S768x768 .f32) (a5 : FVec F Cert.Pre_finite_inputs.S768 .f32)
    (a6 : FVec F Cert.Pre_finite_inputs.S2x768x256 .f32) (a7 : FVec F Cert.Pre_finite_inputs.S768x256 .f32)
    (a8 : FVec F Cert.Pre_finite_inputs.S256 .f32) (a9 : FVec F Cert.Pre_finite_inputs.S2x256x256 .f32)
    (a10 : FVec F Cert.Pre_finite_inputs.S256x256 .f32) (a11 : FVec F Cert.Pre_finite_inputs.S256 .f32)
    (a12 : FVec F Cert.Pre_finite_inputs.S256x256 .f32) (a13 : FVec F Cert.Pre_finite_inputs.S256 .f32)
    (a14 : FVec F Cert.Pre_finite_inputs.S256x2 .f32) (a15 : FVec F Cert.Pre_finite_inputs.S2 .f32)
    (h : Cert.Pre_finite_inputs.fn (F := F) a0 a1 a2 a3 a4 a5 a6 a7 a8 a9 a10 a11 a12 a13 a14 a15 = (fun _ => 1#1)) :
    ∀ e : Fin 800000, a3 (Idealize.ShloMosaic.ValueIdx.ix1 e) = 0#32 ∨ a3 (Idealize.ShloMosaic.ValueIdx.ix1 e) = 1#32 := by
  unfold Cert.Pre_finite_inputs.fn Cert.Pre_finite_inputs.fn_part1 Cert.Pre_finite_inputs.fn_part2
    Cert.Pre_finite_inputs.fn_part3 at h
  exact part4_zero_or_one a3 _ _ h

end Cert.EdgeTypeRange

end
-- ==== Proof.lean ====
/-
  The certificate's five claims.

  FRAMES.  Each of the two kernel programs (the word-level one and its idealization, the same text read at two instances)
  is a host program of eight segments: three stretches of host operations, then three pallas_calls with a stretch of
  host operations before each of the last two.  Each pallas_call's body loads its whole input blocks, computes, and
  stores its whole output block, so the pipeline's proof data names what every staging buffer holds after the body at
  every grid point; the run threads the buffers' contents through the eight segments, and no segment writes an argument.
  The reference is a host program with no kernel; its run is read back one operation at a time.

  VALUES, on the extended reals.  The kernel fuses each layer's root transform and its two relation transforms into one
  product with a three-block matrix, gathers per edge the block row at (source, relation), scales it by one over the
  number of edges of that relation arriving at the destination, and sums per destination once.  The reference sums each
  relation apart (the other relation's rows zeroed by a mask) and divides each sum by its count.  Where every relation
  word is 0 or 1 the two agree: multiplying by zero gives zero, finite sums regroup, and a non-negative real factor
  distributes over a sum of extended reals, so no finiteness of the inputs is needed.  The softmax heads are the same
  function of the same features.  A relation word outside {0, 1} is where the two programs part: the kernel's gathers clamp
  it to a relation and add that edge's message, the reference's masks match no relation and add nothing; the
  precondition states the range.
-/
import proofs.«431101_j53455162966646_3_alg».proof.Defs
import proofs.«431101_j53455162966646_3_alg».proof.Proof.Gen.Kernel
import proofs.«431101_j53455162966646_3_alg».proof.Proof.Gen.KernelIdeal
import proofs.«431101_j53455162966646_3_alg».proof.Proof.Gen.ReferenceIdeal
import proofs.«431101_j53455162966646_3_alg».proof.Proof.Gen.Pre_finite_inputs
import proofs.«431101_j53455162966646_3_alg».proof.Proof.K.Run
import proofs.«431101_j53455162966646_3_alg».proof.Proof.KI.Compose
import proofs.«431101_j53455162966646_3_alg».proof.Proof.Bridge
import proofs.«431101_j53455162966646_3_alg».proof.Proof.EdgeTypeRange
import proofs.«431101_j53455162966646_3_alg».proof.Proof.RefRead
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same class probabilities. -/
theorem algebraic : Cert.algebraic_KernelIdeal_ReferenceIdeal := by
  intro m ρ m' ρ' hpre hagree
  refine ⟨fun c => Cert.KernelIdeal.Hand.kResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.Hand.run_kernel m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, _, e3, e4, e5, e6, e7, e8, e9, e10, e11, e12, e13, e14, e15⟩ := hagree c
  rw [Cert.ReferenceIdeal.Read.val_main_v160_eq, e0, e1, e3, e4, e5, e6, e7, e8, e9, e10, e11, e12, e13, e14, e15]
  exact (Cert.Bridge.result_eq _ _ _ _ _ _ _ _ _ _ _ _ _ _ _
    (Cert.EdgeTypeRange.et_zero_or_one _ _ _ _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
